-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)) (v4 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_v1_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x128 : Shape := ⟨2, ![512, 128]⟩
abbrev S128 : Shape := ⟨1, ![128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S4096x4096 .f32) (main_arg3 : FVec F S4096x4096 .f32) (main_arg4 : FVec F S512x128 .f32) (main_arg5 : FVec F S128 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x128 : Shape := ⟨2, ![512, 128]⟩
abbrev S128 : Shape := ⟨1, ![128]⟩
abbrev S4096x128 : Shape := ⟨2, ![4096, 128]⟩
abbrev S512x512 : Shape := ⟨2, ![512, 512]⟩
abbrev S1x128 : Shape := ⟨2, ![1, 128]⟩
abbrev S4096x1 : Shape := ⟨2, ![4096, 1]⟩
abbrev S512x1 : Shape := ⟨2, ![512, 1]⟩
abbrev S128x512 : Shape := ⟨2, ![128, 512]⟩
abbrev S512 : Shape := ⟨1, ![512]⟩
abbrev S_ : Shape := ⟨0, ![]⟩
abbrev S1x4096 : Shape := ⟨2, ![1, 4096]⟩
abbrev S1x512 : Shape := ⟨2, ![1, 512]⟩

abbrev nBuf : Space → Nat
  | .hbm => 24
  | .vmem => 44
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S512x128, .f32⟩
  | .hbm, ⟨5, _⟩ => ⟨S128, .f32⟩
  | .hbm, ⟨6, _⟩ => ⟨S4096x128, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S1x4096, .f32⟩
  | .hbm, ⟨21, _⟩ => ⟨S1x4096, .f32⟩
  | .hbm, ⟨22, _⟩ => ⟨S4096x4096, .f32⟩
  | .hbm, ⟨23, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x1, .f32⟩
  | .local _ .vmem, ⟨33, _⟩ => ⟨S512x1, .f32⟩
  | .local _ .vmem, ⟨34, _⟩ => ⟨S1x512, .f32⟩
  | .local _ .vmem, ⟨35, _⟩ => ⟨S1x512, .f32⟩
  | .local _ .vmem, ⟨36, _⟩ => ⟨S512x1, .f32⟩
  | .local _ .vmem, ⟨37, _⟩ => ⟨S512x1, .f32⟩
  | .local _ .vmem, ⟨38, _⟩ => ⟨S1x512, .f32⟩
  | .local _ .vmem, ⟨39, _⟩ => ⟨S1x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg7_1 : Ref sig .tc := ⟨.vmem, 41, rfl⟩
abbrev cc2_stg8_0 : Ref sig .tc := ⟨.vmem, 42, rfl⟩
abbrev cc2_stg8_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem6_1 : DmaSem sig := 39
abbrev cc2_sem7_0 : DmaSem sig := 40
abbrev cc2_sem7_1 : DmaSem sig := 41
abbrev cc2_sem8_0 : DmaSem sig := 42
abbrev cc2_sem8_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S512x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

class Facts₀ : Prop where
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x1_S512x1_0_0 : ∀ a, (![0, 0] : Fin 2 → Nat) a + S512x1.size a ≤ S512x1.size a
  h_S512x1 : 0 < S512x1.numel
  shapeCasts_S512x128_S512x128 : S512x128.ShapeCasts S512x128
  transposes_S512x128_p1_0_S128x512 : S512x128.Transposes [1, 0] S128x512
  natLt_1_32 : 1 < 32
  shapeCasts_S512x1_S512x1 : S512x1.ShapeCasts S512x1
  reduces_S512x512_S512 : S512x512.Reduces [1] S512
  shapeCasts_S512_S512x1 : S512.ShapeCasts S512x1
  bcast_S_S4096x1 : S_.BroadcastsInDim S4096x1 (![] : Fin 0 → Fin S4096x1.rank)
  shapeCasts_S4096x1_S1x4096 : S4096x1.ShapeCasts S1x4096
  iota_S512x512_d0_w32 : S512x512.Iotas .tc 32 [0]
  iota_S512x512_d1_w32 : S512x512.Iotas .tc 32 [1]
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  dot_S512x512_S512x128_S512x128_1_0_0_1_n_n_wf : DotDims.WF S512x512 S512x128 S512x128 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .f32 = 32 ∨ (Rect.block (s := S4096x4096) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x4096.size a
  hwx1_5 : ∀ i : grid1.Coords, EltTy.bits .f32 = 32 ∨ (Rect.block (s := S4096x4096) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x4096.size a
  hwx1_6 : ∀ i : grid1.Coords, EltTy.bits .f32 = 32 ∨ (Rect.block (s := S4096x4096) S512x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S4096x4096.size a
  hwx1_7 : ∀ i : grid1.Coords, EltTy.bits .f32 = 32 ∨ (Rect.block (s := S4096x4096) S512x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S4096x1.size a
  hwx1_8 : ∀ i : grid1.Coords, EltTy.bits .f32 = 32 ∨ (Rect.block (s := S4096x1) S512x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x1.size a ≤ S4096x1.size a
  hwx1_9 : ∀ i : grid1.Coords, EltTy.bits .f32 = 32 ∨ (Rect.block (s := S4096x1) S512x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .f32 = 32 ∨ (Rect.block (s := S4096x4096) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x4096.size a
  hwx2_1 : ∀ i : grid2.Coords, EltTy.bits .f32 = 32 ∨ (Rect.block (s := S4096x4096) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x4096.size a
  hwx2_2 : ∀ i : grid2.Coords, EltTy.bits .f32 = 32 ∨ (Rect.block (s := S4096x4096) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .f32 = 32 ∨ (Rect.block (s := S4096x1) S512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x4096.size a
  hwx2_4 : ∀ i : grid2.Coords, EltTy.bits .f32 = 32 ∨ (Rect.block (s := S1x4096) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S4096x1.size a
  hwx2_5 : ∀ i : grid2.Coords, EltTy.bits .f32 = 32 ∨ (Rect.block (s := S4096x1) S512x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x4096.size a
  hwx2_6 : ∀ i : grid2.Coords, EltTy.bits .f32 = 32 ∨ (Rect.block (s := S1x4096) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S4096x4096.size a
  hwx2_7 : ∀ i : grid2.Coords, EltTy.bits .f32 = 32 ∨ (Rect.block (s := S4096x4096) S512x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x512.size a ≤ S4096x4096.size a
  hwx2_8 : ∀ i : grid2.Coords, EltTy.bits .f32 = 32 ∨ (Rect.block (s := S4096x4096) S512x512.size (cc2_transform_8 i) (hinb2_8 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_0) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_1) S512x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_2) S512x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1_3) S512x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1_4) S512x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v1_0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_2) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v7) S512x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v10_0) S512x512.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v10_1) S512x512.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x128 : Shape := ⟨2, ![512, 128]⟩
abbrev S128 : Shape := ⟨1, ![128]⟩
abbrev S4096x128 : Shape := ⟨2, ![4096, 128]⟩
abbrev S1x128 : Shape := ⟨2, ![1, 128]⟩
abbrev S_ : Shape := ⟨0, ![]⟩
abbrev S128x4096 : Shape := ⟨2, ![128, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 94
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S512x128, .f32⟩
  | .hbm, ⟨5, _⟩ => ⟨S128, .f32⟩
  | .hbm, ⟨6, _⟩ => ⟨S4096x128, .f32⟩
  | .hbm, ⟨7, _⟩ => ⟨S1x128, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | .hbm, ⟨13, _⟩ => ⟨S128x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .i32⟩
  | .hbm, ⟨57, _⟩ => ⟨S4096x4096, .i32⟩
  | .hbm, ⟨58, _⟩ => ⟨S_, .i32⟩
  | .hbm, ⟨59, _⟩ => ⟨S4096x4096, .i32⟩
  | .hbm, ⟨60, _⟩ => ⟨S4096x4096, .i32⟩
  | .hbm, ⟨61, _⟩ => ⟨S4096x4096, .i1⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096x1, .f32⟩
  | .hbm, ⟨71, _⟩ => ⟨S4096x4096, .f32⟩
  | .hbm, ⟨72, _⟩ => ⟨S4096x4096, .f32⟩
  | .hbm, ⟨73, _⟩ => ⟨S1x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x4096, .f32⟩
  | .hbm, ⟨85, _⟩ => ⟨S4096x4096, .f32⟩
  | .hbm, ⟨86, _⟩ => ⟨S1x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x512_S512x128_S4096x128_1_0_0_1_n_n_wf : DotDims.WF S4096x512 S512x128 S4096x128 [1] [0] [0] [1] [] []
  dot_S4096x128_S128x4096_S4096x4096_1_0_0_1_n_n_wf : DotDims.WF S4096x128 S128x4096 S4096x4096 [1] [0] [0] [1] [] []

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.KBody0.lean ====
/-
  The first kernel region: `emb = max(features · W1 + b1, 0)`, eight grid points, each taking a block of 512 rows of
  `features` with the whole of `W1` and `b1` and leaving a block of 512 rows of `emb`.

  Stated at a PARAMETER `V`, the contents of the unscoped buffers when the region is entered: what each window's
  block is at a point (`iblk0`), what the body leaves in the output's staging buffer as one function of the three
  input blocks (`out0_3`: the body's only store, its payload the matrix product plus the broadcast bias, clipped below
  at zero), the body's triple on any staging memrefs (`sound_kernel0`), the region's proof data (`dat0`) and the
  obligation at every grid point (`body_obligation0`). The body reads each input block once and writes the output
  block whole, so nothing is carried from one point to the next.
-/
import proofs.«119275_j1889785610729_1_alg».proof.Proof.Gen.Kernel.Launch
import proofs.«119275_j1889785610729_1_alg».proof.Proof.Gen.Kernel.Skeleton
import proofs.«119275_j1889785610729_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block in
    place. One statement per input window: the block's type reduces only at a literal window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev rX0 : Rect S512x512 := Rect.unit (s := S512x512) ![0, 0] S512x512.size inb_S512x512_S512x512_0_0
abbrev rW0 : Rect S512x128 := Rect.unit (s := S512x128) ![0, 0] S512x128.size inb_S512x128_S512x128_0_0
abbrev rB0 : Rect S128 := Rect.unit (s := S128) ![0] S128.size inb_S128_S128_0

/-- The output's staging buffer after the body, from the three input blocks: the one store's payload over its
    rectangle, which is the whole block. -/
def out0_3 (x0 : Vec F S512x512 .f32) (x1 : Vec F S512x128 .f32) (x2 : Vec F S128 .f32) : Vec F S512x128 .f32 :=
  View.canon [⟨rW0, k0_pay1 (View.ld x0 rX0) (View.ld x1 rW0) (View.ld x2 rB0)⟩]

/-- The store's rectangle is the whole block, so it covers it. -/
theorem cover0_3 (p0 : Vec F S512x128 .f32) (y : S512x128.Idx) :
    ∃ pc ∈ ([⟨rW0, p0⟩] : List (View.Piece (Elt F) S512x128 .f32)), y ∈ pc.1.set :=
  View.cover_of_tiled [⟨rW0, p0⟩] S512x128.size (by rfl) y

/-! ## The body's triple -/

set_option maxHeartbeats 1000000 in
/-- The body on whole staging memrefs, the inputs' at contents `x0`, `x1`, `x2` and the output's at anything, runs to
    the continuation holding the inputs' as they were and the output's at `out0_3` of them. -/
theorem sound_kernel0 (c : Dev nD) (E : Set ℕ) (i : grid0.Coords)
    (arg1 : Memref sig .tc .vmem S512x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S512x128 .f32) (harg4 : arg4.IsWhole)
    (x0 : Vec F S512x512 .f32) (x1 : Vec F S512x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__emb_kernel i arg1 harg1 arg2 harg2 arg3 harg3 arg4 harg4) K := by
  simp only [cc0__emb_kernel_eq_skeleton]; unfold cc0__emb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as the region finds them; after the body at point `t` each
    input's buffer at its block and the output's at `out0_3` of the input blocks; between points only the scoped
    buffers no window stages and the generator register, untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.LibWholeStore.lean ====
/-
  A store through the whole of a buffer, read back.

  When the last of a list of unmasked stores into a buffer of shape `S` goes through the rectangle that starts at
  the origin and has the buffer's own extents, the buffer afterwards holds that store's payload, whatever the
  earlier stores and the prior contents were: the rectangle is the whole index set, so it alone covers it, and the
  canonical contents of a list of pieces take each index from the first piece that holds it.
-/
import Idealize.ShloMosaic.Lib.Pipeline.Value
import Idealize.ShloMosaic.Lib.Pipeline.FrameBody

namespace Idealize.ShloMosaic.WholeStore

open Idealize.ShloMosaic

variable {Val : EltTy → Type} [∀ e, Nonempty (Val e)] {S : Shape} {e : EltTy}

/-- The whole-buffer rectangle holds every index, so a list of pieces that begins with it covers the buffer. -/
theorem cover_cons {off : Fin S.rank → Nat} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- Read back after the stores, the buffer holds the last store's payload. -/
theorem read_writes_cons {sig : RefSig} {κ : Kind} {sp : Space} (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ (cover_cons h inb w L)).trans (View.canon_cons_unit_zero h inb w L)

/-- The origin of a rank-2 shape. -/
theorem hz2 : (![0, 0] : Fin 2 → Nat) = fun _ => 0 := funext fun a => by fin_cases a <;> rfl
/-- The origin of a rank-1 shape. -/
theorem hz1 : (![0] : Fin 1 → Nat) = fun _ => 0 := funext fun a => by fin_cases a; rfl

end Idealize.ShloMosaic.WholeStore
-- ==== Proof.KBody1.lean ====
/-
  The second kernel region, an 8 × 8 grid over 512 × 512 tiles of the three N × N inputs. At point (i, j) the body
  takes the tiles of `adj`, `adj_two_order` and `eps_rand` and the row blocks i and j of `emb`, and leaves the tiles
  of `w_lp`, `w_hp` and `edge_mask`. Two further outputs, the row sums of `w_lp` and of `w_hp` for row block i, are
  carried along the inner axis: the body clears them at j = 0, adds the tile's row sums at every j, and adds one at
  j = 7; their block index depends on i only, so their staging buffers are written back at j = 7 alone and at
  j > 0 still hold what the point before left.
-/
import proofs.«119275_j1889785610729_1_alg».proof.Proof.Gen.Kernel.Launch
import proofs.«119275_j1889785610729_1_alg».proof.Proof.Gen.Kernel.Skeleton
import proofs.«119275_j1889785610729_1_alg».proof.Proof.Gen.Kernel.Points
import proofs.«119275_j1889785610729_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.WholeStore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The body's first `scf.if`: the inner coordinate is zero. -/
abbrev cond1_0 (i : grid1.Coords) : Prop := (Scalar.cmpi .ne (Scalar.extui (Scalar.cmpi .eq (BitVec.ofNat 32 (i 1).val) 0#32)) 0#32) = 1#1
/-- The body's second `scf.if`: the inner coordinate is seven, the last. -/
abbrev cond1_1 (i : grid1.Coords) : Prop := (Scalar.cmpi .ne (Scalar.extui (Scalar.cmpi .eq (BitVec.ofNat 32 (i 1).val) 7#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-! ## What the body computes -/

/-- The tile of `edge_mask`: one where either adjacency tile is nonzero. -/
def msk1 (x0 x1 : Vec F S512x512 .f32) : Vec F S512x512 .f32 := k1_pay11 x0 x1
/-- The gate's argument: `log ε − log1p (−ε) + S · mult`, ε the rescaled `eps_rand` tile, S the tile of `emb · embᵀ`. -/
def gat1 (x0 x1 x2 : Vec F S512x512 .f32) (x3 x4 : Vec F S512x128 .f32) : Vec F S512x512 .f32 := k1_pay12 x3 x4 x0 x1 x2
/-- The tile of `w_lp`. -/
def out1_5 (x0 x1 x2 : Vec F S512x512 .f32) (x3 x4 : Vec F S512x128 .f32) : Vec F S512x512 .f32 :=
  k1_pay2 (msk1 x0 x1) (gat1 x0 x1 x2 x3 x4) k1_pay13
/-- The tile of `w_hp`. -/
def out1_6 (x0 x1 x2 : Vec F S512x512 .f32) (x3 x4 : Vec F S512x128 .f32) : Vec F S512x512 .f32 :=
  k1_pay3 (msk1 x0 x1) (gat1 x0 x1 x2 x3 x4) k1_pay13
/-- The tile of `edge_mask`. -/
def out1_7 (x0 x1 : Vec F S512x512 .f32) : Vec F S512x512 .f32 := msk1 x0 x1
/-- The running row sums of `w_lp` after this tile's are added to `a`. -/
def upd1_8 (x0 x1 x2 : Vec F S512x512 .f32) (x3 x4 : Vec F S512x128 .f32) (a : Vec F S512x1 .f32) : Vec F S512x1 .f32 :=
  k1_pay4 (msk1 x0 x1) (gat1 x0 x1 x2 x3 x4) k1_pay13 a
/-- The running row sums of `w_hp` after this tile's are added to `a`. -/
def upd1_9 (x0 x1 x2 : Vec F S512x512 .f32) (x3 x4 : Vec F S512x128 .f32) (a : Vec F S512x1 .f32) : Vec F S512x1 .f32 :=
  k1_pay5 (msk1 x0 x1) (gat1 x0 x1 x2 x3 x4) k1_pay13 a

/-! ## The body's triple, case by case -/

set_option maxHeartbeats 4000000 in
/-- At j = 0: the running sums are cleared, then this tile's row sums are added; whatever the two buffers held is overwritten. -/
theorem sound_kernel1_first (c : Dev nD) (E : Set ℕ) (i : grid1.Coords) (hc0 : cond1_0 i) (hc1 : ¬ cond1_1 i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (arg11 : Memref sig .tc .vmem S512x1 .f32) (harg11 : arg11.IsWhole)
    (x0 x1 x2 : Vec F S512x512 .f32) (x3 x4 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare (out1_6 x0 x1 x2 x3 x4) ∗ owns (c : Thread nD τ) arg9 fullShare (out1_7 x0 x1)
            ∗ owns (c : Thread nD τ) arg10 fullShare (upd1_8 x0 x1 x2 x3 x4 k1_pay8) ∗ owns (c : Thread nD τ) arg11 fullShare (upd1_9 x0 x1 x2 x3 x4 k1_pay9)) -∗ K ⟨⟩))
      ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K := by
  haveI : Fact (cond1_0 i) := ⟨hc0⟩
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H6]
  · iexists _; isplitr
    swap; · iexact H6
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H7]
  · iexists _; isplitr
    swap; · iexact H7
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H8]
  · iexists _; isplitr
    swap; · iexact H8
    ipureintro
    sl_unfold_words
    rw [read_writes_cons _ _ hz2]
    simp only [View.readAt_eq_ld, View.ld_unit_zero (S := S512x512) hz2, View.ld_unit_zero (S := S512x128) hz2, View.ld_unit_zero (S := S512x1) hz2, View.readCov_unit_zero (S := S512x1) _ hz2]
    rfl
  iexists _; isplitr
  swap; · iexact H9
  ipureintro
  sl_unfold_words
  rw [read_writes_cons _ _ hz2]
  simp only [View.readAt_eq_ld, View.ld_unit_zero (S := S512x512) hz2, View.ld_unit_zero (S := S512x128) hz2, View.ld_unit_zero (S := S512x1) hz2, View.readCov_unit_zero (S := S512x1) _ hz2]
  rfl

set_option maxHeartbeats 4000000 in
/-- At 0 < j < 7: this tile's row sums are added to what the two buffers hold. -/
theorem sound_kernel1_mid (c : Dev nD) (E : Set ℕ) (i : grid1.Coords) (hc0 : ¬ cond1_0 i) (hc1 : ¬ cond1_1 i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (arg11 : Memref sig .tc .vmem S512x1 .f32) (harg11 : arg11.IsWhole)
    (x0 x1 x2 : Vec F S512x512 .f32) (x3 x4 : Vec F S512x128 .f32) (a8 a9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare a8 ∗ owns (c : Thread nD τ) arg11 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare (out1_6 x0 x1 x2 x3 x4) ∗ owns (c : Thread nD τ) arg9 fullShare (out1_7 x0 x1)
            ∗ owns (c : Thread nD τ) arg10 fullShare (upd1_8 x0 x1 x2 x3 x4 a8) ∗ owns (c : Thread nD τ) arg11 fullShare (upd1_9 x0 x1 x2 x3 x4 a9)) -∗ K ⟨⟩))
      ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K := by
  skip
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H6]
  · iexists _; isplitr
    swap; · iexact H6
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H7]
  · iexists _; isplitr
    swap; · iexact H7
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H8]
  · iexists _; isplitr
    swap; · iexact H8
    ipureintro
    sl_unfold_words
    rw [read_writes_cons _ _ hz2]
    simp only [View.readAt_eq_ld, View.ld_unit_zero (S := S512x512) hz2, View.ld_unit_zero (S := S512x128) hz2, View.ld_unit_zero (S := S512x1) hz2, View.readCov_unit_zero (S := S512x1) _ hz2]
    rfl
  iexists _; isplitr
  swap; · iexact H9
  ipureintro
  sl_unfold_words
  rw [read_writes_cons _ _ hz2]
  simp only [View.readAt_eq_ld, View.ld_unit_zero (S := S512x512) hz2, View.ld_unit_zero (S := S512x128) hz2, View.ld_unit_zero (S := S512x1) hz2, View.readCov_unit_zero (S := S512x1) _ hz2]
  rfl

set_option maxHeartbeats 4000000 in
/-- At j = 7: this tile's row sums are added to what the two buffers hold, and then one. -/
theorem sound_kernel1_last (c : Dev nD) (E : Set ℕ) (i : grid1.Coords) (hc0 : ¬ cond1_0 i) (hc1 : cond1_1 i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (arg11 : Memref sig .tc .vmem S512x1 .f32) (harg11 : arg11.IsWhole)
    (x0 x1 x2 : Vec F S512x512 .f32) (x3 x4 : Vec F S512x128 .f32) (a8 a9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare a8 ∗ owns (c : Thread nD τ) arg11 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare (out1_6 x0 x1 x2 x3 x4) ∗ owns (c : Thread nD τ) arg9 fullShare (out1_7 x0 x1)
            ∗ owns (c : Thread nD τ) arg10 fullShare (k1_pay6 (upd1_8 x0 x1 x2 x3 x4 a8)) ∗ owns (c : Thread nD τ) arg11 fullShare (k1_pay7 (upd1_9 x0 x1 x2 x3 x4 a9))) -∗ K ⟨⟩))
      ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K := by
  haveI : Fact (cond1_1 i) := ⟨hc1⟩
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H6]
  · iexists _; isplitr
    swap; · iexact H6
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H7]
  · iexists _; isplitr
    swap; · iexact H7
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H8]
  · iexists _; isplitr
    swap; · iexact H8
    ipureintro
    sl_unfold_words
    rw [read_writes_cons _ _ hz2]
    simp only [View.readAt_eq_ld, View.ld_unit_zero (S := S512x512) hz2, View.ld_unit_zero (S := S512x128) hz2, View.ld_unit_zero (S := S512x1) hz2, View.readCov_unit_zero (S := S512x1) _ hz2]
    rfl
  iexists _; isplitr
  swap; · iexact H9
  ipureintro
  sl_unfold_words
  rw [read_writes_cons _ _ hz2]
  simp only [View.readAt_eq_ld, View.ld_unit_zero (S := S512x512) hz2, View.ld_unit_zero (S := S512x128) hz2, View.ld_unit_zero (S := S512x1) hz2, View.readCov_unit_zero (S := S512x1) _ hz2]
  rfl

/-! ## The two running sums, point by point -/

/-- The running row sums (output window 8) after the body at position `n` of the grid's row-major order: cleared
    at the start of each row of eight points, this tile's sums added at every point, one more at the row's last. -/
def acc1_8 (c : Dev nD) : (n : ℕ) → n < cfg1.N → Vec F S512x1 .f32
  | 0, hn => upd1_8 (iblk1 V c 0 ⟨0, hn⟩) (iblk1 V c 1 ⟨0, hn⟩) (iblk1 V c 2 ⟨0, hn⟩) (iblk1 V c 3 ⟨0, hn⟩) (iblk1 V c 4 ⟨0, hn⟩) k1_pay8
  | n + 1, hn =>
    if (n + 1) % 8 = 0 then upd1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) k1_pay8
    else if (n + 1) % 8 = 7 then k1_pay6 (upd1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1_8 c n (Nat.lt_of_succ_lt hn)))
    else upd1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1_8 c n (Nat.lt_of_succ_lt hn))

theorem acc1_8_first (c : Dev nD) (t : Fin cfg1.N) (h0 : t.val % 8 = 0) :
    acc1_8 V c t.val t.isLt = upd1_8 (iblk1 V c 0 t) (iblk1 V c 1 t) (iblk1 V c 2 t) (iblk1 V c 3 t) (iblk1 V c 4 t) k1_pay8 := by
  obtain ⟨n, hn⟩ := t
  cases n with
  | zero => rfl
  | succ n => exact (if_pos h0).trans rfl

theorem acc1_8_mid (c : Dev nD) (t : Fin cfg1.N) (h0 : ¬ t.val % 8 = 0) (h7 : ¬ t.val % 8 = 7) :
    acc1_8 V c t.val t.isLt = upd1_8 (iblk1 V c 0 t) (iblk1 V c 1 t) (iblk1 V c 2 t) (iblk1 V c 3 t) (iblk1 V c 4 t) (acc1_8 V c (t.val - 1) (Nat.lt_of_le_of_lt (Nat.sub_le _ _) t.isLt)) := by
  obtain ⟨n, hn⟩ := t
  cases n with
  | zero => exact absurd (Nat.zero_mod _) h0
  | succ n => exact ((if_neg h0).trans (if_neg h7)).trans rfl

theorem acc1_8_last (c : Dev nD) (t : Fin cfg1.N) (h7 : t.val % 8 = 7) :
    acc1_8 V c t.val t.isLt = k1_pay6 (upd1_8 (iblk1 V c 0 t) (iblk1 V c 1 t) (iblk1 V c 2 t) (iblk1 V c 3 t) (iblk1 V c 4 t) (acc1_8 V c (t.val - 1) (Nat.lt_of_le_of_lt (Nat.sub_le _ _) t.isLt))) := by
  obtain ⟨n, hn⟩ := t
  cases n with
  | zero => exact absurd (show (0 : ℕ) % 8 = 7 from h7) (by decide)
  | succ n =>
    have h7' : (n + 1) % 8 = 7 := h7
    exact ((if_neg (show ¬ (n + 1) % 8 = 0 by omega)).trans (if_pos h7')).trans rfl

/-- The running row sums (output window 9) after the body at position `n` of the grid's row-major order: cleared
    at the start of each row of eight points, this tile's sums added at every point, one more at the row's last. -/
def acc1_9 (c : Dev nD) : (n : ℕ) → n < cfg1.N → Vec F S512x1 .f32
  | 0, hn => upd1_9 (iblk1 V c 0 ⟨0, hn⟩) (iblk1 V c 1 ⟨0, hn⟩) (iblk1 V c 2 ⟨0, hn⟩) (iblk1 V c 3 ⟨0, hn⟩) (iblk1 V c 4 ⟨0, hn⟩) k1_pay9
  | n + 1, hn =>
    if (n + 1) % 8 = 0 then upd1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) k1_pay9
    else if (n + 1) % 8 = 7 then k1_pay7 (upd1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1_9 c n (Nat.lt_of_succ_lt hn)))
    else upd1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1_9 c n (Nat.lt_of_succ_lt hn))

theorem acc1_9_first (c : Dev nD) (t : Fin cfg1.N) (h0 : t.val % 8 = 0) :
    acc1_9 V c t.val t.isLt = upd1_9 (iblk1 V c 0 t) (iblk1 V c 1 t) (iblk1 V c 2 t) (iblk1 V c 3 t) (iblk1 V c 4 t) k1_pay9 := by
  obtain ⟨n, hn⟩ := t
  cases n with
  | zero => rfl
  | succ n => exact (if_pos h0).trans rfl

theorem acc1_9_mid (c : Dev nD) (t : Fin cfg1.N) (h0 : ¬ t.val % 8 = 0) (h7 : ¬ t.val % 8 = 7) :
    acc1_9 V c t.val t.isLt = upd1_9 (iblk1 V c 0 t) (iblk1 V c 1 t) (iblk1 V c 2 t) (iblk1 V c 3 t) (iblk1 V c 4 t) (acc1_9 V c (t.val - 1) (Nat.lt_of_le_of_lt (Nat.sub_le _ _) t.isLt)) := by
  obtain ⟨n, hn⟩ := t
  cases n with
  | zero => exact absurd (Nat.zero_mod _) h0
  | succ n => exact ((if_neg h0).trans (if_neg h7)).trans rfl

theorem acc1_9_last (c : Dev nD) (t : Fin cfg1.N) (h7 : t.val % 8 = 7) :
    acc1_9 V c t.val t.isLt = k1_pay7 (upd1_9 (iblk1 V c 0 t) (iblk1 V c 1 t) (iblk1 V c 2 t) (iblk1 V c 3 t) (iblk1 V c 4 t) (acc1_9 V c (t.val - 1) (Nat.lt_of_le_of_lt (Nat.sub_le _ _) t.isLt))) := by
  obtain ⟨n, hn⟩ := t
  cases n with
  | zero => exact absurd (show (0 : ℕ) % 8 = 7 from h7) (by decide)
  | succ n =>
    have h7' : (n + 1) % 8 = 7 := h7
    exact ((if_neg (show ¬ (n + 1) % 8 = 0 by omega)).trans (if_pos h7')).trans rfl

/-! ## The proof data -/

/-- The region's proof data on core `c`: the arrays as the region finds them; after the body at point `t` each
    input's buffer at its block, the three tile outputs' at `out1_5`, `out1_6`, `out1_7` of the input blocks and
    the two running sums' at `acc1_8`, `acc1_9`; between points only the scoped buffers no window stages and the
    generator register; nothing owed. The two windows that read `emb` each hold half of its array; every other
    array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t)
    | ⟨8, _⟩ => acc1_8 V c t.val t.isLt
    | ⟨9, _⟩ => acc1_9 V c t.val t.isLt
  Φ _ := Pipeline.ΦA spec1 c
  q w := match w with
    | ⟨3, _⟩ => fullShare.left
    | ⟨4, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) := by dsimp only [dat1]
theorem after1_8 (c : Dev nD) (t : Fin cfg1.N) : (dat1 V c).after 8 t = acc1_8 V c t.val t.isLt := by dsimp only [dat1]
theorem after1_9 (c : Dev nD) (t : Fin cfg1.N) : (dat1 V c).after 9 t = acc1_9 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- Away from the start of a row of points, a running sum's staging buffer still holds what the point before left:
    its block index has not moved, so it was not written back in between. -/
theorem before1_8_kept (c : Dev nD) (t : Fin cfg1.N) (h0 : ¬ t.val % 8 = 0) (d) :
    (dat1 V c).before 8 t d = acc1_8 V c (t.val - 1) (Nat.lt_of_le_of_lt (Nat.sub_le _ _) t.isLt) := by
  have hN : t.val < 64 := lt_of_lt_of_eq t.isLt (show cfg1.N = 64 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_9_kept (c : Dev nD) (t : Fin cfg1.N) (h0 : ¬ t.val % 8 = 0) (d) :
    (dat1 V c).before 9 t d = acc1_9 V c (t.val - 1) (Nat.lt_of_le_of_lt (Nat.sub_le _ _) t.isLt) := by
  have hN : t.val < 64 := lt_of_lt_of_eq t.isLt (show cfg1.N = 64 from N_1)
  rw [Dat.before_out_kept _ 9 rfl t (by omega) (Bool.eq_false_iff.mpr fun h => by have := (flush1_9 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1600000 in
/-- The body at any point: the inputs' memrefs hold their blocks; the point's position in its row of eight says which
    case it is in, and away from the row's start the two running sums' buffers hold what the point before left; so
    the case's triple applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 64 := lt_of_lt_of_eq t.isLt (show cfg1.N = 64 from N_1)
  by_cases h0 : t.val % 8 = 0
  · have h7 : ¬ t.val % 8 = 7 := by omega
    rw [acc1_8_first V c t h0, acc1_9_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_first c Set.univ (grid1.coords t) ((hcond1_0 t).mpr h0) (fun h => h7 ((hcond1_1 t).mp h)) _ _ _ _ _ _ _ _ _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h7 : t.val % 8 = 7
    · rw [acc1_8_last V c t h7, acc1_9_last V c t h7]
      simp only [before1_8_kept V c t h0, before1_9_kept V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel1_last c Set.univ (grid1.coords t) (fun h => h0 ((hcond1_0 t).mp h)) ((hcond1_1 t).mpr h7) _ _ _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [acc1_8_mid V c t h0 h7, acc1_9_mid V c t h0 h7]
      simp only [before1_8_kept V c t h0, before1_9_kept V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel1_mid c Set.univ (grid1.coords t) (fun h => h0 ((hcond1_0 t).mp h)) (fun h => h7 ((hcond1_1 t).mp h)) _ _ _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KShared1.lean ====
/-
  The second region's arrays among the core's unscoped buffers. Two of its input windows read the same array
  (`emb`, by row block and by column block), so the region holds that array as two halves, one per window, and every
  other array whole: at the region's entry the buffer's full share is split in two, at its exit the halves are joined.
-/
import proofs.«119275_j1889785610729_1_alg».proof.Proof.KBody1

set_option maxRecDepth 16384

noncomputable section

namespace Cert.Kernel.Hand

open Cert.Kernel Cert.Kernel.Gen
open Idealize.ShloMosaic Idealize.ShloMosaic.TcCoe Idealize.ShloMosaic.Tactic Idealize.ShloMosaic.WholeStore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's ten windows. -/
abbrev arrList1 : List (Ref sig .tc) :=
  [main_arg1, main_arg2, main_arg3, main_v0, main_v1_0, main_v1_1, main_v1_2, main_v1_3, main_v1_4]

/-- The region's arrays, window by window: the two windows on `emb` hold a half each. -/
theorem arrays1_eq (c : Dev nD) (Fa : (w : Fin cfg1.W) → Buf (Elt F) ((cfg1.win w).arr.view.loc (c : Thread nD τ))) :
    ((dat1 V c).arrays Fa : sProp 𝕄) = iprop(
      (((c : Thread nD τ).loc main_arg1) ↦{fullShare} Fa 0) ∗ (((c : Thread nD τ).loc main_arg2) ↦{fullShare} Fa 1)
      ∗ (((c : Thread nD τ).loc main_arg3) ↦{fullShare} Fa 2)
      ∗ (((c : Thread nD τ).loc main_v0) ↦{fullShare.left} Fa 3) ∗ (((c : Thread nD τ).loc main_v0) ↦{fullShare.right} Fa 4)
      ∗ (((c : Thread nD τ).loc main_v1_0) ↦{fullShare} Fa 5) ∗ (((c : Thread nD τ).loc main_v1_1) ↦{fullShare} Fa 6)
      ∗ (((c : Thread nD τ).loc main_v1_2) ↦{fullShare} Fa 7) ∗ (((c : Thread nD τ).loc main_v1_3) ↦{fullShare} Fa 8)
      ∗ (((c : Thread nD τ).loc main_v1_4) ↦{fullShare} Fa 9)) := by
  unfold Dat.arrays
  rw [bigSep_W1]
  rw [(arr_whole1 0).set_eq_univ, (arr_whole1 1).set_eq_univ, (arr_whole1 2).set_eq_univ, (arr_whole1 3).set_eq_univ,
    (arr_whole1 5).set_eq_univ, (arr_whole1 6).set_eq_univ, (arr_whole1 7).set_eq_univ,
    (arr_whole1 8).set_eq_univ, (arr_whole1 9).set_eq_univ]
  rfl

/-- The buffers behind the windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄) = iprop(
      (((c : Thread nD τ).loc main_arg1) ↦{fullShare} W main_arg1) ∗ (((c : Thread nD τ).loc main_arg2) ↦{fullShare} W main_arg2)
      ∗ (((c : Thread nD τ).loc main_arg3) ↦{fullShare} W main_arg3) ∗ (((c : Thread nD τ).loc main_v0) ↦{fullShare} W main_v0)
      ∗ (((c : Thread nD τ).loc main_v1_0) ↦{fullShare} W main_v1_0) ∗ (((c : Thread nD τ).loc main_v1_1) ↦{fullShare} W main_v1_1)
      ∗ (((c : Thread nD τ).loc main_v1_2) ↦{fullShare} W main_v1_2) ∗ (((c : Thread nD τ).loc main_v1_3) ↦{fullShare} W main_v1_3)
      ∗ (((c : Thread nD τ).loc main_v1_4) ↦{fullShare} W main_v1_4)) := by
  unfold Pipeline.arrBufs
  rw [bigSep_eq_bigSepL_of_eq arrList1 (by decide) (by decide)]
  rfl

/-- ENTRY: a core's unscoped buffers at contents `V c` are the region's arrays at the proof data's entry contents —
    `emb`'s buffer split into its two halves — and the unscoped rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  show (iprop(Pipeline.arrBufs spec1 c (V c) ∗ Pipeline.unscopedRest spec1 c (V c)) : sProp 𝕄) ⊢ _
  rw [arrBufs1_eq, arrays1_eq]
  iintro ⟨⟨H1, H2, H3, Hv, H5, H6, H7, H8, H9⟩, Hr⟩
  ihave Hs := (pointsTo_share (PosShare.mem_left_op_right fullShare)).1 $$ Hv
  icases Hs with ⟨Hl, Hrr⟩
  isplitr [Hr]
  · isplitl [H1]; · iexact H1
    isplitl [H2]; · iexact H2
    isplitl [H3]; · iexact H3
    isplitl [Hl]; · iexact Hl
    isplitl [Hrr]; · iexact Hrr
    isplitl [H5]; · iexact H5
    isplitl [H6]; · iexact H6
    isplitl [H7]; · iexact H7
    isplitl [H8]; · iexact H8
    iexact H9
  · iexact Hr

/-- EXIT: the region's arrays at contents `Fa` — the two halves of `emb`'s buffer joined — and the unscoped rest at
    `V c` are the core's unscoped buffers at any valuation `V'` that has the arrays at `Fa` and agrees with `V c` off
    them. -/
theorem exit1 (c : Dev nD) (V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V c b) :
    iprop((dat1 V c).arrays Fa ∗ Pipeline.unscopedRest spec1 c (V c)) ⊢ (unscopedBufs c V' : sProp 𝕄) := by
  rw [Pipeline.unscopedBufs_split₀ cfgs 1 winFacts₀1.arr_unscoped c V']
  show _ ⊢ (iprop(Pipeline.arrBufs spec1 c V' ∗ Pipeline.unscopedRest spec1 c V') : sProp 𝕄)
  rw [arrBufs1_eq, arrays1_eq,
    hF 0, hF 1, hF 2, hF 3, hF 4, hF 5, hF 6, hF 7, hF 8, hF 9]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨H1, H2, H3, Hl, Hrr, H5, H6, H7, H8, H9⟩, Hr⟩
  ihave Hv := (pointsTo_share (PosShare.mem_left_op_right fullShare)).2 $$ [Hl Hrr]
  · isplitl [Hl]; · iexact Hl
    iexact Hrr
  isplitr [Hr]
  · isplitl [H1]; · iexact H1
    isplitl [H2]; · iexact H2
    isplitl [H3]; · iexact H3
    isplitl [Hv]; · iexact Hv
    isplitl [H5]; · iexact H5
    isplitl [H6]; · iexact H6
    isplitl [H7]; · iexact H7
    isplitl [H8]; · iexact H8
    iexact H9
  · iexact Hr

end Cert.Kernel.Hand

end
-- ==== Proof.KBody2.lean ====
/-
  The third kernel region, an 8 × 8 grid over 512 × 512 tiles. At point (i, j) the body takes the tiles of `w_lp`,
  `w_hp` and `edge_mask`, the blocks i of the two columns of inverse square roots and the blocks j of the same two
  read as rows, forms the tile of the identity from the point's coordinates, and leaves the tiles of
  `adj_lp = (w_lp + I) · dis_i · dis_j` and `adj_hp = I − (w_hp + I) · dis'_i · dis'_j · edge_mask · 0.1`. Nothing is
  carried from point to point.
-/
import proofs.«119275_j1889785610729_1_alg».proof.Proof.Gen.Kernel.Launch
import proofs.«119275_j1889785610729_1_alg».proof.Proof.Gen.Kernel.Skeleton
import proofs.«119275_j1889785610729_1_alg».proof.Proof.Gen.Kernel.Points
import proofs.«119275_j1889785610729_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.WholeStore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the body computes -/

/-- The tile of `adj_lp` at grid coordinates `i`. -/
def out2_7 (i : grid2.Coords) (x0 : Vec F S512x512 .f32) (x3 : Vec F S512x1 .f32) (x4 : Vec F S1x512 .f32) : Vec F S512x512 .f32 :=
  k2_pay2 i x0 x3 x4
/-- The tile of `adj_hp` at grid coordinates `i`. -/
def out2_8 (i : grid2.Coords) (x1 x2 : Vec F S512x512 .f32) (x5 : Vec F S512x1 .f32) (x6 : Vec F S1x512 .f32) : Vec F S512x512 .f32 :=
  k2_pay3 i x1 x2 x5 x6

/-! ## The body's triple -/

set_option maxHeartbeats 4000000 in
/-- The body on whole staging memrefs, the seven inputs' at their contents and the two outputs' at anything, runs to
    the continuation holding the inputs' as they were and the outputs' at `out2_7`, `out2_8` of them. -/
theorem sound_kernel2 (c : Dev nD) (E : Set ℕ) (i : grid2.Coords)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole)
    (x0 x1 x2 : Vec F S512x512 .f32) (x3 : Vec F S512x1 .f32) (x4 : Vec F S1x512 .f32) (x5 : Vec F S512x1 .f32) (x6 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out2_7 i x0 x3 x4) ∗ owns (c : Thread nD τ) arg10 fullShare (out2_8 i x1 x2 x5 x6)) -∗ K ⟨⟩))
      ⊢ wp frame (wpE (defs₀ (F := F)) Variants.none c none) E (cc2__stage3_kernel i arg2 harg2 arg3 harg3 arg4 harg4 arg5 harg5 arg6 harg6 arg7 harg7 arg8 harg8 arg9 harg9 arg10 harg10) K := by
  simp only [cc2__stage3_kernel_eq_skeleton]; unfold cc2__stage3_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_cons _ _ hz2]
    simp only [View.readAt_eq_ld, View.ld_unit_zero (S := S512x512) hz2, View.ld_unit_zero (S := S512x1) hz2, View.ld_unit_zero (S := S1x512) hz2]
    rfl
  iexists _; isplitr
  swap; · iexact H8
  ipureintro
  sl_unfold_words
  rw [read_writes_cons _ _ hz2]
  simp only [View.readAt_eq_ld, View.ld_unit_zero (S := S512x512) hz2, View.ld_unit_zero (S := S512x1) hz2, View.ld_unit_zero (S := S1x512) hz2]
  rfl

/-! ## The proof data -/

/-- The region's proof data on core `c`: the arrays as the region finds them; after the body at point `t` each
    input's buffer at its block and the two outputs' at `out2_7`, `out2_8` of the input blocks at the point's
    coordinates; between points only the scoped buffers no window stages and the generator register; nothing owed;
    every array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (grid2.coords t) (iblk2 V c 0 t) (iblk2 V c 3 t) (iblk2 V c 4 t)
    | ⟨8, _⟩ => out2_8 (grid2.coords t) (iblk2 V c 1 t) (iblk2 V c 2 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (grid2.coords t) (iblk2 V c 0 t) (iblk2 V c 3 t) (iblk2 V c 4 t) := by dsimp only [dat2]
theorem after2_8 (c : Dev nD) (t : Fin cfg2.N) :
    (dat2 V c).after 8 t = out2_8 (grid2.coords t) (iblk2 V c 1 t) (iblk2 V c 2 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so `sound_kernel2` applies at the point's
    coordinates; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole program as one run: the first region, the second, the ten host operations that turn the two row sums into
  inverse square roots (as columns and, reshaped, as rows), and the third region.

  The contents of the core's unscoped buffers are followed from the launch to the return as a fold: `W0` the launch
  memory; `W1` after the first region (its output array at what its write-backs leave); `W2` after the second (its
  five output arrays likewise; `emb`, which it reads through two windows, unchanged); `W3` after the host operations;
  `W4` after the third region. Each region is entered from every unscoped buffer held at the contents before it and
  left with them held at the contents after it; the generator register and the core's dues ride along. The run's post
  reads every unscoped buffer at `W4`: the arguments, which nothing writes, and the five results.
-/
import proofs.«119275_j1889785610729_1_alg».proof.Proof.KBody0
import proofs.«119275_j1889785610729_1_alg».proof.Proof.KShared1
import proofs.«119275_j1889785610729_1_alg».proof.Proof.KBody2

set_option maxRecDepth 16384

noncomputable section

namespace Cert.Kernel.Hand

open Cert.Kernel Cert.Kernel.Gen
open Idealize.ShloMosaic Idealize.ShloMosaic.TcCoe Idealize.ShloMosaic.Tactic Idealize.ShloMosaic.WholeStore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- The same read at the TensorCore's references (what the first region's proof data take). -/
abbrev V0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: its five output arrays at what the pipeline leaves, every other buffer as entered. -/
def W2 (c : Dev nD) : Valuation τ sig (Elt F) :=
  Function.update (Function.update (Function.update (Function.update (Function.update (W1 m c)
    (Proc.devRef .tc main_v1_0) ((dat1 (V1 m) c).arrAt 5 cfg1.N))
    (Proc.devRef .tc main_v1_1) ((dat1 (V1 m) c).arrAt 6 cfg1.N))
    (Proc.devRef .tc main_v1_2) ((dat1 (V1 m) c).arrAt 7 cfg1.N))
    (Proc.devRef .tc main_v1_3) ((dat1 (V1 m) c).arrAt 8 cfg1.N))
    (Proc.devRef .tc main_v1_4) ((dat1 (V1 m) c).arrAt 9 cfg1.N)
abbrev V2 : (c : Dev nD) → (b : Ref sig .tc) → Buf (Elt F) ((c : Thread nD τ).loc b) := fun c b => W2 m c b
theorem W2_of (c : Dev nD) (r : Ref sig .tc) (h : r ∉ ([main_v1_0, main_v1_1, main_v1_2, main_v1_3, main_v1_4] : List (Ref sig .tc))) :
    W2 m c (Proc.devRef .tc r) = W1 m c (Proc.devRef .tc r) := by
  simp only [W2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1), Function.update_of_ne (StableHlo.devRef_ne_of_ne (List.ne_of_not_mem_cons (List.not_mem_of_not_mem_cons (List.not_mem_of_not_mem_cons h))) : (Proc.devRef .tc r : DevRef τ sig) ≠ Proc.devRef .tc main_v1_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v1_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v1_4)]
theorem W2_v1_4 (c : Dev nD) : W2 m c (Proc.devRef .tc main_v1_4) = (dat1 (V1 m) c).arrAt 9 cfg1.N := by
  unfold W2; exact Function.update_self ..
theorem W2_v1_3 (c : Dev nD) : W2 m c (Proc.devRef .tc main_v1_3) = (dat1 (V1 m) c).arrAt 8 cfg1.N := by
  unfold W2
  rw [Function.update_of_ne (StableHlo.devRef_ne_of_ne (by decide) : (Proc.devRef .tc main_v1_3 : DevRef τ sig) ≠ Proc.devRef .tc main_v1_4)]
  exact Function.update_self ..
theorem W2_v1_2 (c : Dev nD) : W2 m c (Proc.devRef .tc main_v1_2) = (dat1 (V1 m) c).arrAt 7 cfg1.N := by
  unfold W2
  rw [Function.update_of_ne (StableHlo.devRef_ne_of_ne (by decide) : (Proc.devRef .tc main_v1_2 : DevRef τ sig) ≠ Proc.devRef .tc main_v1_4),
    Function.update_of_ne (StableHlo.devRef_ne_of_ne (by decide) : (Proc.devRef .tc main_v1_2 : DevRef τ sig) ≠ Proc.devRef .tc main_v1_3)]
  exact Function.update_self ..
theorem W2_v1_1 (c : Dev nD) : W2 m c (Proc.devRef .tc main_v1_1) = (dat1 (V1 m) c).arrAt 6 cfg1.N := by
  unfold W2
  rw [Function.update_of_ne (StableHlo.devRef_ne_of_ne (by decide) : (Proc.devRef .tc main_v1_1 : DevRef τ sig) ≠ Proc.devRef .tc main_v1_4),
    Function.update_of_ne (StableHlo.devRef_ne_of_ne (by decide) : (Proc.devRef .tc main_v1_1 : DevRef τ sig) ≠ Proc.devRef .tc main_v1_3),
    Function.update_of_ne (StableHlo.devRef_ne_of_ne (by decide) : (Proc.devRef .tc main_v1_1 : DevRef τ sig) ≠ Proc.devRef .tc main_v1_2)]
  exact Function.update_self ..
theorem W2_v1_0 (c : Dev nD) : W2 m c (Proc.devRef .tc main_v1_0) = (dat1 (V1 m) c).arrAt 5 cfg1.N := by
  unfold W2
  rw [Function.update_of_ne (StableHlo.devRef_ne_of_ne (by decide) : (Proc.devRef .tc main_v1_0 : DevRef τ sig) ≠ Proc.devRef .tc main_v1_4),
    Function.update_of_ne (StableHlo.devRef_ne_of_ne (by decide) : (Proc.devRef .tc main_v1_0 : DevRef τ sig) ≠ Proc.devRef .tc main_v1_3),
    Function.update_of_ne (StableHlo.devRef_ne_of_ne (by decide) : (Proc.devRef .tc main_v1_0 : DevRef τ sig) ≠ Proc.devRef .tc main_v1_2),
    Function.update_of_ne (StableHlo.devRef_ne_of_ne (by decide) : (Proc.devRef .tc main_v1_0 : DevRef τ sig) ≠ Proc.devRef .tc main_v1_1)]
  exact Function.update_self ..
/-- An input array of the second region ends as it was entered. -/
theorem arrAt1_in (c : Dev nD) (w : Fin cfg1.W) (hin : (cfg1.win w).isOut = false) (r : Ref sig .tc)
    (hr : Pipeline.arrRef spec1 w = r) (h : r ∉ ([main_v1_0, main_v1_1, main_v1_2, main_v1_3, main_v1_4] : List (Ref sig .tc))) :
    HEq ((dat1 (V1 m) c).arrAt w cfg1.N) (V2 m c r) := by
  subst hr
  exact heq_of_eq ((((dat1 (V1 m) c).arrAt_in w hin _).trans (A_eq1 (V1 m) c w)).trans (W2_of m c _ h).symm)
theorem hF1 (c : Dev nD) (w : Fin cfg1.W) : (dat1 (V1 m) c).arrAt w cfg1.N = V2 m c (Pipeline.arrRef spec1 w) := by
  fin_cases w
  · exact eq_of_heq (arrAt1_in m c 0 rfl _ rfl (by decide))
  · exact eq_of_heq (arrAt1_in m c 1 rfl _ rfl (by decide))
  · exact eq_of_heq (arrAt1_in m c 2 rfl _ rfl (by decide))
  · exact eq_of_heq (arrAt1_in m c 3 rfl _ rfl (by decide))
  · exact eq_of_heq (arrAt1_in m c 4 rfl _ rfl (by decide))
  · exact (W2_v1_0 m c).symm
  · exact (W2_v1_1 m c).symm
  · exact (W2_v1_2 m c).symm
  · exact (W2_v1_3 m c).symm
  · exact (W2_v1_4 m c).symm
theorem hrest1 (c : Dev nD) : ∀ b, b ∉ Finset.univ.image (Pipeline.arrRef spec1) → V2 m c b = V1 m c b := fun b hb =>
  W2_of m c b fun hmem => hb (by
    simp only [List.mem_cons, List.not_mem_nil, or_false] at hmem
    rcases hmem with rfl | rfl | rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩
    · exact Finset.mem_image.mpr ⟨8, Finset.mem_univ _, rfl⟩
    · exact Finset.mem_image.mpr ⟨9, Finset.mem_univ _, rfl⟩)

/-- After the ten host operations (the third region's entry). -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b
/-- After the third region: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- A buffer the host operations do not write is after them what it was before. -/
theorem W3_of (c : Dev nD) (r : Ref sig .tc)
    (h : r ∉ ([main_cst, main_v2, main_v3, main_v4, main_cst_0, main_v5, main_v6, main_v7, main_v8, main_v9] : List (Ref sig .tc))) :
    W3 m c (Proc.devRef .tc r) = W2 m c (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes, StableHlo.reshape_writes, Finset.mem_singleton]
    simp only [List.mem_cons, List.not_mem_nil, or_false, not_or] at h
    obtain ⟨h0, h1, h2, h3, h4, h5, h6, h7, h8, h9⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := (W1_arr m c 1).trans (((dat0 (V0 m) c).arrAt_in 1 rfl _).trans (A_eq0 (V0 m) c 1))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := (W1_arr m c 2).trans (((dat0 (V0 m) c).arrAt_in 2 rfl _).trans (A_eq0 (V0 m) c 2))
    _ = m ((c : Thread nD τ).loc main_arg5) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`. Two of its
    windows read `emb`: its buffer is split in halves at the entry and joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := entry1 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m) c (V2 m c) ((dat1 (V1 m) c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `W3`, left at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh' (W2 m)),
    .region (reg2 m) ]
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state has every unscoped buffer at `W4`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Body0.lean ====
/-
  The first kernel region: `emb = max(features · W1 + b1, 0)`, eight grid points, each taking a block of 512 rows of
  `features` with the whole of `W1` and `b1` and leaving a block of 512 rows of `emb`.

  Stated at a PARAMETER `V`, the contents of the unscoped buffers when the region is entered: what each window's
  block is at a point (`iblk0`), what the body leaves in the output's staging buffer as one function of the three
  input blocks (`out0_3`: the body's only store, its payload the matrix product plus the broadcast bias, clipped below
  at zero), the body's triple on any staging memrefs (`sound_kernel0`), the region's proof data (`dat0`) and the
  obligation at every grid point (`body_obligation0`). The body reads each input block once and writes the output
  block whole, so nothing is carried from one point to the next.
-/
import proofs.«119275_j1889785610729_1_alg».proof.Proof.Gen.KernelIdeal.Launch
import proofs.«119275_j1889785610729_1_alg».proof.Proof.Gen.KernelIdeal.Skeleton
import proofs.«119275_j1889785610729_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block in
    place. One statement per input window: the block's type reduces only at a literal window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev rX0 : Rect S512x512 := Rect.unit (s := S512x512) ![0, 0] S512x512.size inb_S512x512_S512x512_0_0
abbrev rW0 : Rect S512x128 := Rect.unit (s := S512x128) ![0, 0] S512x128.size inb_S512x128_S512x128_0_0
abbrev rB0 : Rect S128 := Rect.unit (s := S128) ![0] S128.size inb_S128_S128_0

/-- The output's staging buffer after the body, from the three input blocks: the one store's payload over its
    rectangle, which is the whole block. -/
def out0_3 (x0 : Vec F S512x512 .f32) (x1 : Vec F S512x128 .f32) (x2 : Vec F S128 .f32) : Vec F S512x128 .f32 :=
  View.canon [⟨rW0, k0_pay1 (View.ld x0 rX0) (View.ld x1 rW0) (View.ld x2 rB0)⟩]

/-- The store's rectangle is the whole block, so it covers it. -/
theorem cover0_3 (p0 : Vec F S512x128 .f32) (y : S512x128.Idx) :
    ∃ pc ∈ ([⟨rW0, p0⟩] : List (View.Piece (Elt F) S512x128 .f32)), y ∈ pc.1.set :=
  View.cover_of_tiled [⟨rW0, p0⟩] S512x128.size (by rfl) y

/-! ## The body's triple -/

set_option maxHeartbeats 1000000 in
/-- The body on whole staging memrefs, the inputs' at contents `x0`, `x1`, `x2` and the output's at anything, runs to
    the continuation holding the inputs' as they were and the output's at `out0_3` of them. -/
theorem sound_kernel0 (c : Dev nD) (E : Set ℕ) (i : grid0.Coords)
    (arg1 : Memref sig .tc .vmem S512x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S512x128 .f32) (harg4 : arg4.IsWhole)
    (x0 : Vec F S512x512 .f32) (x1 : Vec F S512x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__emb_kernel i arg1 harg1 arg2 harg2 arg3 harg3 arg4 harg4) K := by
  simp only [cc0__emb_kernel_eq_skeleton]; unfold cc0__emb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as the region finds them; after the body at point `t` each
    input's buffer at its block and the output's at `out0_3` of the input blocks; between points only the scoped
    buffers no window stages and the generator register, untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The second kernel region, an 8 × 8 grid over 512 × 512 tiles of the three N × N inputs. At point (i, j) the body
  takes the tiles of `adj`, `adj_two_order` and `eps_rand` and the row blocks i and j of `emb`, and leaves the tiles
  of `w_lp`, `w_hp` and `edge_mask`. Two further outputs, the row sums of `w_lp` and of `w_hp` for row block i, are
  carried along the inner axis: the body clears them at j = 0, adds the tile's row sums at every j, and adds one at
  j = 7; their block index depends on i only, so their staging buffers are written back at j = 7 alone and at
  j > 0 still hold what the point before left.
-/
import proofs.«119275_j1889785610729_1_alg».proof.Proof.Gen.KernelIdeal.Launch
import proofs.«119275_j1889785610729_1_alg».proof.Proof.Gen.KernelIdeal.Skeleton
import proofs.«119275_j1889785610729_1_alg».proof.Proof.Gen.KernelIdeal.Points
import proofs.«119275_j1889785610729_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.WholeStore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The body's first `scf.if`: the inner coordinate is zero. -/
abbrev cond1_0 (i : grid1.Coords) : Prop := (Scalar.cmpi .ne (Scalar.extui (Scalar.cmpi .eq (BitVec.ofNat 32 (i 1).val) 0#32)) 0#32) = 1#1
/-- The body's second `scf.if`: the inner coordinate is seven, the last. -/
abbrev cond1_1 (i : grid1.Coords) : Prop := (Scalar.cmpi .ne (Scalar.extui (Scalar.cmpi .eq (BitVec.ofNat 32 (i 1).val) 7#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-! ## What the body computes -/

/-- The tile of `edge_mask`: one where either adjacency tile is nonzero. -/
def msk1 (x0 x1 : Vec F S512x512 .f32) : Vec F S512x512 .f32 := k1_pay11 x0 x1
/-- The gate's argument: `log ε − log1p (−ε) + S · mult`, ε the rescaled `eps_rand` tile, S the tile of `emb · embᵀ`. -/
def gat1 (x0 x1 x2 : Vec F S512x512 .f32) (x3 x4 : Vec F S512x128 .f32) : Vec F S512x512 .f32 := k1_pay12 x3 x4 x0 x1 x2
/-- The tile of `w_lp`. -/
def out1_5 (x0 x1 x2 : Vec F S512x512 .f32) (x3 x4 : Vec F S512x128 .f32) : Vec F S512x512 .f32 :=
  k1_pay2 (msk1 x0 x1) (gat1 x0 x1 x2 x3 x4) k1_pay13
/-- The tile of `w_hp`. -/
def out1_6 (x0 x1 x2 : Vec F S512x512 .f32) (x3 x4 : Vec F S512x128 .f32) : Vec F S512x512 .f32 :=
  k1_pay3 (msk1 x0 x1) (gat1 x0 x1 x2 x3 x4) k1_pay13
/-- The tile of `edge_mask`. -/
def out1_7 (x0 x1 : Vec F S512x512 .f32) : Vec F S512x512 .f32 := msk1 x0 x1
/-- The running row sums of `w_lp` after this tile's are added to `a`. -/
def upd1_8 (x0 x1 x2 : Vec F S512x512 .f32) (x3 x4 : Vec F S512x128 .f32) (a : Vec F S512x1 .f32) : Vec F S512x1 .f32 :=
  k1_pay4 (msk1 x0 x1) (gat1 x0 x1 x2 x3 x4) k1_pay13 a
/-- The running row sums of `w_hp` after this tile's are added to `a`. -/
def upd1_9 (x0 x1 x2 : Vec F S512x512 .f32) (x3 x4 : Vec F S512x128 .f32) (a : Vec F S512x1 .f32) : Vec F S512x1 .f32 :=
  k1_pay5 (msk1 x0 x1) (gat1 x0 x1 x2 x3 x4) k1_pay13 a

/-! ## The body's triple, case by case -/

set_option maxHeartbeats 4000000 in
/-- At j = 0: the running sums are cleared, then this tile's row sums are added; whatever the two buffers held is overwritten. -/
theorem sound_kernel1_first (c : Dev nD) (E : Set ℕ) (i : grid1.Coords) (hc0 : cond1_0 i) (hc1 : ¬ cond1_1 i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (arg11 : Memref sig .tc .vmem S512x1 .f32) (harg11 : arg11.IsWhole)
    (x0 x1 x2 : Vec F S512x512 .f32) (x3 x4 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare (out1_6 x0 x1 x2 x3 x4) ∗ owns (c : Thread nD τ) arg9 fullShare (out1_7 x0 x1)
            ∗ owns (c : Thread nD τ) arg10 fullShare (upd1_8 x0 x1 x2 x3 x4 k1_pay8) ∗ owns (c : Thread nD τ) arg11 fullShare (upd1_9 x0 x1 x2 x3 x4 k1_pay9)) -∗ K ⟨⟩))
      ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K := by
  haveI : Fact (cond1_0 i) := ⟨hc0⟩
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H6]
  · iexists _; isplitr
    swap; · iexact H6
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H7]
  · iexists _; isplitr
    swap; · iexact H7
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H8]
  · iexists _; isplitr
    swap; · iexact H8
    ipureintro
    sl_unfold_words
    rw [read_writes_cons _ _ hz2]
    simp only [View.readAt_eq_ld, View.ld_unit_zero (S := S512x512) hz2, View.ld_unit_zero (S := S512x128) hz2, View.ld_unit_zero (S := S512x1) hz2, View.readCov_unit_zero (S := S512x1) _ hz2]
    rfl
  iexists _; isplitr
  swap; · iexact H9
  ipureintro
  sl_unfold_words
  rw [read_writes_cons _ _ hz2]
  simp only [View.readAt_eq_ld, View.ld_unit_zero (S := S512x512) hz2, View.ld_unit_zero (S := S512x128) hz2, View.ld_unit_zero (S := S512x1) hz2, View.readCov_unit_zero (S := S512x1) _ hz2]
  rfl

set_option maxHeartbeats 4000000 in
/-- At 0 < j < 7: this tile's row sums are added to what the two buffers hold. -/
theorem sound_kernel1_mid (c : Dev nD) (E : Set ℕ) (i : grid1.Coords) (hc0 : ¬ cond1_0 i) (hc1 : ¬ cond1_1 i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (arg11 : Memref sig .tc .vmem S512x1 .f32) (harg11 : arg11.IsWhole)
    (x0 x1 x2 : Vec F S512x512 .f32) (x3 x4 : Vec F S512x128 .f32) (a8 a9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare a8 ∗ owns (c : Thread nD τ) arg11 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare (out1_6 x0 x1 x2 x3 x4) ∗ owns (c : Thread nD τ) arg9 fullShare (out1_7 x0 x1)
            ∗ owns (c : Thread nD τ) arg10 fullShare (upd1_8 x0 x1 x2 x3 x4 a8) ∗ owns (c : Thread nD τ) arg11 fullShare (upd1_9 x0 x1 x2 x3 x4 a9)) -∗ K ⟨⟩))
      ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K := by
  skip
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H6]
  · iexists _; isplitr
    swap; · iexact H6
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H7]
  · iexists _; isplitr
    swap; · iexact H7
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H8]
  · iexists _; isplitr
    swap; · iexact H8
    ipureintro
    sl_unfold_words
    rw [read_writes_cons _ _ hz2]
    simp only [View.readAt_eq_ld, View.ld_unit_zero (S := S512x512) hz2, View.ld_unit_zero (S := S512x128) hz2, View.ld_unit_zero (S := S512x1) hz2, View.readCov_unit_zero (S := S512x1) _ hz2]
    rfl
  iexists _; isplitr
  swap; · iexact H9
  ipureintro
  sl_unfold_words
  rw [read_writes_cons _ _ hz2]
  simp only [View.readAt_eq_ld, View.ld_unit_zero (S := S512x512) hz2, View.ld_unit_zero (S := S512x128) hz2, View.ld_unit_zero (S := S512x1) hz2, View.readCov_unit_zero (S := S512x1) _ hz2]
  rfl

set_option maxHeartbeats 4000000 in
/-- At j = 7: this tile's row sums are added to what the two buffers hold, and then one. -/
theorem sound_kernel1_last (c : Dev nD) (E : Set ℕ) (i : grid1.Coords) (hc0 : ¬ cond1_0 i) (hc1 : cond1_1 i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (arg11 : Memref sig .tc .vmem S512x1 .f32) (harg11 : arg11.IsWhole)
    (x0 x1 x2 : Vec F S512x512 .f32) (x3 x4 : Vec F S512x128 .f32) (a8 a9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare a8 ∗ owns (c : Thread nD τ) arg11 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare (out1_6 x0 x1 x2 x3 x4) ∗ owns (c : Thread nD τ) arg9 fullShare (out1_7 x0 x1)
            ∗ owns (c : Thread nD τ) arg10 fullShare (k1_pay6 (upd1_8 x0 x1 x2 x3 x4 a8)) ∗ owns (c : Thread nD τ) arg11 fullShare (k1_pay7 (upd1_9 x0 x1 x2 x3 x4 a9))) -∗ K ⟨⟩))
      ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K := by
  haveI : Fact (cond1_1 i) := ⟨hc1⟩
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H6]
  · iexists _; isplitr
    swap; · iexact H6
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H7]
  · iexists _; isplitr
    swap; · iexact H7
    ipureintro
    sl_unfold_words
    rw [read_writes_cons _ _ hz2]
    simp only [View.readAt_eq_ld, View.ld_unit_zero (S := S512x512) hz2, View.ld_unit_zero (S := S512x128) hz2, View.ld_unit_zero (S := S512x1) hz2]
    rfl
  isplitl [H8]
  · iexists _; isplitr
    swap; · iexact H8
    ipureintro
    sl_unfold_words
    rw [read_writes_cons _ _ hz2]
    simp only [View.readAt_eq_ld, View.ld_unit_zero (S := S512x512) hz2, View.ld_unit_zero (S := S512x128) hz2, View.ld_unit_zero (S := S512x1) hz2, View.readCov_unit_zero (S := S512x1) _ hz2]
    rfl
  iexists _; isplitr
  swap; · iexact H9
  ipureintro
  sl_unfold_words
  rw [read_writes_cons _ _ hz2]
  simp only [View.readAt_eq_ld, View.ld_unit_zero (S := S512x512) hz2, View.ld_unit_zero (S := S512x128) hz2, View.ld_unit_zero (S := S512x1) hz2, View.readCov_unit_zero (S := S512x1) _ hz2]
  rfl

/-! ## The two running sums, point by point -/

/-- The running row sums (output window 8) after the body at position `n` of the grid's row-major order: cleared
    at the start of each row of eight points, this tile's sums added at every point, one more at the row's last. -/
def acc1_8 (c : Dev nD) : (n : ℕ) → n < cfg1.N → Vec F S512x1 .f32
  | 0, hn => upd1_8 (iblk1 V c 0 ⟨0, hn⟩) (iblk1 V c 1 ⟨0, hn⟩) (iblk1 V c 2 ⟨0, hn⟩) (iblk1 V c 3 ⟨0, hn⟩) (iblk1 V c 4 ⟨0, hn⟩) k1_pay8
  | n + 1, hn =>
    if (n + 1) % 8 = 0 then upd1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) k1_pay8
    else if (n + 1) % 8 = 7 then k1_pay6 (upd1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1_8 c n (Nat.lt_of_succ_lt hn)))
    else upd1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1_8 c n (Nat.lt_of_succ_lt hn))

theorem acc1_8_first (c : Dev nD) (t : Fin cfg1.N) (h0 : t.val % 8 = 0) :
    acc1_8 V c t.val t.isLt = upd1_8 (iblk1 V c 0 t) (iblk1 V c 1 t) (iblk1 V c 2 t) (iblk1 V c 3 t) (iblk1 V c 4 t) k1_pay8 := by
  obtain ⟨n, hn⟩ := t
  cases n with
  | zero => rfl
  | succ n => exact (if_pos h0).trans rfl

theorem acc1_8_mid (c : Dev nD) (t : Fin cfg1.N) (h0 : ¬ t.val % 8 = 0) (h7 : ¬ t.val % 8 = 7) :
    acc1_8 V c t.val t.isLt = upd1_8 (iblk1 V c 0 t) (iblk1 V c 1 t) (iblk1 V c 2 t) (iblk1 V c 3 t) (iblk1 V c 4 t) (acc1_8 V c (t.val - 1) (Nat.lt_of_le_of_lt (Nat.sub_le _ _) t.isLt)) := by
  obtain ⟨n, hn⟩ := t
  cases n with
  | zero => exact absurd (Nat.zero_mod _) h0
  | succ n => exact ((if_neg h0).trans (if_neg h7)).trans rfl

theorem acc1_8_last (c : Dev nD) (t : Fin cfg1.N) (h7 : t.val % 8 = 7) :
    acc1_8 V c t.val t.isLt = k1_pay6 (upd1_8 (iblk1 V c 0 t) (iblk1 V c 1 t) (iblk1 V c 2 t) (iblk1 V c 3 t) (iblk1 V c 4 t) (acc1_8 V c (t.val - 1) (Nat.lt_of_le_of_lt (Nat.sub_le _ _) t.isLt))) := by
  obtain ⟨n, hn⟩ := t
  cases n with
  | zero => exact absurd (show (0 : ℕ) % 8 = 7 from h7) (by decide)
  | succ n =>
    have h7' : (n + 1) % 8 = 7 := h7
    exact ((if_neg (show ¬ (n + 1) % 8 = 0 by omega)).trans (if_pos h7')).trans rfl

/-- The running row sums (output window 9) after the body at position `n` of the grid's row-major order: cleared
    at the start of each row of eight points, this tile's sums added at every point, one more at the row's last. -/
def acc1_9 (c : Dev nD) : (n : ℕ) → n < cfg1.N → Vec F S512x1 .f32
  | 0, hn => upd1_9 (iblk1 V c 0 ⟨0, hn⟩) (iblk1 V c 1 ⟨0, hn⟩) (iblk1 V c 2 ⟨0, hn⟩) (iblk1 V c 3 ⟨0, hn⟩) (iblk1 V c 4 ⟨0, hn⟩) k1_pay9
  | n + 1, hn =>
    if (n + 1) % 8 = 0 then upd1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) k1_pay9
    else if (n + 1) % 8 = 7 then k1_pay7 (upd1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1_9 c n (Nat.lt_of_succ_lt hn)))
    else upd1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1_9 c n (Nat.lt_of_succ_lt hn))

theorem acc1_9_first (c : Dev nD) (t : Fin cfg1.N) (h0 : t.val % 8 = 0) :
    acc1_9 V c t.val t.isLt = upd1_9 (iblk1 V c 0 t) (iblk1 V c 1 t) (iblk1 V c 2 t) (iblk1 V c 3 t) (iblk1 V c 4 t) k1_pay9 := by
  obtain ⟨n, hn⟩ := t
  cases n with
  | zero => rfl
  | succ n => exact (if_pos h0).trans rfl

theorem acc1_9_mid (c : Dev nD) (t : Fin cfg1.N) (h0 : ¬ t.val % 8 = 0) (h7 : ¬ t.val % 8 = 7) :
    acc1_9 V c t.val t.isLt = upd1_9 (iblk1 V c 0 t) (iblk1 V c 1 t) (iblk1 V c 2 t) (iblk1 V c 3 t) (iblk1 V c 4 t) (acc1_9 V c (t.val - 1) (Nat.lt_of_le_of_lt (Nat.sub_le _ _) t.isLt)) := by
  obtain ⟨n, hn⟩ := t
  cases n with
  | zero => exact absurd (Nat.zero_mod _) h0
  | succ n => exact ((if_neg h0).trans (if_neg h7)).trans rfl

theorem acc1_9_last (c : Dev nD) (t : Fin cfg1.N) (h7 : t.val % 8 = 7) :
    acc1_9 V c t.val t.isLt = k1_pay7 (upd1_9 (iblk1 V c 0 t) (iblk1 V c 1 t) (iblk1 V c 2 t) (iblk1 V c 3 t) (iblk1 V c 4 t) (acc1_9 V c (t.val - 1) (Nat.lt_of_le_of_lt (Nat.sub_le _ _) t.isLt))) := by
  obtain ⟨n, hn⟩ := t
  cases n with
  | zero => exact absurd (show (0 : ℕ) % 8 = 7 from h7) (by decide)
  | succ n =>
    have h7' : (n + 1) % 8 = 7 := h7
    exact ((if_neg (show ¬ (n + 1) % 8 = 0 by omega)).trans (if_pos h7')).trans rfl

/-! ## The proof data -/

/-- The region's proof data on core `c`: the arrays as the region finds them; after the body at point `t` each
    input's buffer at its block, the three tile outputs' at `out1_5`, `out1_6`, `out1_7` of the input blocks and
    the two running sums' at `acc1_8`, `acc1_9`; between points only the scoped buffers no window stages and the
    generator register; nothing owed. The two windows that read `emb` each hold half of its array; every other
    array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t)
    | ⟨8, _⟩ => acc1_8 V c t.val t.isLt
    | ⟨9, _⟩ => acc1_9 V c t.val t.isLt
  Φ _ := Pipeline.ΦA spec1 c
  q w := match w with
    | ⟨3, _⟩ => fullShare.left
    | ⟨4, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) := by dsimp only [dat1]
theorem after1_8 (c : Dev nD) (t : Fin cfg1.N) : (dat1 V c).after 8 t = acc1_8 V c t.val t.isLt := by dsimp only [dat1]
theorem after1_9 (c : Dev nD) (t : Fin cfg1.N) : (dat1 V c).after 9 t = acc1_9 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- Away from the start of a row of points, a running sum's staging buffer still holds what the point before left:
    its block index has not moved, so it was not written back in between. -/
theorem before1_8_kept (c : Dev nD) (t : Fin cfg1.N) (h0 : ¬ t.val % 8 = 0) (d) :
    (dat1 V c).before 8 t d = acc1_8 V c (t.val - 1) (Nat.lt_of_le_of_lt (Nat.sub_le _ _) t.isLt) := by
  have hN : t.val < 64 := lt_of_lt_of_eq t.isLt (show cfg1.N = 64 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_9_kept (c : Dev nD) (t : Fin cfg1.N) (h0 : ¬ t.val % 8 = 0) (d) :
    (dat1 V c).before 9 t d = acc1_9 V c (t.val - 1) (Nat.lt_of_le_of_lt (Nat.sub_le _ _) t.isLt) := by
  have hN : t.val < 64 := lt_of_lt_of_eq t.isLt (show cfg1.N = 64 from N_1)
  rw [Dat.before_out_kept _ 9 rfl t (by omega) (Bool.eq_false_iff.mpr fun h => by have := (flush1_9 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1600000 in
/-- The body at any point: the inputs' memrefs hold their blocks; the point's position in its row of eight says which
    case it is in, and away from the row's start the two running sums' buffers hold what the point before left; so
    the case's triple applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 64 := lt_of_lt_of_eq t.isLt (show cfg1.N = 64 from N_1)
  by_cases h0 : t.val % 8 = 0
  · have h7 : ¬ t.val % 8 = 7 := by omega
    rw [acc1_8_first V c t h0, acc1_9_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_first c Set.univ (grid1.coords t) ((hcond1_0 t).mpr h0) (fun h => h7 ((hcond1_1 t).mp h)) _ _ _ _ _ _ _ _ _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h7 : t.val % 8 = 7
    · rw [acc1_8_last V c t h7, acc1_9_last V c t h7]
      simp only [before1_8_kept V c t h0, before1_9_kept V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel1_last c Set.univ (grid1.coords t) (fun h => h0 ((hcond1_0 t).mp h)) ((hcond1_1 t).mpr h7) _ _ _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [acc1_8_mid V c t h0 h7, acc1_9_mid V c t h0 h7]
      simp only [before1_8_kept V c t h0, before1_9_kept V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel1_mid c Set.univ (grid1.coords t) (fun h => h0 ((hcond1_0 t).mp h)) (fun h => h7 ((hcond1_1 t).mp h)) _ _ _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Shared1.lean ====
/-
  The second region's arrays among the core's unscoped buffers. Two of its input windows read the same array
  (`emb`, by row block and by column block), so the region holds that array as two halves, one per window, and every
  other array whole: at the region's entry the buffer's full share is split in two, at its exit the halves are joined.
-/
import proofs.«119275_j1889785610729_1_alg».proof.Proof.Body1

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.WholeStore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's ten windows. -/
abbrev arrList1 : List (Ref sig .tc) :=
  [main_arg1, main_arg2, main_arg3, main_v0, main_v1_0, main_v1_1, main_v1_2, main_v1_3, main_v1_4]

/-- The region's arrays, window by window: the two windows on `emb` hold a half each. -/
theorem arrays1_eq (c : Dev nD) (Fa : (w : Fin cfg1.W) → Buf (Elt F) ((cfg1.win w).arr.view.loc (c : Thread nD τ))) :
    ((dat1 V c).arrays Fa : sProp 𝕄) = iprop(
      (((c : Thread nD τ).loc main_arg1) ↦{fullShare} Fa 0) ∗ (((c : Thread nD τ).loc main_arg2) ↦{fullShare} Fa 1)
      ∗ (((c : Thread nD τ).loc main_arg3) ↦{fullShare} Fa 2)
      ∗ (((c : Thread nD τ).loc main_v0) ↦{fullShare.left} Fa 3) ∗ (((c : Thread nD τ).loc main_v0) ↦{fullShare.right} Fa 4)
      ∗ (((c : Thread nD τ).loc main_v1_0) ↦{fullShare} Fa 5) ∗ (((c : Thread nD τ).loc main_v1_1) ↦{fullShare} Fa 6)
      ∗ (((c : Thread nD τ).loc main_v1_2) ↦{fullShare} Fa 7) ∗ (((c : Thread nD τ).loc main_v1_3) ↦{fullShare} Fa 8)
      ∗ (((c : Thread nD τ).loc main_v1_4) ↦{fullShare} Fa 9)) := by
  unfold Dat.arrays
  rw [bigSep_W1]
  rw [(arr_whole1 0).set_eq_univ, (arr_whole1 1).set_eq_univ, (arr_whole1 2).set_eq_univ, (arr_whole1 3).set_eq_univ,
    (arr_whole1 5).set_eq_univ, (arr_whole1 6).set_eq_univ, (arr_whole1 7).set_eq_univ,
    (arr_whole1 8).set_eq_univ, (arr_whole1 9).set_eq_univ]
  rfl

/-- The buffers behind the windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄) = iprop(
      (((c : Thread nD τ).loc main_arg1) ↦{fullShare} W main_arg1) ∗ (((c : Thread nD τ).loc main_arg2) ↦{fullShare} W main_arg2)
      ∗ (((c : Thread nD τ).loc main_arg3) ↦{fullShare} W main_arg3) ∗ (((c : Thread nD τ).loc main_v0) ↦{fullShare} W main_v0)
      ∗ (((c : Thread nD τ).loc main_v1_0) ↦{fullShare} W main_v1_0) ∗ (((c : Thread nD τ).loc main_v1_1) ↦{fullShare} W main_v1_1)
      ∗ (((c : Thread nD τ).loc main_v1_2) ↦{fullShare} W main_v1_2) ∗ (((c : Thread nD τ).loc main_v1_3) ↦{fullShare} W main_v1_3)
      ∗ (((c : Thread nD τ).loc main_v1_4) ↦{fullShare} W main_v1_4)) := by
  unfold Pipeline.arrBufs
  rw [bigSep_eq_bigSepL_of_eq arrList1 (by decide) (by decide)]
  rfl

/-- ENTRY: a core's unscoped buffers at contents `V c` are the region's arrays at the proof data's entry contents —
    `emb`'s buffer split into its two halves — and the unscoped rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  show (iprop(Pipeline.arrBufs spec1 c (V c) ∗ Pipeline.unscopedRest spec1 c (V c)) : sProp 𝕄) ⊢ _
  rw [arrBufs1_eq, arrays1_eq]
  iintro ⟨⟨H1, H2, H3, Hv, H5, H6, H7, H8, H9⟩, Hr⟩
  ihave Hs := (pointsTo_share (PosShare.mem_left_op_right fullShare)).1 $$ Hv
  icases Hs with ⟨Hl, Hrr⟩
  isplitr [Hr]
  · isplitl [H1]; · iexact H1
    isplitl [H2]; · iexact H2
    isplitl [H3]; · iexact H3
    isplitl [Hl]; · iexact Hl
    isplitl [Hrr]; · iexact Hrr
    isplitl [H5]; · iexact H5
    isplitl [H6]; · iexact H6
    isplitl [H7]; · iexact H7
    isplitl [H8]; · iexact H8
    iexact H9
  · iexact Hr

/-- EXIT: the region's arrays at contents `Fa` — the two halves of `emb`'s buffer joined — and the unscoped rest at
    `V c` are the core's unscoped buffers at any valuation `V'` that has the arrays at `Fa` and agrees with `V c` off
    them. -/
theorem exit1 (c : Dev nD) (V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V c b) :
    iprop((dat1 V c).arrays Fa ∗ Pipeline.unscopedRest spec1 c (V c)) ⊢ (unscopedBufs c V' : sProp 𝕄) := by
  rw [Pipeline.unscopedBufs_split₀ cfgs 1 winFacts₀1.arr_unscoped c V']
  show _ ⊢ (iprop(Pipeline.arrBufs spec1 c V' ∗ Pipeline.unscopedRest spec1 c V') : sProp 𝕄)
  rw [arrBufs1_eq, arrays1_eq,
    hF 0, hF 1, hF 2, hF 3, hF 4, hF 5, hF 6, hF 7, hF 8, hF 9]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨H1, H2, H3, Hl, Hrr, H5, H6, H7, H8, H9⟩, Hr⟩
  ihave Hv := (pointsTo_share (PosShare.mem_left_op_right fullShare)).2 $$ [Hl Hrr]
  · isplitl [Hl]; · iexact Hl
    iexact Hrr
  isplitr [Hr]
  · isplitl [H1]; · iexact H1
    isplitl [H2]; · iexact H2
    isplitl [H3]; · iexact H3
    isplitl [Hv]; · iexact Hv
    isplitl [H5]; · iexact H5
    isplitl [H6]; · iexact H6
    isplitl [H7]; · iexact H7
    isplitl [H8]; · iexact H8
    iexact H9
  · iexact Hr

end Cert.KernelIdeal.Hand

end
-- ==== Proof.Body2.lean ====
/-
  The third kernel region, an 8 × 8 grid over 512 × 512 tiles. At point (i, j) the body takes the tiles of `w_lp`,
  `w_hp` and `edge_mask`, the blocks i of the two columns of inverse square roots and the blocks j of the same two
  read as rows, forms the tile of the identity from the point's coordinates, and leaves the tiles of
  `adj_lp = (w_lp + I) · dis_i · dis_j` and `adj_hp = I − (w_hp + I) · dis'_i · dis'_j · edge_mask · 0.1`. Nothing is
  carried from point to point.
-/
import proofs.«119275_j1889785610729_1_alg».proof.Proof.Gen.KernelIdeal.Launch
import proofs.«119275_j1889785610729_1_alg».proof.Proof.Gen.KernelIdeal.Skeleton
import proofs.«119275_j1889785610729_1_alg».proof.Proof.Gen.KernelIdeal.Points
import proofs.«119275_j1889785610729_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.WholeStore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the body computes -/

/-- The tile of `adj_lp` at grid coordinates `i`. -/
def out2_7 (i : grid2.Coords) (x0 : Vec F S512x512 .f32) (x3 : Vec F S512x1 .f32) (x4 : Vec F S1x512 .f32) : Vec F S512x512 .f32 :=
  k2_pay2 i x0 x3 x4
/-- The tile of `adj_hp` at grid coordinates `i`. -/
def out2_8 (i : grid2.Coords) (x1 x2 : Vec F S512x512 .f32) (x5 : Vec F S512x1 .f32) (x6 : Vec F S1x512 .f32) : Vec F S512x512 .f32 :=
  k2_pay3 i x1 x2 x5 x6

/-! ## The body's triple -/

set_option maxHeartbeats 4000000 in
/-- The body on whole staging memrefs, the seven inputs' at their contents and the two outputs' at anything, runs to
    the continuation holding the inputs' as they were and the outputs' at `out2_7`, `out2_8` of them. -/
theorem sound_kernel2 (c : Dev nD) (E : Set ℕ) (i : grid2.Coords)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole)
    (x0 x1 x2 : Vec F S512x512 .f32) (x3 : Vec F S512x1 .f32) (x4 : Vec F S1x512 .f32) (x5 : Vec F S512x1 .f32) (x6 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out2_7 i x0 x3 x4) ∗ owns (c : Thread nD τ) arg10 fullShare (out2_8 i x1 x2 x5 x6)) -∗ K ⟨⟩))
      ⊢ wp frame (wpE (defs₀ (F := F)) Variants.none c none) E (cc2__stage3_kernel i arg2 harg2 arg3 harg3 arg4 harg4 arg5 harg5 arg6 harg6 arg7 harg7 arg8 harg8 arg9 harg9 arg10 harg10) K := by
  simp only [cc2__stage3_kernel_eq_skeleton]; unfold cc2__stage3_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_cons _ _ hz2]
    simp only [View.readAt_eq_ld, View.ld_unit_zero (S := S512x512) hz2, View.ld_unit_zero (S := S512x1) hz2, View.ld_unit_zero (S := S1x512) hz2]
    rfl
  iexists _; isplitr
  swap; · iexact H8
  ipureintro
  sl_unfold_words
  rw [read_writes_cons _ _ hz2]
  simp only [View.readAt_eq_ld, View.ld_unit_zero (S := S512x512) hz2, View.ld_unit_zero (S := S512x1) hz2, View.ld_unit_zero (S := S1x512) hz2]
  rfl

/-! ## The proof data -/

/-- The region's proof data on core `c`: the arrays as the region finds them; after the body at point `t` each
    input's buffer at its block and the two outputs' at `out2_7`, `out2_8` of the input blocks at the point's
    coordinates; between points only the scoped buffers no window stages and the generator register; nothing owed;
    every array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (grid2.coords t) (iblk2 V c 0 t) (iblk2 V c 3 t) (iblk2 V c 4 t)
    | ⟨8, _⟩ => out2_8 (grid2.coords t) (iblk2 V c 1 t) (iblk2 V c 2 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (grid2.coords t) (iblk2 V c 0 t) (iblk2 V c 3 t) (iblk2 V c 4 t) := by dsimp only [dat2]
theorem after2_8 (c : Dev nD) (t : Fin cfg2.N) :
    (dat2 V c).after 8 t = out2_8 (grid2.coords t) (iblk2 V c 1 t) (iblk2 V c 2 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so `sound_kernel2` applies at the point's
    coordinates; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Run.lean ====
/-
  The whole program as one run: the first region, the second, the ten host operations that turn the two row sums into
  inverse square roots (as columns and, reshaped, as rows), and the third region.

  The contents of the core's unscoped buffers are followed from the launch to the return as a fold: `W0` the launch
  memory; `W1` after the first region (its output array at what its write-backs leave); `W2` after the second (its
  five output arrays likewise; `emb`, which it reads through two windows, unchanged); `W3` after the host operations;
  `W4` after the third region. Each region is entered from every unscoped buffer held at the contents before it and
  left with them held at the contents after it; the generator register and the core's dues ride along. The run's post
  reads every unscoped buffer at `W4`: the arguments, which nothing writes, and the five results.
-/
import proofs.«119275_j1889785610729_1_alg».proof.Proof.Body0
import proofs.«119275_j1889785610729_1_alg».proof.Proof.Shared1
import proofs.«119275_j1889785610729_1_alg».proof.Proof.Body2

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.WholeStore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- The same read at the TensorCore's references (what the first region's proof data take). -/
abbrev V0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: its five output arrays at what the pipeline leaves, every other buffer as entered. -/
def W2 (c : Dev nD) : Valuation τ sig (Elt F) :=
  Function.update (Function.update (Function.update (Function.update (Function.update (W1 m c)
    (Proc.devRef .tc main_v1_0) ((dat1 (V1 m) c).arrAt 5 cfg1.N))
    (Proc.devRef .tc main_v1_1) ((dat1 (V1 m) c).arrAt 6 cfg1.N))
    (Proc.devRef .tc main_v1_2) ((dat1 (V1 m) c).arrAt 7 cfg1.N))
    (Proc.devRef .tc main_v1_3) ((dat1 (V1 m) c).arrAt 8 cfg1.N))
    (Proc.devRef .tc main_v1_4) ((dat1 (V1 m) c).arrAt 9 cfg1.N)
abbrev V2 : (c : Dev nD) → (b : Ref sig .tc) → Buf (Elt F) ((c : Thread nD τ).loc b) := fun c b => W2 m c b
theorem W2_of (c : Dev nD) (r : Ref sig .tc) (h : r ∉ ([main_v1_0, main_v1_1, main_v1_2, main_v1_3, main_v1_4] : List (Ref sig .tc))) :
    W2 m c (Proc.devRef .tc r) = W1 m c (Proc.devRef .tc r) := by
  simp only [W2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1), Function.update_of_ne (StableHlo.devRef_ne_of_ne (List.ne_of_not_mem_cons (List.not_mem_of_not_mem_cons (List.not_mem_of_not_mem_cons h))) : (Proc.devRef .tc r : DevRef τ sig) ≠ Proc.devRef .tc main_v1_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v1_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v1_4)]
theorem W2_v1_4 (c : Dev nD) : W2 m c (Proc.devRef .tc main_v1_4) = (dat1 (V1 m) c).arrAt 9 cfg1.N := by
  unfold W2; exact Function.update_self ..
theorem W2_v1_3 (c : Dev nD) : W2 m c (Proc.devRef .tc main_v1_3) = (dat1 (V1 m) c).arrAt 8 cfg1.N := by
  unfold W2
  rw [Function.update_of_ne (StableHlo.devRef_ne_of_ne (by decide) : (Proc.devRef .tc main_v1_3 : DevRef τ sig) ≠ Proc.devRef .tc main_v1_4)]
  exact Function.update_self ..
theorem W2_v1_2 (c : Dev nD) : W2 m c (Proc.devRef .tc main_v1_2) = (dat1 (V1 m) c).arrAt 7 cfg1.N := by
  unfold W2
  rw [Function.update_of_ne (StableHlo.devRef_ne_of_ne (by decide) : (Proc.devRef .tc main_v1_2 : DevRef τ sig) ≠ Proc.devRef .tc main_v1_4),
    Function.update_of_ne (StableHlo.devRef_ne_of_ne (by decide) : (Proc.devRef .tc main_v1_2 : DevRef τ sig) ≠ Proc.devRef .tc main_v1_3)]
  exact Function.update_self ..
theorem W2_v1_1 (c : Dev nD) : W2 m c (Proc.devRef .tc main_v1_1) = (dat1 (V1 m) c).arrAt 6 cfg1.N := by
  unfold W2
  rw [Function.update_of_ne (StableHlo.devRef_ne_of_ne (by decide) : (Proc.devRef .tc main_v1_1 : DevRef τ sig) ≠ Proc.devRef .tc main_v1_4),
    Function.update_of_ne (StableHlo.devRef_ne_of_ne (by decide) : (Proc.devRef .tc main_v1_1 : DevRef τ sig) ≠ Proc.devRef .tc main_v1_3),
    Function.update_of_ne (StableHlo.devRef_ne_of_ne (by decide) : (Proc.devRef .tc main_v1_1 : DevRef τ sig) ≠ Proc.devRef .tc main_v1_2)]
  exact Function.update_self ..
theorem W2_v1_0 (c : Dev nD) : W2 m c (Proc.devRef .tc main_v1_0) = (dat1 (V1 m) c).arrAt 5 cfg1.N := by
  unfold W2
  rw [Function.update_of_ne (StableHlo.devRef_ne_of_ne (by decide) : (Proc.devRef .tc main_v1_0 : DevRef τ sig) ≠ Proc.devRef .tc main_v1_4),
    Function.update_of_ne (StableHlo.devRef_ne_of_ne (by decide) : (Proc.devRef .tc main_v1_0 : DevRef τ sig) ≠ Proc.devRef .tc main_v1_3),
    Function.update_of_ne (StableHlo.devRef_ne_of_ne (by decide) : (Proc.devRef .tc main_v1_0 : DevRef τ sig) ≠ Proc.devRef .tc main_v1_2),
    Function.update_of_ne (StableHlo.devRef_ne_of_ne (by decide) : (Proc.devRef .tc main_v1_0 : DevRef τ sig) ≠ Proc.devRef .tc main_v1_1)]
  exact Function.update_self ..
/-- An input array of the second region ends as it was entered. -/
theorem arrAt1_in (c : Dev nD) (w : Fin cfg1.W) (hin : (cfg1.win w).isOut = false) (r : Ref sig .tc)
    (hr : Pipeline.arrRef spec1 w = r) (h : r ∉ ([main_v1_0, main_v1_1, main_v1_2, main_v1_3, main_v1_4] : List (Ref sig .tc))) :
    HEq ((dat1 (V1 m) c).arrAt w cfg1.N) (V2 m c r) := by
  subst hr
  exact heq_of_eq ((((dat1 (V1 m) c).arrAt_in w hin _).trans (A_eq1 (V1 m) c w)).trans (W2_of m c _ h).symm)
theorem hF1 (c : Dev nD) (w : Fin cfg1.W) : (dat1 (V1 m) c).arrAt w cfg1.N = V2 m c (Pipeline.arrRef spec1 w) := by
  fin_cases w
  · exact eq_of_heq (arrAt1_in m c 0 rfl _ rfl (by decide))
  · exact eq_of_heq (arrAt1_in m c 1 rfl _ rfl (by decide))
  · exact eq_of_heq (arrAt1_in m c 2 rfl _ rfl (by decide))
  · exact eq_of_heq (arrAt1_in m c 3 rfl _ rfl (by decide))
  · exact eq_of_heq (arrAt1_in m c 4 rfl _ rfl (by decide))
  · exact (W2_v1_0 m c).symm
  · exact (W2_v1_1 m c).symm
  · exact (W2_v1_2 m c).symm
  · exact (W2_v1_3 m c).symm
  · exact (W2_v1_4 m c).symm
theorem hrest1 (c : Dev nD) : ∀ b, b ∉ Finset.univ.image (Pipeline.arrRef spec1) → V2 m c b = V1 m c b := fun b hb =>
  W2_of m c b fun hmem => hb (by
    simp only [List.mem_cons, List.not_mem_nil, or_false] at hmem
    rcases hmem with rfl | rfl | rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩
    · exact Finset.mem_image.mpr ⟨8, Finset.mem_univ _, rfl⟩
    · exact Finset.mem_image.mpr ⟨9, Finset.mem_univ _, rfl⟩)

/-- After the ten host operations (the third region's entry). -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b
/-- After the third region: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- A buffer the host operations do not write is after them what it was before. -/
theorem W3_of (c : Dev nD) (r : Ref sig .tc)
    (h : r ∉ ([main_cst, main_v2, main_v3, main_v4, main_cst_0, main_v5, main_v6, main_v7, main_v8, main_v9] : List (Ref sig .tc))) :
    W3 m c (Proc.devRef .tc r) = W2 m c (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes, StableHlo.reshape_writes, Finset.mem_singleton]
    simp only [List.mem_cons, List.not_mem_nil, or_false, not_or] at h
    obtain ⟨h0, h1, h2, h3, h4, h5, h6, h7, h8, h9⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := (W1_arr m c 1).trans (((dat0 (V0 m) c).arrAt_in 1 rfl _).trans (A_eq0 (V0 m) c 1))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := (W1_arr m c 2).trans (((dat0 (V0 m) c).arrAt_in 2 rfl _).trans (A_eq0 (V0 m) c 2))
    _ = m ((c : Thread nD τ).loc main_arg5) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`. Two of its
    windows read `emb`: its buffer is split in halves at the entry and joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := entry1 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m) c (V2 m c) ((dat1 (V1 m) c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `W3`, left at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh' (W2 m)),
    .region (reg2 m) ]
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state has every unscoped buffer at `W4`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.Spec.lean ====
/-
  What both programs compute, as formulas over the extended reals, stage by stage and at any extents: a kernel's
  tile computes the same formula as the whole array, on blocks of the operands.

  Stage A, from features X [n, 512], the weights W [512, 128] and the bias b [128]:
    emb p h      = max (∑ k, X p k · W k h + b h) 0
  Stage B, from two embeddings Ei [n, 128], Ej [m, 128], two adjacencies A, A₂ and the noise E [n, m]:
    score p q    = ∑ h, Ei p h · Ej q h
    mult p q     = [A p q ≠ 0] + [A₂ p q ≠ 0]            mask p q = [mult p q > 0]
    ε p q        = c₋ · E p q + c₊                        (the two literals are the same words in both programs)
    σ p q        = logistic ((log ε − log1p (−ε) + score · mult) / 1)
    w_lp = σ · mask        w_hp = (1 − σ) · mask
    rowsum p     = ∑ q, w p q                             d p = rowsum p + 1 for the whole (n = m = 4096, Ei = Ej)
      (a row of w + I sums to the row of w plus one)
  Stage C, from a weight matrix Wm [n, m] (for the high-pass form also its mask Mk), a matrix Id [n, m] standing for
  the identity's entries, and the inverse square roots as a column dc [n, 1] and a row dr [1, m]:
    adj_lp p q = (Wm p q + Id p q) · dc p · dr q
    adj_hp p q = Id p q − (Wm p q + Id p q) · dc p · dr q · Mk p q · c₁₀
  with dc p = dr p = rsqrt (d p + e) between the stages. Every operation is the extended reals' (PureOps/Ideal.lean);
  the literals stay the words the programs print, except the word of 1.0, which is the number one.
-/
import Idealize.ShloMosaic.Lib.ValueIdx
import Idealize.ShloMosaic.PureOps.Ideal.Laws

noncomputable section

open scoped BigOperators

namespace Cert.Spec

open Idealize.ShloMosaic Idealize.ShloMosaic.ValueIdx

/-- A rank-2 shape of the given extents. -/
abbrev Sh (n m : ℕ) : Shape := ⟨2, ![n, m]⟩
abbrev SB : Shape := ⟨1, ![128]⟩

/-- The literals, as the programs print them. -/
def cM : EReal := Ideal.ofBits .f32 0xBF7FF2E5#32
def cP : EReal := Ideal.ofBits .f32 0x3F7FF972#32
def cOne : EReal := Ideal.ofBits .f32 0x3F800000#32
def cTen : EReal := Ideal.ofBits .f32 0x3DCCCCCD#32
def cEos : EReal := Ideal.ofBits .f32 0x2EDBE6FF#32

/-- The word of 1.0 is the number one. -/
theorem cOne_eq : cOne = 1 := by
  unfold cOne; simp [Ideal.ofBits, Ideal.ieee, -EReal.coe_mul]; norm_num

/-- One where `x` is not zero, else zero. -/
def ind (x : EReal) : EReal := if x ≠ 0 then 1 else 0
/-- One where `x` is above zero, else zero. -/
def pos (x : EReal) : EReal := if 0 < x then 1 else 0
/-- The identity matrix's entry at row `r`, column `s` (as naturals). -/
def eyeN (r s : ℕ) : EReal := if r = s then 1 else 0
/-- The inverse square root of a row sum. -/
def dis (d : EReal) : EReal := Ideal.rsqrt (d + cEos)

/-! ## Stage A -/

section StageA
variable {n : ℕ} (X : (Sh n 512).Idx → EReal) (W : (Sh 512 128).Idx → EReal) (b : SB.Idx → EReal)
def emb (p : Fin n) (h : Fin 128) : EReal := max ((∑ k : Fin 512, X (ix2 p k) * W (ix2 k h)) + b (ix1 h)) 0
def embArr : (Sh n 128).Idx → EReal := fun j => emb X W b (j 0) (j 1)
end StageA

/-! ## Stage B -/

section StageB
variable {n m : ℕ} (Ei : (Sh n 128).Idx → EReal) (Ej : (Sh m 128).Idx → EReal) (A A2 E : (Sh n m).Idx → EReal)
def score (p : Fin n) (q : Fin m) : EReal := ∑ h : Fin 128, Ei (ix2 p h) * Ej (ix2 q h)
def mult (p : Fin n) (q : Fin m) : EReal := ind (A (ix2 p q)) + ind (A2 (ix2 p q))
def mask (p : Fin n) (q : Fin m) : EReal := pos (mult A A2 p q)
def epsv (p : Fin n) (q : Fin m) : EReal := cM * E (ix2 p q) + cP
def gate (p : Fin n) (q : Fin m) : EReal :=
  Ideal.div ((Ideal.log (epsv E p q) - Ideal.log1p (-(epsv E p q))) + score Ei Ej p q * mult A A2 p q) cOne
def sg (p : Fin n) (q : Fin m) : EReal := Ideal.logistic (gate Ei Ej A A2 E p q)
def wlp (p : Fin n) (q : Fin m) : EReal := sg Ei Ej A A2 E p q * mask A A2 p q
def whp (p : Fin n) (q : Fin m) : EReal := (cOne - sg Ei Ej A A2 E p q) * mask A A2 p q
def rowLp (p : Fin n) : EReal := ∑ q : Fin m, wlp Ei Ej A A2 E p q
def rowHp (p : Fin n) : EReal := ∑ q : Fin m, whp Ei Ej A A2 E p q
def wlpArr : (Sh n m).Idx → EReal := fun j => wlp Ei Ej A A2 E (j 0) (j 1)
def whpArr : (Sh n m).Idx → EReal := fun j => whp Ei Ej A A2 E (j 0) (j 1)
def maskArr : (Sh n m).Idx → EReal := fun j => mask A A2 (j 0) (j 1)
/-- The row sums of `w_lp + I`, `w_hp + I`: the row sums of `w` plus one. -/
def dlpArr : (Sh n 1).Idx → EReal := fun j => rowLp Ei Ej A A2 E (j 0) + 1
def dhpArr : (Sh n 1).Idx → EReal := fun j => rowHp Ei Ej A A2 E (j 0) + 1
end StageB

/-! ## Stage C -/

section StageC
variable {n m : ℕ} (Wm Mk Id : (Sh n m).Idx → EReal) (dc : (Sh n 1).Idx → EReal) (dr : (Sh 1 m).Idx → EReal)
def adjlp (p : Fin n) (q : Fin m) : EReal := ((Wm (ix2 p q) + Id (ix2 p q)) * dc (ix2 p 0)) * dr (ix2 0 q)
def adjhp (p : Fin n) (q : Fin m) : EReal :=
  Id (ix2 p q) - ((((Wm (ix2 p q) + Id (ix2 p q)) * dc (ix2 p 0)) * dr (ix2 0 q)) * Mk (ix2 p q)) * cTen
def adjlpArr : (Sh n m).Idx → EReal := fun j => adjlp Wm Id dc dr (j 0) (j 1)
def adjhpArr : (Sh n m).Idx → EReal := fun j => adjhp Wm Mk Id dc dr (j 0) (j 1)
end StageC

/-! ## The whole: the five results from the six arguments -/

section Whole
variable (X : (Sh 4096 512).Idx → EReal) (A A2 E : (Sh 4096 4096).Idx → EReal) (W : (Sh 512 128).Idx → EReal) (b : SB.Idx → EReal)
/-- The identity matrix [4096, 4096]. -/
def eyeArr : (Sh 4096 4096).Idx → EReal := fun j => eyeN (j 0).val (j 1).val
/-- The inverse square roots of the row sums, as a column and as a row. -/
def colOf (d : (Sh 4096 1).Idx → EReal) : (Sh 4096 1).Idx → EReal := fun j => dis (d j)
def rowOf (d : (Sh 4096 1).Idx → EReal) : (Sh 1 4096).Idx → EReal := fun j => dis (d (ix2 (j 1) 0))
def res_emb : (Sh 4096 128).Idx → EReal := embArr X W b
def res_wlp : (Sh 4096 4096).Idx → EReal := wlpArr (res_emb X W b) (res_emb X W b) A A2 E
def res_whp : (Sh 4096 4096).Idx → EReal := whpArr (res_emb X W b) (res_emb X W b) A A2 E
def res_mask : (Sh 4096 4096).Idx → EReal := maskArr A A2
def res_dlp : (Sh 4096 1).Idx → EReal := dlpArr (res_emb X W b) (res_emb X W b) A A2 E
def res_dhp : (Sh 4096 1).Idx → EReal := dhpArr (res_emb X W b) (res_emb X W b) A A2 E
def res_adjlp : (Sh 4096 4096).Idx → EReal :=
  adjlpArr (res_wlp X A A2 E W b) eyeArr (colOf (res_dlp X A A2 E W b)) (rowOf (res_dlp X A A2 E W b))
def res_adjhp : (Sh 4096 4096).Idx → EReal :=
  adjhpArr (res_whp X A A2 E W b) (res_mask A A2) eyeArr (colOf (res_dhp X A A2 E W b)) (rowOf (res_dhp X A A2 E W b))
end Whole

/-! ## The indicator words

  Both programs make `[x ≠ 0]`, `[x > 0]` and the identity's entries from a one-bit comparison widened to a float: the
  kernel widens the bit to 32 bits and converts it signed, the reference converts the bit unsigned. -/

theorem sitofp_setWidth_bit (b : BitVec 1) :
    ((((b.setWidth 32).toInt : ℝ)) : EReal) = if b = 1#1 then 1 else 0 := by
  rcases (by decide : ∀ b : BitVec 1, b = 0#1 ∨ b = 1#1) b with rfl | rfl <;> simp

theorem uitofp_bit (b : BitVec 1) : (((b.toNat : ℝ)) : EReal) = if b = 1#1 then 1 else 0 := by
  rcases (by decide : ∀ b : BitVec 1, b = 0#1 ∨ b = 1#1) b with rfl | rfl <;> simp

theorem ofBool_eq_one (p : Bool) : BitVec.ofBool p = 1#1 ↔ p = true := by cases p <;> decide

end Cert.Spec

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Val0.lean ====
/-
  The first region's result at the ideal values: the array of `emb` it leaves is the stage-A formula of the
  specification on the three arrays it read.

  Point `t` of the eight takes rows `512 t … 512 t + 511` of the features, the whole of the weights and of the bias,
  and leaves rows `512 t …` of the result. Entry `(a, h)` of what it leaves is
  `max (∑ k, x (a, k) · w (k, h) + b h) 0` on its blocks, and the block of the features at `(a, k)` is the array at
  `(512 t + a, k)`: so the entry is the specification's at row `512 t + a`. Row `r` of the result lies in the block
  of point `r / 512`, so the blocks fill the array.
-/
import proofs.«119275_j1889785610729_1_alg».proof.Proof.Body0
import proofs.«119275_j1889785610729_1_alg».proof.Proof.Spec
import proofs.«119275_j1889785610729_1_alg».proof.Proof.LibPlainDot
import proofs.«119275_j1889785610729_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open Idealize.ShloMosaic.WholeStore (hz2 hz1)

/-! ## One entry of what the body stores -/

/-- Entry `(a, h)` of the body's payload on blocks `x0` [512, 512], `x1` [512, 128], `x2` [128]: the product's entry
    (a sum over the 512 contracted positions) plus the bias at `h` (one row broadcast down the 512 rows), clipped
    below at zero (the zero word is the number zero). -/
private theorem pay0_apply (x0 : Vec Ideal S512x512 .f32) (x1 : Vec Ideal S512x128 .f32) (x2 : Vec Ideal S128 .f32)
    (a : Fin 512) (h : Fin 128) :
    k0_pay1 x0 x1 x2 (ix2 a h) = max ((∑ k : Fin 512, x0 (ix2 a k) * x1 (ix2 k h)) + x2 (ix1 h)) 0 := by
  unfold k0_pay1
  rw [maximumf_apply, addf_apply, broadcast_apply]
  rw [PlainDot.matmul_zero_apply dot_S512x512_S512x128_S512x128_1_0_0_1_n_n rfl rfl rfl rfl rfl rfl rfl rfl]
  rw [broadcastTo_1b_ab_apply, shapeCast_a_1a_apply]
  exact congrArg (max _) Ideal.ofBits_zero_f32

/-- The formula on blocks is the specification's at row `512 T + a` of the whole, when the features' block at
    `(a, k)` is the array at `(512 T + a, k)` and the other two blocks are their arrays. -/
private theorem emb0_of_blocks (X : S4096x512.Idx → EReal) (W : S512x128.Idx → EReal) (b : S128.Idx → EReal)
    (x0 : S512x512.Idx → EReal) (x1 : S512x128.Idx → EReal) (x2 : S128.Idx → EReal) (T : ℕ) (hT : T < 8)
    (a : Fin 512) (h : Fin 128) (hx : ∀ k : Fin 512, x0 (ix2 a k) = X (ix2 ⟨512 * T + a.val, by omega⟩ k))
    (hw : ∀ k : Fin 512, x1 (ix2 k h) = W (ix2 k h)) (hb : x2 (ix1 h) = b (ix1 h)) :
    max ((∑ k : Fin 512, x0 (ix2 a k) * x1 (ix2 k h)) + x2 (ix1 h)) 0
      = Spec.embArr X W b (ix2 ⟨512 * T + a.val, by omega⟩ h) := by
  show _ = max ((∑ k : Fin 512, X (ix2 ⟨512 * T + a.val, _⟩ k) * W (ix2 k h)) + b (ix1 h)) 0
  rw [hb, Finset.sum_congr rfl fun k _ => by rw [hx k, hw k]]

/-! ## Where each block lies in its array -/

/-- The block indices at point `t`: the features' and the result's blocks are the `t`-th along the rows and the only
    one along the columns; the weights' and the bias's block is always the first. -/
private theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- There are eight points. -/
private theorem pt0_lt (t : Fin cfg0.N) : t.val < 8 := t.isLt

-- the contents of the unscoped buffers when a region is entered, at the ideal values
variable (V : (c : Dev nD) → (b : Ref sig .tc) → Buf (Elt Ideal) ((c : Thread nD τ).loc b))

/-- The features' block at point `t`, at `(a, k)`, is the array at `(512 t + a, k)`. -/
private theorem xblk0_apply (c : Dev nD) (t : Fin cfg0.N) (a : Fin 512) (k : Fin 512) :
    (iblk0 V c 0 t : Vec Ideal S512x512 .f32) (ix2 a k)
      = (V c main_arg0 : S4096x512.Idx → EReal) (ix2 ⟨512 * t.val + a.val, by have := pt0_lt t; omega⟩ k) := by
  obtain ⟨e0, e1, -⟩ := idx0_facts t
  unfold iblk0
  rw [View.read_apply]
  show V c main_arg0 _ = V c main_arg0 _
  congr 1
  funext ax
  apply Fin.ext
  match ax with
  | ⟨0, _⟩ => show win0_0.index t (0 : Fin 2) * 512 + 1 * a.val = 512 * t.val + a.val; omega
  | ⟨1, _⟩ => show win0_0.index t (1 : Fin 2) * 512 + 1 * k.val = k.val; omega

/-- The weights' block at any point is the whole array. -/
private theorem wblk0_apply (c : Dev nD) (t : Fin cfg0.N) (k : Fin 512) (h : Fin 128) :
    (iblk0 V c 1 t : Vec Ideal S512x128 .f32) (ix2 k h) = (V c main_arg4 : S512x128.Idx → EReal) (ix2 k h) := by
  obtain ⟨-, -, e0, e1, -⟩ := idx0_facts t
  unfold iblk0
  rw [View.read_apply]
  show V c main_arg4 _ = V c main_arg4 _
  congr 1
  funext ax
  apply Fin.ext
  match ax with
  | ⟨0, _⟩ => show win0_1.index t (0 : Fin 2) * 512 + 1 * k.val = k.val; omega
  | ⟨1, _⟩ => show win0_1.index t (1 : Fin 2) * 128 + 1 * h.val = h.val; omega

/-- The bias's block at any point is the whole array. -/
private theorem bblk0_apply (c : Dev nD) (t : Fin cfg0.N) (h : Fin 128) :
    (iblk0 V c 2 t : Vec Ideal S128 .f32) (ix1 h) = (V c main_arg5 : S128.Idx → EReal) (ix1 h) := by
  obtain ⟨-, -, -, -, e0, -⟩ := idx0_facts t
  unfold iblk0
  rw [View.read_apply]
  show V c main_arg5 _ = V c main_arg5 _
  congr 1
  funext ax
  apply Fin.ext
  match ax with
  | ⟨0, _⟩ => show win0_2.index t (0 : Fin 1) * 128 + 1 * h.val = h.val; omega

/-- Entry `(a, h)` of the result's block at point `t` is entry `(512 t + a, h)` of the result. -/
private theorem oblk0_emb (t : Fin cfg0.N) (a : Fin 512) (h : Fin 128) :
    (((cfg0.win 3).blk t).view.emb (ix2 a h) : S4096x128.Idx)
      = ix2 ⟨512 * t.val + a.val, by have := pt0_lt t; omega⟩ h := by
  obtain ⟨-, -, -, -, -, e0, e1⟩ := idx0_facts t
  funext ax
  apply Fin.ext
  match ax with
  | ⟨0, _⟩ => show win0_3.index t (0 : Fin 2) * 512 + 1 * a.val = 512 * t.val + a.val; omega
  | ⟨1, _⟩ => show win0_3.index t (1 : Fin 2) * 128 + 1 * h.val = h.val; omega

/-! ## From blocks to the array -/

/-- What point `t` writes back is block `t` of the specification's array: the body's one store goes through the whole
    staging buffer and its loads read the whole input blocks, so the buffer holds the payload of the three blocks. -/
private theorem flushed0_eq (c : Dev nD) (t : Fin cfg0.N) :
    (dat0 (F := Ideal) V c).flushed 3 t
      = ((cfg0.win 3).blk t).view.read (Elt Ideal) (Spec.embArr (V c main_arg0) (V c main_arg4) (V c main_arg5)) := by
  show (dat0 (F := Ideal) V c).after 3 t = _
  rw [after0_3]
  unfold out0_3
  rw [View.canon_unit_zero hz2]
  simp only [View.ld_unit_zero (S := S512x512) hz2, View.ld_unit_zero (S := S512x128) hz2, View.ld_unit_zero (S := S128) hz1]
  funext y
  obtain ⟨a, h, rfl⟩ : ∃ (a : Fin 512) (h : Fin 128), y = ix2 a h := ⟨y 0, y 1, eq_ix2 y⟩
  refine (pay0_apply _ _ _ a h).trans ?_
  rw [View.read_apply]
  show _ = Spec.embArr (V c main_arg0) (V c main_arg4) (V c main_arg5) (((cfg0.win 3).blk t).view.emb (ix2 a h))
  rw [oblk0_emb]
  exact emb0_of_blocks (V c main_arg0) (V c main_arg4) (V c main_arg5) (iblk0 V c 0 t) (iblk0 V c 1 t) (iblk0 V c 2 t)
    t.val (pt0_lt t) a h (xblk0_apply V c t a) (fun k => wblk0_apply V c t k h) (bblk0_apply V c t h)

/-- An index of the result is in point `t`'s block iff each coordinate is in the block's range on its axis. -/
private theorem mem_blk0 (t : Fin cfg0.N) (i : S4096x128.Idx) :
    i ∈ ((cfg0.win 3).blk t).view.set
      ↔ ∀ a : Fin 2, win0_3.index t a * S512x128.size a ≤ (i a).val
          ∧ (i a).val < win0_3.index t a * S512x128.size a + S512x128.size a := by
  show i ∈ ((View.whole main_v0).slice (win0_3.rect t)).set ↔ _
  rw [View.set_slice_whole, Rect.mem_set_unit]
  exact Iff.rfl

/-- Every index of the result is in the block of a point that writes back: row `r` in that of point `r / 512`. -/
private theorem cover0 (i : S4096x128.Idx) :
    ∃ t : Fin cfg0.N, (cfg0.win 3).flush t = true ∧ i ∈ ((cfg0.win 3).blk t).view.set := by
  have hi0 : (i 0).val < 4096 := (i 0).isLt
  have hi1 : (i 1).val < 128 := (i 1).isLt
  let t : Fin cfg0.N := ⟨(i 0).val / 512, by show (i 0).val / 512 < 8; omega⟩
  have ht : t.val = (i 0).val / 512 := rfl
  obtain ⟨-, -, -, -, -, e0, e1⟩ := idx0_facts t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- The array the first region leaves in its output window is `emb` of the `features`, weights and bias it found. -/
theorem val0 (c : Dev nD) :
    (dat0 (F := Ideal) V c).arrAt 3 cfg0.N = Spec.embArr (V c main_arg0) (V c main_arg4) (V c main_arg5) := by
  exact (dat0 (F := Ideal) V c).arrAt_eq_of_cover 3 (Spec.embArr (V c main_arg0) (V c main_arg4) (V c main_arg5))
    (fun t _ => flushed0_eq V c t) cover0

end Cert.KernelIdeal.Val

end
-- ==== Proof.Tile1.lean ====
/-
  The second region's body at one element of a tile, at the ideal values: each of its payloads is the stage-B formula
  of the specification on the tile's own operand blocks.
-/
import proofs.«119275_j1889785610729_1_alg».proof.Proof.Body1
import proofs.«119275_j1889785610729_1_alg».proof.Proof.Spec
import proofs.«119275_j1889785610729_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

-- the contents of the unscoped buffers when a region is entered, at the ideal values
variable (V : (c : Dev nD) → (b : Ref sig .tc) → Buf (Elt Ideal) ((c : Thread nD τ).loc b))

section Tile
variable (x0 x1 x2 : Vec Ideal S512x512 .f32) (x3 x4 : Vec Ideal S512x128 .f32)

/-! ## The indicator words

  The kernel makes `[x ≠ 0]` and `[x > 0]` from a one-bit comparison against the zero word, widened to 32 bits and
  converted signed: the extended real one where the comparison holds, zero where it does not. -/

/-- The word of "x is not zero", widened and converted, is the indicator of `x ≠ 0`. -/
private theorem ind_word (x : EReal) :
    (((((Ideal.cmp .one x (Ideal.ofBits .f32 0x00000000#32)).setWidth 32).toInt : ℝ)) : EReal) = Spec.ind x := by
  rw [Spec.sitofp_setWidth_bit, Ideal.ofBits_zero_f32]
  show (if BitVec.ofBool (decide (x ≠ 0)) = 1#1 then (1 : EReal) else 0) = Spec.ind x
  unfold Spec.ind
  simp only [Spec.ofBool_eq_one, decide_eq_true_eq]

/-- The word of "x is above zero", widened and converted, is the indicator of `0 < x`. -/
private theorem pos_word (x : EReal) :
    (((((Ideal.cmp .ogt x (Ideal.ofBits .f32 0x00000000#32)).setWidth 32).toInt : ℝ)) : EReal) = Spec.pos x := by
  rw [Spec.sitofp_setWidth_bit, Ideal.ofBits_zero_f32]
  show (if BitVec.ofBool (decide ((0 : EReal) < x)) = 1#1 then (1 : EReal) else 0) = Spec.pos x
  unfold Spec.pos
  simp only [Spec.ofBool_eq_one, decide_eq_true_eq]

/-! ## The tile's elements -/

/-- The multiplicity tile: the two adjacency indicators added. -/
private theorem pay10_apply (a b : Fin 512) : k1_pay10 x0 x1 (ix2 a b) = Spec.mult x0 x1 a b := by
  show (((((Ideal.cmp .one (x0 (ix2 a b)) (Ideal.ofBits .f32 0x00000000#32)).setWidth 32).toInt : ℝ)) : EReal)
      + (((((Ideal.cmp .one (x1 (ix2 a b)) (Ideal.ofBits .f32 0x00000000#32)).setWidth 32).toInt : ℝ)) : EReal) = _
  rw [ind_word, ind_word]
  rfl

/-- The mask tile. -/
theorem out1_7_apply (a b : Fin 512) : out1_7 x0 x1 (ix2 a b) = Spec.mask x0 x1 a b := by
  show (((((Ideal.cmp .ogt (k1_pay10 x0 x1 (ix2 a b)) (Ideal.ofBits .f32 0x00000000#32)).setWidth 32).toInt : ℝ)) : EReal) = _
  rw [pos_word, pay10_apply]
  rfl

/-- The product of row block i of the embedding with the transposed row block j, at (a, b): the sum over the 128
    features of the products of row a of the one block and row b of the other. -/
private theorem score_apply (a b : Fin 512) :
    matmul dot_S512x128_S128x512_S512x512_1_0_0_1_n_n none
        (shapeCast S512x128 x3 shapeCasts_S512x128_S512x128 : FVec Ideal S512x128 .f32)
        (transpose S128x512 [1, 0] (shapeCast S512x128 x4 shapeCasts_S512x128_S512x128 : FVec Ideal S512x128 .f32) transposes_S512x128_p1_0_S128x512)
        (constant (F := Ideal) S512x512 .f32 0x00000000#32) (ix2 a b)
      = Spec.score x3 x4 a b := by
  rw [shapeCast_self, shapeCast_self]
  refine (Idealize.ShloMosaic.PlainDot.matmul_zero_apply dot_S512x128_S128x512_S512x512_1_0_0_1_n_n rfl rfl rfl rfl rfl rfl rfl rfl
    none _ _ a b).trans ?_
  unfold Spec.score
  refine Finset.sum_congr rfl fun k _ => ?_
  rw [transpose_ix2_apply]

/-- The gate's argument before its division by one: `log ε − log1p (−ε) + score · mult`, where the kernel writes
    `−ε` as `0 − ε`. -/
private theorem gat1_apply (a b : Fin 512) :
    gat1 x0 x1 x2 x3 x4 (ix2 a b)
      = (Ideal.log (Spec.epsv x2 a b) - Ideal.log1p (-(Spec.epsv x2 a b))) + Spec.score x3 x4 a b * Spec.mult x0 x1 a b := by
  show (Ideal.log (Spec.cM * x2 (ix2 a b) + Spec.cP)
        - Ideal.log1p (Ideal.ofBits .f32 0x00000000#32 - (Spec.cM * x2 (ix2 a b) + Spec.cP)))
      + (matmul dot_S512x128_S128x512_S512x512_1_0_0_1_n_n none
          (shapeCast S512x128 x3 shapeCasts_S512x128_S512x128 : FVec Ideal S512x128 .f32)
          (transpose S128x512 [1, 0] (shapeCast S512x128 x4 shapeCasts_S512x128_S512x128 : FVec Ideal S512x128 .f32) transposes_S512x128_p1_0_S128x512)
          (constant (F := Ideal) S512x512 .f32 0x00000000#32) (ix2 a b)) * k1_pay10 x0 x1 (ix2 a b) = _
  rw [score_apply, pay10_apply, Ideal.ofBits_zero_f32, sub_eq_add_neg (0 : EReal), zero_add]
  rfl

/-- The low-pass tile. -/
theorem out1_5_apply (a b : Fin 512) : out1_5 x0 x1 x2 x3 x4 (ix2 a b) = Spec.wlp x3 x4 x0 x1 x2 a b := by
  show Ideal.logistic (Ideal.div (gat1 x0 x1 x2 x3 x4 (ix2 a b)) Spec.cOne) * out1_7 x0 x1 (ix2 a b) = _
  rw [gat1_apply, out1_7_apply]
  rfl

/-- The high-pass tile. -/
theorem out1_6_apply (a b : Fin 512) : out1_6 x0 x1 x2 x3 x4 (ix2 a b) = Spec.whp x3 x4 x0 x1 x2 a b := by
  show (Spec.cOne - Ideal.logistic (Ideal.div (gat1 x0 x1 x2 x3 x4 (ix2 a b)) Spec.cOne)) * out1_7 x0 x1 (ix2 a b) = _
  rw [gat1_apply, out1_7_apply]
  rfl

/-- The cleared running sums. -/
theorem pay8_apply (a : Fin 512) : (k1_pay8 (F := Ideal)) (ix2 a 0) = 0 := by
  show Ideal.ofBits .f32 0x00000000#32 = 0
  exact Ideal.ofBits_zero_f32
theorem pay9_apply (a : Fin 512) : (k1_pay9 (F := Ideal)) (ix2 a 0) = 0 := by
  show Ideal.ofBits .f32 0x00000000#32 = 0
  exact Ideal.ofBits_zero_f32

/-- One more at the end of a row of tiles. -/
theorem pay6_apply (v : Vec Ideal S512x1 .f32) (a : Fin 512) : k1_pay6 v (ix2 a 0) = v (ix2 a 0) + 1 := by
  show (shapeCast S512x1 v shapeCasts_S512x1_S512x1 : FVec Ideal S512x1 .f32) (ix2 a 0) + Spec.cOne = _
  rw [shapeCast_self, Spec.cOne_eq]
theorem pay7_apply (v : Vec Ideal S512x1 .f32) (a : Fin 512) : k1_pay7 v (ix2 a 0) = v (ix2 a 0) + 1 := by
  show (shapeCast S512x1 v shapeCasts_S512x1_S512x1 : FVec Ideal S512x1 .f32) (ix2 a 0) + Spec.cOne = _
  rw [shapeCast_self, Spec.cOne_eq]

/-- A vector of 512 entries cast to a column reads, at row a, its entry a: the two have the same row-major
    position, `a = a · 1 + 0`. -/
private theorem shapeCast_col_apply {α : Type} (v : S512.Idx → α) (a : Fin 512) :
    shapeCast S512x1 v shapeCasts_S512_S512x1 (ix2 a 0) = v (ix1 a) :=
  shapeCast_apply v _ _ _ (by
    rw [Shape.rowMajor_val_one, Shape.rowMajor_val_two]
    show a.val = a.val * 1 + 0
    omega)

/-- The sum along a tile's second axis, at row a, is the sum over the row's 512 entries. -/
private theorem rowsum_apply (w : FVec Ideal S512x512 .f32) (a : Fin 512) :
    multiReduction (F := Ideal) .add [1] S512 w 0x00000000#32 reduces_S512x512_S512 (.inl rfl) rfl (ix1 a)
      = ∑ q : Fin 512, w (ix2 a q) := by
  refine (Ideal.multiReduction_add_single w 0x00000000#32 reduces_S512x512_S512 (.inl rfl) rfl (ix1 a)).trans ?_
  refine Finset.sum_congr rfl fun k _ => congrArg w ?_
  funext d
  match d with
  | ⟨0, _⟩ => rfl
  | ⟨1, _⟩ => rfl

/-- The running sums take the tile's row sums. -/
theorem upd1_8_apply (acc : Vec Ideal S512x1 .f32) (a : Fin 512) :
    upd1_8 x0 x1 x2 x3 x4 acc (ix2 a 0) = acc (ix2 a 0) + Spec.rowLp x3 x4 x0 x1 x2 a := by
  show (shapeCast S512x1 acc shapeCasts_S512x1_S512x1 : FVec Ideal S512x1 .f32) (ix2 a 0)
      + (shapeCast S512x1 (multiReduction (F := Ideal) .add [1] S512 (out1_5 x0 x1 x2 x3 x4) 0x00000000#32
          reduces_S512x512_S512 (.inl rfl) rfl) shapeCasts_S512_S512x1) (ix2 a 0) = _
  rw [shapeCast_self, shapeCast_col_apply, rowsum_apply]
  unfold Spec.rowLp
  exact congrArg (acc (ix2 a 0) + ·) (Finset.sum_congr rfl fun q _ => out1_5_apply x0 x1 x2 x3 x4 a q)
theorem upd1_9_apply (acc : Vec Ideal S512x1 .f32) (a : Fin 512) :
    upd1_9 x0 x1 x2 x3 x4 acc (ix2 a 0) = acc (ix2 a 0) + Spec.rowHp x3 x4 x0 x1 x2 a := by
  show (shapeCast S512x1 acc shapeCasts_S512x1_S512x1 : FVec Ideal S512x1 .f32) (ix2 a 0)
      + (shapeCast S512x1 (multiReduction (F := Ideal) .add [1] S512 (out1_6 x0 x1 x2 x3 x4) 0x00000000#32
          reduces_S512x512_S512 (.inl rfl) rfl) shapeCasts_S512_S512x1) (ix2 a 0) = _
  rw [shapeCast_self, shapeCast_col_apply, rowsum_apply]
  unfold Spec.rowHp
  exact congrArg (acc (ix2 a 0) + ·) (Finset.sum_congr rfl fun q _ => out1_6_apply x0 x1 x2 x3 x4 a q)

end Tile

end Cert.KernelIdeal.Val

end
-- ==== Proof.Val1.lean ====
/-
  The second region's three tiled results at the ideal values: the arrays of `w_lp`, `w_hp` and `edge_mask` it
  leaves are the stage-B formulas of the specification on the arrays it read (the embedding read twice, by rows and
  by columns).
-/
import proofs.«119275_j1889785610729_1_alg».proof.Proof.Tile1
set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

-- the contents of the unscoped buffers when a region is entered, at the ideal values
variable (V : (c : Dev nD) → (b : Ref sig .tc) → Buf (Elt Ideal) ((c : Thread nD τ).loc b))

namespace Tiled1

/-- The block index maps over the grid: point `t` is the tile at row `t / 8`, column `t % 8`. -/
theorem idx1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val / 8 ∧ win1_2.index t (1 : Fin 2) = t.val % 8
    ∧ win1_3.index t (0 : Fin 2) = t.val / 8 ∧ win1_3.index t (1 : Fin 2) = 0
    ∧ win1_4.index t (0 : Fin 2) = t.val % 8 ∧ win1_4.index t (1 : Fin 2) = 0
    ∧ win1_5.index t (0 : Fin 2) = t.val / 8 ∧ win1_5.index t (1 : Fin 2) = t.val % 8
    ∧ win1_6.index t (0 : Fin 2) = t.val / 8 ∧ win1_6.index t (1 : Fin 2) = t.val % 8
    ∧ win1_7.index t (0 : Fin 2) = t.val / 8 ∧ win1_7.index t (1 : Fin 2) = t.val % 8 :=
  (by decide +kernel : ∀ t : Fin grid1.N, _)

/-- Row `a` of the tile at point `t` is row `512 · (t / 8) + a` of the whole. -/
def rowAt (t : Fin cfg1.N) (a : Fin 512) : Fin 4096 :=
  ⟨t.val / 8 * 512 + a.val, by have h := t.isLt; have hN : cfg1.N = 64 := N_1; omega⟩
/-- Column `b` of the tile at point `t` is column `512 · (t % 8) + b` of the whole. -/
def colAt (t : Fin cfg1.N) (b : Fin 512) : Fin 4096 :=
  ⟨t.val % 8 * 512 + b.val, by omega⟩

/-! ## Where a block's element sits in its array -/

theorem emb_tile0 (t : Fin cfg1.N) (a b : Fin 512) :
    ((cfg1.win 0).blk t).view.emb (ix2 a b) = ix2 (rowAt t a) (colAt t b) := by
  have e := idx1 t
  funext d; apply Fin.ext
  match d with
  | ⟨0, _⟩ => show win1_0.index t (0 : Fin 2) * 512 + 1 * a.val = t.val / 8 * 512 + a.val; omega
  | ⟨1, _⟩ => show win1_0.index t (1 : Fin 2) * 512 + 1 * b.val = t.val % 8 * 512 + b.val; omega

theorem emb_tile1 (t : Fin cfg1.N) (a b : Fin 512) :
    ((cfg1.win 1).blk t).view.emb (ix2 a b) = ix2 (rowAt t a) (colAt t b) := by
  have e := idx1 t
  funext d; apply Fin.ext
  match d with
  | ⟨0, _⟩ => show win1_1.index t (0 : Fin 2) * 512 + 1 * a.val = t.val / 8 * 512 + a.val; omega
  | ⟨1, _⟩ => show win1_1.index t (1 : Fin 2) * 512 + 1 * b.val = t.val % 8 * 512 + b.val; omega

theorem emb_tile2 (t : Fin cfg1.N) (a b : Fin 512) :
    ((cfg1.win 2).blk t).view.emb (ix2 a b) = ix2 (rowAt t a) (colAt t b) := by
  have e := idx1 t
  funext d; apply Fin.ext
  match d with
  | ⟨0, _⟩ => show win1_2.index t (0 : Fin 2) * 512 + 1 * a.val = t.val / 8 * 512 + a.val; omega
  | ⟨1, _⟩ => show win1_2.index t (1 : Fin 2) * 512 + 1 * b.val = t.val % 8 * 512 + b.val; omega

theorem emb_tile5 (t : Fin cfg1.N) (a b : Fin 512) :
    ((cfg1.win 5).blk t).view.emb (ix2 a b) = ix2 (rowAt t a) (colAt t b) := by
  have e := idx1 t
  funext d; apply Fin.ext
  match d with
  | ⟨0, _⟩ => show win1_5.index t (0 : Fin 2) * 512 + 1 * a.val = t.val / 8 * 512 + a.val; omega
  | ⟨1, _⟩ => show win1_5.index t (1 : Fin 2) * 512 + 1 * b.val = t.val % 8 * 512 + b.val; omega

theorem emb_tile6 (t : Fin cfg1.N) (a b : Fin 512) :
    ((cfg1.win 6).blk t).view.emb (ix2 a b) = ix2 (rowAt t a) (colAt t b) := by
  have e := idx1 t
  funext d; apply Fin.ext
  match d with
  | ⟨0, _⟩ => show win1_6.index t (0 : Fin 2) * 512 + 1 * a.val = t.val / 8 * 512 + a.val; omega
  | ⟨1, _⟩ => show win1_6.index t (1 : Fin 2) * 512 + 1 * b.val = t.val % 8 * 512 + b.val; omega

theorem emb_tile7 (t : Fin cfg1.N) (a b : Fin 512) :
    ((cfg1.win 7).blk t).view.emb (ix2 a b) = ix2 (rowAt t a) (colAt t b) := by
  have e := idx1 t
  funext d; apply Fin.ext
  match d with
  | ⟨0, _⟩ => show win1_7.index t (0 : Fin 2) * 512 + 1 * a.val = t.val / 8 * 512 + a.val; omega
  | ⟨1, _⟩ => show win1_7.index t (1 : Fin 2) * 512 + 1 * b.val = t.val % 8 * 512 + b.val; omega

/-- The row block of the embedding read by rows: row `a` of block `t / 8`. -/
theorem emb_rows3 (t : Fin cfg1.N) (a : Fin 512) (h : Fin 128) :
    ((cfg1.win 3).blk t).view.emb (ix2 a h) = ix2 (rowAt t a) h := by
  have e := idx1 t
  funext d; apply Fin.ext
  match d with
  | ⟨0, _⟩ => show win1_3.index t (0 : Fin 2) * 512 + 1 * a.val = t.val / 8 * 512 + a.val; omega
  | ⟨1, _⟩ => show win1_3.index t (1 : Fin 2) * 128 + 1 * h.val = h.val; omega

/-- The row block of the embedding read by columns: row `b` of block `t % 8`. -/
theorem emb_rows4 (t : Fin cfg1.N) (b : Fin 512) (h : Fin 128) :
    ((cfg1.win 4).blk t).view.emb (ix2 b h) = ix2 (colAt t b) h := by
  have e := idx1 t
  funext d; apply Fin.ext
  match d with
  | ⟨0, _⟩ => show win1_4.index t (0 : Fin 2) * 512 + 1 * b.val = t.val % 8 * 512 + b.val; omega
  | ⟨1, _⟩ => show win1_4.index t (1 : Fin 2) * 128 + 1 * h.val = h.val; omega

/-! ## The operand blocks, read off the whole arrays -/

theorem read_tile0 (c : Dev nD) (t : Fin cfg1.N) (a b : Fin 512) :
    iblk1 V c 0 t (ix2 a b) = V c main_arg1 (ix2 (rowAt t a) (colAt t b)) := by
  show V c main_arg1 (((cfg1.win 0).blk t).view.emb (ix2 a b)) = _
  rw [emb_tile0]

theorem read_tile1 (c : Dev nD) (t : Fin cfg1.N) (a b : Fin 512) :
    iblk1 V c 1 t (ix2 a b) = V c main_arg2 (ix2 (rowAt t a) (colAt t b)) := by
  show V c main_arg2 (((cfg1.win 1).blk t).view.emb (ix2 a b)) = _
  rw [emb_tile1]

theorem read_tile2 (c : Dev nD) (t : Fin cfg1.N) (a b : Fin 512) :
    iblk1 V c 2 t (ix2 a b) = V c main_arg3 (ix2 (rowAt t a) (colAt t b)) := by
  show V c main_arg3 (((cfg1.win 2).blk t).view.emb (ix2 a b)) = _
  rw [emb_tile2]

theorem read_rows3 (c : Dev nD) (t : Fin cfg1.N) (a : Fin 512) (h : Fin 128) :
    iblk1 V c 3 t (ix2 a h) = V c main_v0 (ix2 (rowAt t a) h) := by
  show V c main_v0 (((cfg1.win 3).blk t).view.emb (ix2 a h)) = _
  rw [emb_rows3]

theorem read_rows4 (c : Dev nD) (t : Fin cfg1.N) (b : Fin 512) (h : Fin 128) :
    iblk1 V c 4 t (ix2 b h) = V c main_v0 (ix2 (colAt t b) h) := by
  show V c main_v0 (((cfg1.win 4).blk t).view.emb (ix2 b h)) = _
  rw [emb_rows4]

/-! ## Locality: each stage-B formula at (p, q) reads the adjacencies and the noise at (p, q) only, and the two
    embeddings at rows p and q only -/

theorem mask_congr {n m n' m' : ℕ} (A A2 : (Spec.Sh n m).Idx → EReal) (A' A2' : (Spec.Sh n' m').Idx → EReal)
    (p : Fin n) (q : Fin m) (p' : Fin n') (q' : Fin m')
    (hA : A (ix2 p q) = A' (ix2 p' q')) (hA2 : A2 (ix2 p q) = A2' (ix2 p' q')) :
    Spec.mask A A2 p q = Spec.mask A' A2' p' q' := by
  unfold Spec.mask Spec.mult
  rw [hA, hA2]

theorem sg_congr {n m n' m' : ℕ}
    (Ei : (Spec.Sh n 128).Idx → EReal) (Ej : (Spec.Sh m 128).Idx → EReal) (A A2 E : (Spec.Sh n m).Idx → EReal)
    (Ei' : (Spec.Sh n' 128).Idx → EReal) (Ej' : (Spec.Sh m' 128).Idx → EReal) (A' A2' E' : (Spec.Sh n' m').Idx → EReal)
    (p : Fin n) (q : Fin m) (p' : Fin n') (q' : Fin m')
    (hEi : ∀ h, Ei (ix2 p h) = Ei' (ix2 p' h)) (hEj : ∀ h, Ej (ix2 q h) = Ej' (ix2 q' h))
    (hA : A (ix2 p q) = A' (ix2 p' q')) (hA2 : A2 (ix2 p q) = A2' (ix2 p' q')) (hE : E (ix2 p q) = E' (ix2 p' q')) :
    Spec.sg Ei Ej A A2 E p q = Spec.sg Ei' Ej' A' A2' E' p' q' := by
  unfold Spec.sg Spec.gate Spec.score Spec.mult Spec.epsv
  rw [hA, hA2, hE]
  simp only [hEi, hEj]

theorem wlp_congr {n m n' m' : ℕ}
    (Ei : (Spec.Sh n 128).Idx → EReal) (Ej : (Spec.Sh m 128).Idx → EReal) (A A2 E : (Spec.Sh n m).Idx → EReal)
    (Ei' : (Spec.Sh n' 128).Idx → EReal) (Ej' : (Spec.Sh m' 128).Idx → EReal) (A' A2' E' : (Spec.Sh n' m').Idx → EReal)
    (p : Fin n) (q : Fin m) (p' : Fin n') (q' : Fin m')
    (hEi : ∀ h, Ei (ix2 p h) = Ei' (ix2 p' h)) (hEj : ∀ h, Ej (ix2 q h) = Ej' (ix2 q' h))
    (hA : A (ix2 p q) = A' (ix2 p' q')) (hA2 : A2 (ix2 p q) = A2' (ix2 p' q')) (hE : E (ix2 p q) = E' (ix2 p' q')) :
    Spec.wlp Ei Ej A A2 E p q = Spec.wlp Ei' Ej' A' A2' E' p' q' := by
  unfold Spec.wlp
  rw [sg_congr Ei Ej A A2 E Ei' Ej' A' A2' E' p q p' q' hEi hEj hA hA2 hE, mask_congr A A2 A' A2' p q p' q' hA hA2]

theorem whp_congr {n m n' m' : ℕ}
    (Ei : (Spec.Sh n 128).Idx → EReal) (Ej : (Spec.Sh m 128).Idx → EReal) (A A2 E : (Spec.Sh n m).Idx → EReal)
    (Ei' : (Spec.Sh n' 128).Idx → EReal) (Ej' : (Spec.Sh m' 128).Idx → EReal) (A' A2' E' : (Spec.Sh n' m').Idx → EReal)
    (p : Fin n) (q : Fin m) (p' : Fin n') (q' : Fin m')
    (hEi : ∀ h, Ei (ix2 p h) = Ei' (ix2 p' h)) (hEj : ∀ h, Ej (ix2 q h) = Ej' (ix2 q' h))
    (hA : A (ix2 p q) = A' (ix2 p' q')) (hA2 : A2 (ix2 p q) = A2' (ix2 p' q')) (hE : E (ix2 p q) = E' (ix2 p' q')) :
    Spec.whp Ei Ej A A2 E p q = Spec.whp Ei' Ej' A' A2' E' p' q' := by
  unfold Spec.whp
  rw [sg_congr Ei Ej A A2 E Ei' Ej' A' A2' E' p q p' q' hEi hEj hA hA2 hE, mask_congr A A2 A' A2' p q p' q' hA hA2]

/-! ## What a point writes back is its block of the whole-array formula -/

theorem flushed5 (c : Dev nD) (t : Fin cfg1.N) :
    (dat1 (F := Ideal) V c).flushed 5 t = ((cfg1.win 5).blk t).view.read (Elt Ideal)
      (Spec.wlpArr (V c main_v0) (V c main_v0) (V c main_arg1) (V c main_arg2) (V c main_arg3)) := by
  show (dat1 (F := Ideal) V c).after 5 t = _
  rw [after1_5]
  funext j
  obtain ⟨a, b, rfl⟩ : ∃ (a b : Fin 512), j = ix2 a b := ⟨j 0, j 1, eq_ix2 j⟩
  rw [out1_5_apply]
  show _ = Spec.wlpArr (V c main_v0) (V c main_v0) (V c main_arg1) (V c main_arg2) (V c main_arg3) (((cfg1.win 5).blk t).view.emb (ix2 a b))
  rw [emb_tile5]
  exact wlp_congr _ _ _ _ _ _ _ _ _ _ a b (rowAt t a) (colAt t b) (fun h => read_rows3 V c t a h) (fun h => read_rows4 V c t b h)
    (read_tile0 V c t a b) (read_tile1 V c t a b) (read_tile2 V c t a b)

theorem flushed6 (c : Dev nD) (t : Fin cfg1.N) :
    (dat1 (F := Ideal) V c).flushed 6 t = ((cfg1.win 6).blk t).view.read (Elt Ideal)
      (Spec.whpArr (V c main_v0) (V c main_v0) (V c main_arg1) (V c main_arg2) (V c main_arg3)) := by
  show (dat1 (F := Ideal) V c).after 6 t = _
  rw [after1_6]
  funext j
  obtain ⟨a, b, rfl⟩ : ∃ (a b : Fin 512), j = ix2 a b := ⟨j 0, j 1, eq_ix2 j⟩
  rw [out1_6_apply]
  show _ = Spec.whpArr (V c main_v0) (V c main_v0) (V c main_arg1) (V c main_arg2) (V c main_arg3) (((cfg1.win 6).blk t).view.emb (ix2 a b))
  rw [emb_tile6]
  exact whp_congr _ _ _ _ _ _ _ _ _ _ a b (rowAt t a) (colAt t b) (fun h => read_rows3 V c t a h) (fun h => read_rows4 V c t b h)
    (read_tile0 V c t a b) (read_tile1 V c t a b) (read_tile2 V c t a b)

theorem flushed7 (c : Dev nD) (t : Fin cfg1.N) :
    (dat1 (F := Ideal) V c).flushed 7 t = ((cfg1.win 7).blk t).view.read (Elt Ideal)
      (Spec.maskArr (V c main_arg1) (V c main_arg2)) := by
  show (dat1 (F := Ideal) V c).after 7 t = _
  rw [after1_7]
  funext j
  obtain ⟨a, b, rfl⟩ : ∃ (a b : Fin 512), j = ix2 a b := ⟨j 0, j 1, eq_ix2 j⟩
  rw [out1_7_apply]
  show _ = Spec.maskArr (V c main_arg1) (V c main_arg2) (((cfg1.win 7).blk t).view.emb (ix2 a b))
  rw [emb_tile7]
  exact mask_congr _ _ _ _ a b (rowAt t a) (colAt t b) (read_tile0 V c t a b) (read_tile1 V c t a b)

/-! ## The tiles cover the array: (r, s) is in the tile of point 8 · (r / 512) + s / 512 -/

/-- The point whose tile holds (r, s). -/
def pointOf (i : S4096x4096.Idx) : Fin cfg1.N :=
  ⟨8 * ((i 0).val / 512) + (i 1).val / 512, by
    have h0 : (i 0).val < 4096 := (i 0).isLt
    have h1 : (i 1).val < 4096 := (i 1).isLt
    have hN : cfg1.N = 64 := N_1
    omega⟩

theorem mem_blk5 (t : Fin cfg1.N) (i : S4096x4096.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v1_0).slice (win1_5.rect t)).set ↔ _
  rw [View.set_slice_whole, Rect.mem_set_unit]
  exact Iff.rfl
theorem mem_blk6 (t : Fin cfg1.N) (i : S4096x4096.Idx) :
    i ∈ ((cfg1.win 6).blk t).view.set ↔ ∀ a : Fin 2, win1_6.index t a * S512x512.size a ≤ (i a).val ∧ (i a).val < win1_6.index t a * S512x512.size a + S512x512.size a := by
  show i ∈ ((View.whole main_v1_1).slice (win1_6.rect t)).set ↔ _
  rw [View.set_slice_whole, Rect.mem_set_unit]
  exact Iff.rfl
theorem mem_blk7 (t : Fin cfg1.N) (i : S4096x4096.Idx) :
    i ∈ ((cfg1.win 7).blk t).view.set ↔ ∀ a : Fin 2, win1_7.index t a * S512x512.size a ≤ (i a).val ∧ (i a).val < win1_7.index t a * S512x512.size a + S512x512.size a := by
  show i ∈ ((View.whole main_v1_2).slice (win1_7.rect t)).set ↔ _
  rw [View.set_slice_whole, Rect.mem_set_unit]
  exact Iff.rfl

theorem cover5 (i : S4096x4096.Idx) : ∃ t : Fin cfg1.N, (cfg1.win 5).flush t = true ∧ i ∈ ((cfg1.win 5).blk t).view.set := by
  have h0 : (i 0).val < 4096 := (i 0).isLt
  have h1 : (i 1).val < 4096 := (i 1).isLt
  have e := idx1 (pointOf i)
  have hv : (pointOf i).val = 8 * ((i 0).val / 512) + (i 1).val / 512 := rfl
  refine ⟨pointOf i, flush1_5 _, ?_⟩
  rw [mem_blk5]
  intro a
  match a with
  | ⟨0, _⟩ => show win1_5.index (pointOf i) (0 : Fin 2) * 512 ≤ (i 0).val ∧ (i 0).val < win1_5.index (pointOf i) (0 : Fin 2) * 512 + 512; omega
  | ⟨1, _⟩ => show win1_5.index (pointOf i) (1 : Fin 2) * 512 ≤ (i 1).val ∧ (i 1).val < win1_5.index (pointOf i) (1 : Fin 2) * 512 + 512; omega
theorem cover6 (i : S4096x4096.Idx) : ∃ t : Fin cfg1.N, (cfg1.win 6).flush t = true ∧ i ∈ ((cfg1.win 6).blk t).view.set := by
  have h0 : (i 0).val < 4096 := (i 0).isLt
  have h1 : (i 1).val < 4096 := (i 1).isLt
  have e := idx1 (pointOf i)
  have hv : (pointOf i).val = 8 * ((i 0).val / 512) + (i 1).val / 512 := rfl
  refine ⟨pointOf i, flush1_6 _, ?_⟩
  rw [mem_blk6]
  intro a
  match a with
  | ⟨0, _⟩ => show win1_6.index (pointOf i) (0 : Fin 2) * 512 ≤ (i 0).val ∧ (i 0).val < win1_6.index (pointOf i) (0 : Fin 2) * 512 + 512; omega
  | ⟨1, _⟩ => show win1_6.index (pointOf i) (1 : Fin 2) * 512 ≤ (i 1).val ∧ (i 1).val < win1_6.index (pointOf i) (1 : Fin 2) * 512 + 512; omega
theorem cover7 (i : S4096x4096.Idx) : ∃ t : Fin cfg1.N, (cfg1.win 7).flush t = true ∧ i ∈ ((cfg1.win 7).blk t).view.set := by
  have h0 : (i 0).val < 4096 := (i 0).isLt
  have h1 : (i 1).val < 4096 := (i 1).isLt
  have e := idx1 (pointOf i)
  have hv : (pointOf i).val = 8 * ((i 0).val / 512) + (i 1).val / 512 := rfl
  refine ⟨pointOf i, flush1_7 _, ?_⟩
  rw [mem_blk7]
  intro a
  match a with
  | ⟨0, _⟩ => show win1_7.index (pointOf i) (0 : Fin 2) * 512 ≤ (i 0).val ∧ (i 0).val < win1_7.index (pointOf i) (0 : Fin 2) * 512 + 512; omega
  | ⟨1, _⟩ => show win1_7.index (pointOf i) (1 : Fin 2) * 512 ≤ (i 1).val ∧ (i 1).val < win1_7.index (pointOf i) (1 : Fin 2) * 512 + 512; omega

end Tiled1

theorem val1_5 (c : Dev nD) :
    (dat1 (F := Ideal) V c).arrAt 5 cfg1.N = Spec.wlpArr (V c main_v0) (V c main_v0) (V c main_arg1) (V c main_arg2) (V c main_arg3) :=
  (dat1 (F := Ideal) V c).arrAt_eq_of_cover 5 _ (fun t _ => Tiled1.flushed5 V c t) Tiled1.cover5
theorem val1_6 (c : Dev nD) :
    (dat1 (F := Ideal) V c).arrAt 6 cfg1.N = Spec.whpArr (V c main_v0) (V c main_v0) (V c main_arg1) (V c main_arg2) (V c main_arg3) :=
  (dat1 (F := Ideal) V c).arrAt_eq_of_cover 6 _ (fun t _ => Tiled1.flushed6 V c t) Tiled1.cover6
theorem val1_7 (c : Dev nD) :
    (dat1 (F := Ideal) V c).arrAt 7 cfg1.N = Spec.maskArr (V c main_arg1) (V c main_arg2) :=
  (dat1 (F := Ideal) V c).arrAt_eq_of_cover 7 _ (fun t _ => Tiled1.flushed7 V c t) Tiled1.cover7

end Cert.KernelIdeal.Val

end
-- ==== Proof.Val1s.lean ====
/-
  The second region's two row-sum results at the ideal values: along a row of eight tiles the running sum collects the
  tiles' row sums in order and ends with one more, which is the whole row's sum plus one.
-/
import proofs.«119275_j1889785610729_1_alg».proof.Proof.Tile1
set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

-- the contents of the unscoped buffers when a region is entered, at the ideal values
variable (V : (c : Dev nD) → (b : Ref sig .tc) → Buf (Elt Ideal) ((c : Thread nD τ).loc b))

namespace RowSums

/-! ## The stage-B formula reads its operands only where it stands -/

section Local
variable {n m n' m' : ℕ}
  (Ei : (Spec.Sh n 128).Idx → EReal) (Ej : (Spec.Sh m 128).Idx → EReal) (A A2 E : (Spec.Sh n m).Idx → EReal)
  (Ei' : (Spec.Sh n' 128).Idx → EReal) (Ej' : (Spec.Sh m' 128).Idx → EReal) (A' A2' E' : (Spec.Sh n' m').Idx → EReal)
  (p : Fin n) (q : Fin m) (p' : Fin n') (q' : Fin m')

/-- The low-pass weight at (p, q) reads the adjacencies and the noise at (p, q) only and the embeddings at rows p and
    q only: two sets of operands that agree there give the same weight. -/
private theorem wlp_local (hi : ∀ h : Fin 128, Ei (ix2 p h) = Ei' (ix2 p' h)) (hj : ∀ h : Fin 128, Ej (ix2 q h) = Ej' (ix2 q' h))
    (hA : A (ix2 p q) = A' (ix2 p' q')) (hA2 : A2 (ix2 p q) = A2' (ix2 p' q')) (hE : E (ix2 p q) = E' (ix2 p' q')) :
    Spec.wlp Ei Ej A A2 E p q = Spec.wlp Ei' Ej' A' A2' E' p' q' := by
  unfold Spec.wlp Spec.sg Spec.gate Spec.score Spec.mask Spec.mult Spec.epsv
  simp only [hi, hj, hA, hA2, hE]

/-- The same for the high-pass weight. -/
private theorem whp_local (hi : ∀ h : Fin 128, Ei (ix2 p h) = Ei' (ix2 p' h)) (hj : ∀ h : Fin 128, Ej (ix2 q h) = Ej' (ix2 q' h))
    (hA : A (ix2 p q) = A' (ix2 p' q')) (hA2 : A2 (ix2 p q) = A2' (ix2 p' q')) (hE : E (ix2 p q) = E' (ix2 p' q')) :
    Spec.whp Ei Ej A A2 E p q = Spec.whp Ei' Ej' A' A2' E' p' q' := by
  unfold Spec.whp Spec.sg Spec.gate Spec.score Spec.mask Spec.mult Spec.epsv
  simp only [hi, hj, hA, hA2, hE]

end Local

/-! ## A row of 4096 terms as eight runs of 512 -/

/-- The terms of columns 512·j … 512·j + 511, summed (j is read modulo eight, so that every natural names a run). -/
private def run512 {M : Type*} [AddCommMonoid M] (f : Fin 4096 → M) (j : ℕ) : M :=
  ∑ b : Fin 512, f ⟨512 * (j % 8) + b.val, by have := b.isLt; omega⟩

/-- The eight runs together are the whole row: every column is 512·j + b for one pair (j, b). -/
private theorem sum_run512 {M : Type*} [AddCommMonoid M] (f : Fin 4096 → M) :
    ∑ j ∈ Finset.range 8, run512 f j = ∑ q : Fin 4096, f q := by
  obtain ⟨e, he⟩ : ∃ e : Fin 8 × Fin 512 ≃ Fin 4096, ∀ (j : Fin 8) (b : Fin 512), (e (j, b)).val = 512 * j.val + b.val :=
    ⟨finProdFinEquiv, fun j b => (finProdFinEquiv_apply_val (j, b)).trans (by show b.val + 512 * j.val = _; omega)⟩
  rw [Finset.sum_range, ← Equiv.sum_comp e f, Fintype.sum_prod_type]
  refine Finset.sum_congr rfl fun j _ => Finset.sum_congr rfl fun b _ => ?_
  congr 1
  apply Fin.ext
  rw [he]
  show 512 * (j.val % 8) + b.val = _
  have := j.isLt
  omega

/-! ## The tile's operand blocks, read off the whole arrays -/

/-- The printed index maps, decided once over the grid: at point t = 8·i + j the three tile inputs sit at block (i, j),
    the two embedding inputs at row blocks i and j, the two row-sum outputs at row block i. -/
private theorem idx1_facts : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val / 8 ∧ win1_2.index t (1 : Fin 2) = t.val % 8
    ∧ win1_3.index t (0 : Fin 2) = t.val / 8 ∧ win1_3.index t (1 : Fin 2) = 0
    ∧ win1_4.index t (0 : Fin 2) = t.val % 8 ∧ win1_4.index t (1 : Fin 2) = 0
    ∧ win1_8.index t (0 : Fin 2) = t.val / 8 ∧ win1_8.index t (1 : Fin 2) = 0
    ∧ win1_9.index t (0 : Fin 2) = t.val / 8 ∧ win1_9.index t (1 : Fin 2) = 0 :=
  (by decide +kernel : ∀ t : Fin grid1.N, _)

section Blocks
variable (c : Dev nD) (t : Fin cfg1.N)

/-- Element (a, b) of the first adjacency's tile is the array's element (512·i + a, 512·j + b). -/
private theorem blk1_0 (a b : Fin 512) (p q : Fin 4096) (hp : p.val = 512 * (t.val / 8) + a.val) (hq : q.val = 512 * (t.val % 8) + b.val) :
    iblk1 (F := Ideal) V c 0 t (ix2 a b) = V c main_arg1 (ix2 p q) := by
  obtain ⟨e0, e1, -⟩ := idx1_facts t
  unfold iblk1
  rw [View.read_apply]
  show V c main_arg1 (((cfg1.win 0).blk t).view.emb (ix2 a b)) = _
  congr 1
  funext d
  apply Fin.ext
  match d with
  | ⟨0, _⟩ => show win1_0.index t (0 : Fin 2) * 512 + 1 * a.val = p.val; omega
  | ⟨1, _⟩ => show win1_0.index t (1 : Fin 2) * 512 + 1 * b.val = q.val; omega

/-- The same for the second adjacency's tile. -/
private theorem blk1_1 (a b : Fin 512) (p q : Fin 4096) (hp : p.val = 512 * (t.val / 8) + a.val) (hq : q.val = 512 * (t.val % 8) + b.val) :
    iblk1 (F := Ideal) V c 1 t (ix2 a b) = V c main_arg2 (ix2 p q) := by
  obtain ⟨-, -, e0, e1, -⟩ := idx1_facts t
  unfold iblk1
  rw [View.read_apply]
  show V c main_arg2 (((cfg1.win 1).blk t).view.emb (ix2 a b)) = _
  congr 1
  funext d
  apply Fin.ext
  match d with
  | ⟨0, _⟩ => show win1_1.index t (0 : Fin 2) * 512 + 1 * a.val = p.val; omega
  | ⟨1, _⟩ => show win1_1.index t (1 : Fin 2) * 512 + 1 * b.val = q.val; omega

/-- The same for the noise's tile. -/
private theorem blk1_2 (a b : Fin 512) (p q : Fin 4096) (hp : p.val = 512 * (t.val / 8) + a.val) (hq : q.val = 512 * (t.val % 8) + b.val) :
    iblk1 (F := Ideal) V c 2 t (ix2 a b) = V c main_arg3 (ix2 p q) := by
  obtain ⟨-, -, -, -, e0, e1, -⟩ := idx1_facts t
  unfold iblk1
  rw [View.read_apply]
  show V c main_arg3 (((cfg1.win 2).blk t).view.emb (ix2 a b)) = _
  congr 1
  funext d
  apply Fin.ext
  match d with
  | ⟨0, _⟩ => show win1_2.index t (0 : Fin 2) * 512 + 1 * a.val = p.val; omega
  | ⟨1, _⟩ => show win1_2.index t (1 : Fin 2) * 512 + 1 * b.val = q.val; omega

/-- Row a of the first embedding block is the embedding's row 512·i + a. -/
private theorem blk1_3 (a : Fin 512) (h : Fin 128) (p : Fin 4096) (hp : p.val = 512 * (t.val / 8) + a.val) :
    iblk1 (F := Ideal) V c 3 t (ix2 a h) = V c main_v0 (ix2 p h) := by
  obtain ⟨-, -, -, -, -, -, e0, e1, -⟩ := idx1_facts t
  unfold iblk1
  rw [View.read_apply]
  show V c main_v0 (((cfg1.win 3).blk t).view.emb (ix2 a h)) = _
  congr 1
  funext d
  apply Fin.ext
  match d with
  | ⟨0, _⟩ => show win1_3.index t (0 : Fin 2) * 512 + 1 * a.val = p.val; omega
  | ⟨1, _⟩ => show win1_3.index t (1 : Fin 2) * 128 + 1 * h.val = h.val; omega

/-- Row b of the second embedding block is the embedding's row 512·j + b. -/
private theorem blk1_4 (b : Fin 512) (h : Fin 128) (q : Fin 4096) (hq : q.val = 512 * (t.val % 8) + b.val) :
    iblk1 (F := Ideal) V c 4 t (ix2 b h) = V c main_v0 (ix2 q h) := by
  obtain ⟨-, -, -, -, -, -, -, -, e0, e1, -⟩ := idx1_facts t
  unfold iblk1
  rw [View.read_apply]
  show V c main_v0 (((cfg1.win 4).blk t).view.emb (ix2 b h)) = _
  congr 1
  funext d
  apply Fin.ext
  match d with
  | ⟨0, _⟩ => show win1_4.index t (0 : Fin 2) * 512 + 1 * b.val = q.val; omega
  | ⟨1, _⟩ => show win1_4.index t (1 : Fin 2) * 128 + 1 * h.val = h.val; omega

/-- So the tile's low-pass row sum at row a is the whole low-pass weight's row 512·i + a summed over the tile's columns. -/
private theorem rowLp_tile (a : Fin 512) (p : Fin 4096) (hp : p.val = 512 * (t.val / 8) + a.val) :
    Spec.rowLp (n := 512) (m := 512) (iblk1 V c 3 t) (iblk1 V c 4 t) (iblk1 V c 0 t) (iblk1 V c 1 t) (iblk1 V c 2 t) a
      = run512 (Spec.wlp (V c main_v0) (V c main_v0) (V c main_arg1) (V c main_arg2) (V c main_arg3) p) t.val := by
  unfold Spec.rowLp run512
  refine Finset.sum_congr rfl fun b _ => ?_
  exact wlp_local _ _ _ _ _ _ _ _ _ _ _ _ _ _
    (fun h => blk1_3 V c t a h p hp) (fun h => blk1_4 V c t b h _ rfl)
    (blk1_0 V c t a b p _ hp rfl) (blk1_1 V c t a b p _ hp rfl) (blk1_2 V c t a b p _ hp rfl)

/-- The same for the high-pass row sum. -/
private theorem rowHp_tile (a : Fin 512) (p : Fin 4096) (hp : p.val = 512 * (t.val / 8) + a.val) :
    Spec.rowHp (n := 512) (m := 512) (iblk1 V c 3 t) (iblk1 V c 4 t) (iblk1 V c 0 t) (iblk1 V c 1 t) (iblk1 V c 2 t) a
      = run512 (Spec.whp (V c main_v0) (V c main_v0) (V c main_arg1) (V c main_arg2) (V c main_arg3) p) t.val := by
  unfold Spec.rowHp run512
  refine Finset.sum_congr rfl fun b _ => ?_
  exact whp_local _ _ _ _ _ _ _ _ _ _ _ _ _ _
    (fun h => blk1_3 V c t a h p hp) (fun h => blk1_4 V c t b h _ rfl)
    (blk1_0 V c t a b p _ hp rfl) (blk1_1 V c t a b p _ hp rfl) (blk1_2 V c t a b p _ hp rfl)

end Blocks

/-! ## The running sums along a row of tiles -/

/-- A run is named by its number modulo eight. -/
private theorem run512_congr {M : Type*} [AddCommMonoid M] (f : Fin 4096 → M) (j j' : ℕ) (h : j % 8 = j' % 8) : run512 f j = run512 f j' := by
  unfold run512
  exact Finset.sum_congr rfl fun b _ => congrArg f (Fin.ext (by show 512 * (j % 8) + b.val = 512 * (j' % 8) + b.val; rw [h]))

/-- Row p of the whole low-pass weight, and of the whole high-pass weight. -/
private abbrev wlpRow (c : Dev nD) (p : Fin 4096) : Fin 4096 → EReal :=
  Spec.wlp (V c main_v0) (V c main_v0) (V c main_arg1) (V c main_arg2) (V c main_arg3) p
private abbrev whpRow (c : Dev nD) (p : Fin 4096) : Fin 4096 → EReal :=
  Spec.whp (V c main_v0) (V c main_v0) (V c main_arg1) (V c main_arg2) (V c main_arg3) p

private theorem acc1_8_irrel (c : Dev nD) (u n : ℕ) (hu : u < cfg1.N) (hn : n < cfg1.N) (e : u = n) :
    acc1_8 (F := Ideal) V c u hu = acc1_8 V c n hn := by subst e; rfl
private theorem acc1_9_irrel (c : Dev nD) (u n : ℕ) (hu : u < cfg1.N) (hn : n < cfg1.N) (e : u = n) :
    acc1_9 (F := Ideal) V c u hu = acc1_9 V c n hn := by subst e; rfl

section Acc
variable (c : Dev nD) (i : Fin 8) (a : Fin 512) (p : Fin 4096) (hp : p.val = 512 * i.val + a.val)
include hp

/-- Along row block i, before the last tile, the running low-pass sum at row a holds the runs of row 512·i + a of the whole
    weight over the tiles met so far: the first tile starts from the cleared sum, each later one adds its run. -/
private theorem acc1_8_row : ∀ (j : ℕ), j < 7 → ∀ (h : 8 * i.val + j < cfg1.N),
    acc1_8 (F := Ideal) V c (8 * i.val + j) h (ix2 a 0) = ∑ j' ∈ Finset.range (j + 1), run512 (wlpRow V c p) j'
  | 0, _, h => by
    refine (congrFun (acc1_8_first V c ⟨8 * i.val + 0, h⟩ (by show (8 * i.val + 0) % 8 = 0; omega)) (ix2 a 0)).trans ?_
    refine (upd1_8_apply _ _ _ _ _ _ a).trans ?_
    rw [pay8_apply, zero_add, Finset.sum_range_one]
    refine (rowLp_tile V c ⟨8 * i.val + 0, h⟩ a p (by show p.val = 512 * ((8 * i.val + 0) / 8) + a.val; omega)).trans ?_
    exact run512_congr _ _ _ (by show (8 * i.val + 0) % 8 = 0 % 8; omega)
  | j + 1, hj, h => by
    refine (congrFun (acc1_8_mid V c ⟨8 * i.val + (j + 1), h⟩ (by show ¬ (8 * i.val + (j + 1)) % 8 = 0; omega)
      (by show ¬ (8 * i.val + (j + 1)) % 8 = 7; omega)) (ix2 a 0)).trans ?_
    refine (upd1_8_apply _ _ _ _ _ _ a).trans ?_
    rw [Finset.sum_range_succ _ (j + 1)]
    refine congrArg₂ (· + ·) ?_ ?_
    · exact (congrFun (acc1_8_irrel V c _ _ _ (Nat.lt_of_succ_lt h) (by show 8 * i.val + (j + 1) - 1 = 8 * i.val + j; omega)) (ix2 a 0)).trans
        (acc1_8_row j (by omega) _)
    · refine (rowLp_tile V c ⟨8 * i.val + (j + 1), h⟩ a p (by show p.val = 512 * ((8 * i.val + (j + 1)) / 8) + a.val; omega)).trans ?_
      exact run512_congr _ _ _ (by show (8 * i.val + (j + 1)) % 8 = (j + 1) % 8; omega)

/-- After the last tile it holds the eight runs and one more: the whole row's sum plus one. -/
private theorem acc1_8_end (h : 8 * i.val + 7 < cfg1.N) :
    acc1_8 (F := Ideal) V c (8 * i.val + 7) h (ix2 a 0)
      = Spec.rowLp (V c main_v0) (V c main_v0) (V c main_arg1) (V c main_arg2) (V c main_arg3) p + 1 := by
  refine (congrFun (acc1_8_last V c ⟨8 * i.val + 7, h⟩ (by show (8 * i.val + 7) % 8 = 7; omega)) (ix2 a 0)).trans ?_
  refine (pay6_apply _ a).trans ?_
  refine congrArg (· + (1 : EReal)) ?_
  refine (upd1_8_apply _ _ _ _ _ _ a).trans ?_
  refine Eq.trans ?_ (sum_run512 (wlpRow V c p))
  rw [Finset.sum_range_succ _ 7]
  refine congrArg₂ (· + ·) ?_ ?_
  · exact (congrFun (acc1_8_irrel V c _ _ _ (by omega) (by show 8 * i.val + 7 - 1 = 8 * i.val + 6; omega)) (ix2 a 0)).trans
      (acc1_8_row V c i a p hp 6 (by omega) _)
  · refine (rowLp_tile V c ⟨8 * i.val + 7, h⟩ a p (by show p.val = 512 * ((8 * i.val + 7) / 8) + a.val; omega)).trans ?_
    exact run512_congr _ _ _ (by show (8 * i.val + 7) % 8 = 7 % 8; omega)

/-- The same for the running high-pass sum. -/
private theorem acc1_9_row : ∀ (j : ℕ), j < 7 → ∀ (h : 8 * i.val + j < cfg1.N),
    acc1_9 (F := Ideal) V c (8 * i.val + j) h (ix2 a 0) = ∑ j' ∈ Finset.range (j + 1), run512 (whpRow V c p) j'
  | 0, _, h => by
    refine (congrFun (acc1_9_first V c ⟨8 * i.val + 0, h⟩ (by show (8 * i.val + 0) % 8 = 0; omega)) (ix2 a 0)).trans ?_
    refine (upd1_9_apply _ _ _ _ _ _ a).trans ?_
    rw [pay9_apply, zero_add, Finset.sum_range_one]
    refine (rowHp_tile V c ⟨8 * i.val + 0, h⟩ a p (by show p.val = 512 * ((8 * i.val + 0) / 8) + a.val; omega)).trans ?_
    exact run512_congr _ _ _ (by show (8 * i.val + 0) % 8 = 0 % 8; omega)
  | j + 1, hj, h => by
    refine (congrFun (acc1_9_mid V c ⟨8 * i.val + (j + 1), h⟩ (by show ¬ (8 * i.val + (j + 1)) % 8 = 0; omega)
      (by show ¬ (8 * i.val + (j + 1)) % 8 = 7; omega)) (ix2 a 0)).trans ?_
    refine (upd1_9_apply _ _ _ _ _ _ a).trans ?_
    rw [Finset.sum_range_succ _ (j + 1)]
    refine congrArg₂ (· + ·) ?_ ?_
    · exact (congrFun (acc1_9_irrel V c _ _ _ (Nat.lt_of_succ_lt h) (by show 8 * i.val + (j + 1) - 1 = 8 * i.val + j; omega)) (ix2 a 0)).trans
        (acc1_9_row j (by omega) _)
    · refine (rowHp_tile V c ⟨8 * i.val + (j + 1), h⟩ a p (by show p.val = 512 * ((8 * i.val + (j + 1)) / 8) + a.val; omega)).trans ?_
      exact run512_congr _ _ _ (by show (8 * i.val + (j + 1)) % 8 = (j + 1) % 8; omega)

private theorem acc1_9_end (h : 8 * i.val + 7 < cfg1.N) :
    acc1_9 (F := Ideal) V c (8 * i.val + 7) h (ix2 a 0)
      = Spec.rowHp (V c main_v0) (V c main_v0) (V c main_arg1) (V c main_arg2) (V c main_arg3) p + 1 := by
  refine (congrFun (acc1_9_last V c ⟨8 * i.val + 7, h⟩ (by show (8 * i.val + 7) % 8 = 7; omega)) (ix2 a 0)).trans ?_
  refine (pay7_apply _ a).trans ?_
  refine congrArg (· + (1 : EReal)) ?_
  refine (upd1_9_apply _ _ _ _ _ _ a).trans ?_
  refine Eq.trans ?_ (sum_run512 (whpRow V c p))
  rw [Finset.sum_range_succ _ 7]
  refine congrArg₂ (· + ·) ?_ ?_
  · exact (congrFun (acc1_9_irrel V c _ _ _ (by omega) (by show 8 * i.val + 7 - 1 = 8 * i.val + 6; omega)) (ix2 a 0)).trans
      (acc1_9_row V c i a p hp 6 (by omega) _)
  · refine (rowHp_tile V c ⟨8 * i.val + 7, h⟩ a p (by show p.val = 512 * ((8 * i.val + 7) / 8) + a.val; omega)).trans ?_
    exact run512_congr _ _ _ (by show (8 * i.val + 7) % 8 = 7 % 8; omega)

end Acc

/-! ## From the flushed blocks to the arrays -/

/-- What a flushing point (the last of its row of tiles) writes back to output window 8 is its block of the whole
    row-sum array: its running sum at row a is the sum of row 512·i + a plus one. -/
private theorem flushed1_8_eq (c : Dev nD) (t : Fin cfg1.N) (hf : (cfg1.win 8).flush t = true) :
    (dat1 (F := Ideal) V c).flushed 8 t = ((cfg1.win 8).blk t).view.read (Elt Ideal) (Spec.dlpArr (V c main_v0) (V c main_v0) (V c main_arg1) (V c main_arg2) (V c main_arg3)) := by
  have h7 : t.val % 8 = 7 := (flush1_8 t).mp hf
  have hN : t.val < 64 := lt_of_lt_of_eq t.isLt (show cfg1.N = 64 from N_1)
  obtain ⟨-, -, -, -, -, -, -, -, -, -, e0, e1, -⟩ := idx1_facts t
  funext y
  obtain ⟨a, rfl⟩ : ∃ a : Fin 512, y = ix2 a (0 : Fin 1) :=
    ⟨y 0, funext fun d => by
      match d with
      | ⟨0, _⟩ => rfl
      | ⟨1, _⟩ => exact Fin.ext (by have h1 : (y 1).val < 1 := (y 1).isLt; show (y 1).val = 0; omega)⟩
  rw [View.read_apply]
  have hemb : ((cfg1.win 8).blk t).view.emb (ix2 a (0 : Fin 1))
      = ix2 (⟨512 * (t.val / 8) + a.val, by have := a.isLt; omega⟩ : Fin 4096) (0 : Fin 1) := by
    funext d; apply Fin.ext
    match d with
    | ⟨0, _⟩ => show win1_8.index t (0 : Fin 2) * 512 + 1 * a.val = 512 * (t.val / 8) + a.val; omega
    | ⟨1, _⟩ => show win1_8.index t (1 : Fin 2) * 1 + 1 * 0 = 0; omega
  show acc1_8 V c t.val t.isLt (ix2 a 0) = Spec.dlpArr (V c main_v0) (V c main_v0) (V c main_arg1) (V c main_arg2) (V c main_arg3) (((cfg1.win 8).blk t).view.emb (ix2 a (0 : Fin 1)))
  rw [hemb]
  show _ = Spec.rowLp (V c main_v0) (V c main_v0) (V c main_arg1) (V c main_arg2) (V c main_arg3) ⟨512 * (t.val / 8) + a.val, _⟩ + 1
  exact (congrFun (acc1_8_irrel V c _ _ _ (by have := t.isLt; omega) (by omega : t.val = 8 * (t.val / 8) + 7)) (ix2 a 0)).trans
    (acc1_8_end V c ⟨t.val / 8, by omega⟩ a _ rfl _)

/-- What a flushing point (the last of its row of tiles) writes back to output window 9 is its block of the whole
    row-sum array: its running sum at row a is the sum of row 512·i + a plus one. -/
private theorem flushed1_9_eq (c : Dev nD) (t : Fin cfg1.N) (hf : (cfg1.win 9).flush t = true) :
    (dat1 (F := Ideal) V c).flushed 9 t = ((cfg1.win 9).blk t).view.read (Elt Ideal) (Spec.dhpArr (V c main_v0) (V c main_v0) (V c main_arg1) (V c main_arg2) (V c main_arg3)) := by
  have h7 : t.val % 8 = 7 := (flush1_9 t).mp hf
  have hN : t.val < 64 := lt_of_lt_of_eq t.isLt (show cfg1.N = 64 from N_1)
  obtain ⟨-, -, -, -, -, -, -, -, -, -, -, -, e0, e1⟩ := idx1_facts t
  funext y
  obtain ⟨a, rfl⟩ : ∃ a : Fin 512, y = ix2 a (0 : Fin 1) :=
    ⟨y 0, funext fun d => by
      match d with
      | ⟨0, _⟩ => rfl
      | ⟨1, _⟩ => exact Fin.ext (by have h1 : (y 1).val < 1 := (y 1).isLt; show (y 1).val = 0; omega)⟩
  rw [View.read_apply]
  have hemb : ((cfg1.win 9).blk t).view.emb (ix2 a (0 : Fin 1))
      = ix2 (⟨512 * (t.val / 8) + a.val, by have := a.isLt; omega⟩ : Fin 4096) (0 : Fin 1) := by
    funext d; apply Fin.ext
    match d with
    | ⟨0, _⟩ => show win1_9.index t (0 : Fin 2) * 512 + 1 * a.val = 512 * (t.val / 8) + a.val; omega
    | ⟨1, _⟩ => show win1_9.index t (1 : Fin 2) * 1 + 1 * 0 = 0; omega
  show acc1_9 V c t.val t.isLt (ix2 a 0) = Spec.dhpArr (V c main_v0) (V c main_v0) (V c main_arg1) (V c main_arg2) (V c main_arg3) (((cfg1.win 9).blk t).view.emb (ix2 a (0 : Fin 1)))
  rw [hemb]
  show _ = Spec.rowHp (V c main_v0) (V c main_v0) (V c main_arg1) (V c main_arg2) (V c main_arg3) ⟨512 * (t.val / 8) + a.val, _⟩ + 1
  exact (congrFun (acc1_9_irrel V c _ _ _ (by have := t.isLt; omega) (by omega : t.val = 8 * (t.val / 8) + 7)) (ix2 a 0)).trans
    (acc1_9_end V c ⟨t.val / 8, by omega⟩ a _ rfl _)

end RowSums

/-- Every row r of a row-sum array lies in the block written back by the last point of row block r / 512, and that point
    writes back the whole row sums plus one: so the arrays end holding them. -/
theorem val1_8 (c : Dev nD) :
    (dat1 (F := Ideal) V c).arrAt 8 cfg1.N = Spec.dlpArr (V c main_v0) (V c main_v0) (V c main_arg1) (V c main_arg2) (V c main_arg3) := by
  refine (dat1 V c).arrAt_eq_of_cover 8 _ (RowSums.flushed1_8_eq V c) fun r => ?_
  have hr0 : (r 0).val < 4096 := (r 0).isLt
  have hr1 : (r 1).val < 1 := (r 1).isLt
  have hlt : 8 * ((r 0).val / 512) + 7 < cfg1.N := by rw [show cfg1.N = 64 from N_1]; omega
  refine ⟨⟨8 * ((r 0).val / 512) + 7, hlt⟩, (flush1_8 _).mpr (by show (8 * ((r 0).val / 512) + 7) % 8 = 7; omega), ?_⟩
  obtain ⟨-, -, -, -, -, -, -, -, -, -, e0, e1, -⟩ := RowSums.idx1_facts ⟨8 * ((r 0).val / 512) + 7, hlt⟩
  show r ∈ ((View.whole main_v1_3).slice (win1_8.rect ⟨8 * ((r 0).val / 512) + 7, hlt⟩)).set
  rw [View.set_slice_whole, Rect.mem_set_unit]
  intro d
  match d with
  | ⟨0, _⟩ =>
    show win1_8.index ⟨8 * ((r 0).val / 512) + 7, hlt⟩ (0 : Fin 2) * 512 ≤ (r 0).val
      ∧ (r 0).val < win1_8.index ⟨8 * ((r 0).val / 512) + 7, hlt⟩ (0 : Fin 2) * 512 + 512
    rw [e0]; show (8 * ((r 0).val / 512) + 7) / 8 * 512 ≤ (r 0).val ∧ (r 0).val < (8 * ((r 0).val / 512) + 7) / 8 * 512 + 512
    omega
  | ⟨1, _⟩ =>
    show win1_8.index ⟨8 * ((r 0).val / 512) + 7, hlt⟩ (1 : Fin 2) * 1 ≤ (r 1).val
      ∧ (r 1).val < win1_8.index ⟨8 * ((r 0).val / 512) + 7, hlt⟩ (1 : Fin 2) * 1 + 1
    rw [e1]; omega
theorem val1_9 (c : Dev nD) :
    (dat1 (F := Ideal) V c).arrAt 9 cfg1.N = Spec.dhpArr (V c main_v0) (V c main_v0) (V c main_arg1) (V c main_arg2) (V c main_arg3) := by
  refine (dat1 V c).arrAt_eq_of_cover 9 _ (RowSums.flushed1_9_eq V c) fun r => ?_
  have hr0 : (r 0).val < 4096 := (r 0).isLt
  have hr1 : (r 1).val < 1 := (r 1).isLt
  have hlt : 8 * ((r 0).val / 512) + 7 < cfg1.N := by rw [show cfg1.N = 64 from N_1]; omega
  refine ⟨⟨8 * ((r 0).val / 512) + 7, hlt⟩, (flush1_9 _).mpr (by show (8 * ((r 0).val / 512) + 7) % 8 = 7; omega), ?_⟩
  obtain ⟨-, -, -, -, -, -, -, -, -, -, -, -, e0, e1⟩ := RowSums.idx1_facts ⟨8 * ((r 0).val / 512) + 7, hlt⟩
  show r ∈ ((View.whole main_v1_4).slice (win1_9.rect ⟨8 * ((r 0).val / 512) + 7, hlt⟩)).set
  rw [View.set_slice_whole, Rect.mem_set_unit]
  intro d
  match d with
  | ⟨0, _⟩ =>
    show win1_9.index ⟨8 * ((r 0).val / 512) + 7, hlt⟩ (0 : Fin 2) * 512 ≤ (r 0).val
      ∧ (r 0).val < win1_9.index ⟨8 * ((r 0).val / 512) + 7, hlt⟩ (0 : Fin 2) * 512 + 512
    rw [e0]; show (8 * ((r 0).val / 512) + 7) / 8 * 512 ≤ (r 0).val ∧ (r 0).val < (8 * ((r 0).val / 512) + 7) / 8 * 512 + 512
    omega
  | ⟨1, _⟩ =>
    show win1_9.index ⟨8 * ((r 0).val / 512) + 7, hlt⟩ (1 : Fin 2) * 1 ≤ (r 1).val
      ∧ (r 1).val < win1_9.index ⟨8 * ((r 0).val / 512) + 7, hlt⟩ (1 : Fin 2) * 1 + 1
    rw [e1]; omega

end Cert.KernelIdeal.Val

end
-- ==== Proof.Val2.lean ====
/-
  The third region's two results at the ideal values: the arrays of `adj_lp` and `adj_hp` it leaves are the stage-C
  formulas of the specification on the arrays it read, the identity's entries made from the grid coordinates.
-/
import proofs.«119275_j1889785610729_1_alg».proof.Proof.Body2
import proofs.«119275_j1889785610729_1_alg».proof.Proof.Spec
import proofs.«119275_j1889785610729_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

-- the contents of the unscoped buffers when a region is entered, at the ideal values
variable (V : (c : Dev nD) → (b : Ref sig .tc) → Buf (Elt Ideal) ((c : Thread nD τ).loc b))

/-! ## The identity's tile

  The tile's rows are `512·i₀ + a` and its columns `512·i₁ + b` as 32-bit words; both stay below 4096, so the words are
  equal exactly when the naturals are, and the widened, converted bit is the identity's entry. -/

/-- The identity's tile at grid coordinates `i`, read at `(a, b)`. -/
private theorem eye_tile_apply (i : grid2.Coords) (a b : Fin 512) :
    k2_pay1 (F := Ideal) i (ix2 a b) = Spec.eyeN (512 * (i 0).val + a.val) (512 * (i 1).val + b.val) := by
  have h0 : (i 0).val < 8 := (i 0).isLt
  have h1 : (i 1).val < 8 := (i 1).isLt
  have ha : a.val < 512 := a.isLt
  have hb : b.val < 512 := b.isLt
  unfold k2_pay1
  show FloatOps.sitofp (F := Ideal) .f32 ((IntOp.cmpi .eq
      (IntOp.addi (Scalar.muli (BitVec.ofNat 32 (i 0).val) 512#32) (iota .tc S512x512 32 [0] iota_S512x512_d0_w32 (ix2 a b)))
      (IntOp.addi (Scalar.muli (BitVec.ofNat 32 (i 1).val) 512#32) (iota .tc S512x512 32 [1] iota_S512x512_d1_w32 (ix2 a b)))).setWidth 32) = _
  rw [iota_single_apply, iota_single_apply]
  show ((((IntOp.cmpi .eq
      (IntOp.addi (Scalar.muli (BitVec.ofNat 32 (i 0).val) 512#32) (BitVec.ofNat 32 a.val))
      (IntOp.addi (Scalar.muli (BitVec.ofNat 32 (i 1).val) 512#32) (BitVec.ofNat 32 b.val))).setWidth 32).toInt : ℝ) : EReal) = _
  rw [Spec.sitofp_setWidth_bit]
  unfold Spec.eyeN
  refine if_congr ?_ rfl rfl
  unfold IntOp.cmpi
  show BitVec.ofBool ((BitVec.ofNat 32 (i 0).val * 512#32 + BitVec.ofNat 32 a.val) == (BitVec.ofNat 32 (i 1).val * 512#32 + BitVec.ofNat 32 b.val)) = 1#1 ↔ _
  rw [Spec.ofBool_eq_one, beq_iff_eq, ← BitVec.toNat_inj]
  simp only [BitVec.toNat_add, BitVec.toNat_mul, BitVec.toNat_ofNat]
  omega

/-! ## The payloads at an index -/

/-- An `[a, 1]` column broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile of `adj_lp` at `(a, b)`: the weight plus the identity's entry, times the column's entry at `a`, times the
    row's entry at `b`. -/
private theorem pay2_apply (i : grid2.Coords) (x0 : Vec Ideal S512x512 .f32) (x3 : Vec Ideal S512x1 .f32) (x4 : Vec Ideal S1x512 .f32)
    (a b : Fin 512) :
    k2_pay2 (F := Ideal) i x0 x3 x4 (ix2 a b)
      = ((x0 (ix2 a b) + Spec.eyeN (512 * (i 0).val + a.val) (512 * (i 1).val + b.val)) * x3 (ix2 a (0 : Fin 1))) * x4 (ix2 (0 : Fin 1) b) := by
  unfold k2_pay2
  simp only [shapeCast_self]
  rw [mulf_apply, mulf_apply, addf_apply, eye_tile_apply, broadcastTo_1b_ab_apply, broadcastTo_a1_ab_apply]

/-- The tile of `adj_hp` at `(a, b)`. -/
private theorem pay3_apply (i : grid2.Coords) (x1 x2 : Vec Ideal S512x512 .f32) (x5 : Vec Ideal S512x1 .f32) (x6 : Vec Ideal S1x512 .f32)
    (a b : Fin 512) :
    k2_pay3 (F := Ideal) i x1 x2 x5 x6 (ix2 a b)
      = Spec.eyeN (512 * (i 0).val + a.val) (512 * (i 1).val + b.val)
        - ((((x1 (ix2 a b) + Spec.eyeN (512 * (i 0).val + a.val) (512 * (i 1).val + b.val)) * x5 (ix2 a (0 : Fin 1))) * x6 (ix2 (0 : Fin 1) b))
            * x2 (ix2 a b)) * Spec.cTen := by
  unfold k2_pay3
  simp only [shapeCast_self]
  rw [subf_apply, mulf_apply, mulf_apply, mulf_apply, mulf_apply, addf_apply, eye_tile_apply, broadcastTo_1b_ab_apply,
    broadcastTo_a1_ab_apply, broadcast_apply]
  rfl

/-! ## The windows' blocks in their arrays

  At point `t` with grid coordinates `(i₀, i₁)` a tile window takes block `(i₀, i₁)`, a column window block `(i₀, 0)`, a row
  window block `(0, i₁)`; the coordinates are `t / 8` and `t % 8`. Decided over the grid's 64 points. A block's element
  `(a, b)` then sits in its array at block index × block size + its own coordinate on each axis. -/

/-- A window's block index at a point is `(x, y)`. -/
private abbrev IdxIs (i : Fin 2 → ℕ) (x y : ℕ) : Prop := i (0 : Fin 2) = x ∧ i (1 : Fin 2) = y

private theorem idx2_0 : ∀ t : Fin cfg2.N, IdxIs (win2_0.index t) (grid2.coords t 0).val (grid2.coords t 1).val := (by decide +kernel : ∀ t : Fin grid2.N, _)
private theorem idx2_1 : ∀ t : Fin cfg2.N, IdxIs (win2_1.index t) (grid2.coords t 0).val (grid2.coords t 1).val := (by decide +kernel : ∀ t : Fin grid2.N, _)
private theorem idx2_2 : ∀ t : Fin cfg2.N, IdxIs (win2_2.index t) (grid2.coords t 0).val (grid2.coords t 1).val := (by decide +kernel : ∀ t : Fin grid2.N, _)
private theorem idx2_3 : ∀ t : Fin cfg2.N, IdxIs (win2_3.index t) (grid2.coords t 0).val 0 := (by decide +kernel : ∀ t : Fin grid2.N, _)
private theorem idx2_4 : ∀ t : Fin cfg2.N, IdxIs (win2_4.index t) 0 (grid2.coords t 1).val := (by decide +kernel : ∀ t : Fin grid2.N, _)
private theorem idx2_5 : ∀ t : Fin cfg2.N, IdxIs (win2_5.index t) (grid2.coords t 0).val 0 := (by decide +kernel : ∀ t : Fin grid2.N, _)
private theorem idx2_6 : ∀ t : Fin cfg2.N, IdxIs (win2_6.index t) 0 (grid2.coords t 1).val := (by decide +kernel : ∀ t : Fin grid2.N, _)
private theorem idx2_7 : ∀ t : Fin cfg2.N, IdxIs (win2_7.index t) (grid2.coords t 0).val (grid2.coords t 1).val := (by decide +kernel : ∀ t : Fin grid2.N, _)
private theorem idx2_8 : ∀ t : Fin cfg2.N, IdxIs (win2_8.index t) (grid2.coords t 0).val (grid2.coords t 1).val := (by decide +kernel : ∀ t : Fin grid2.N, _)
/-- The grid coordinates of point `t`, row-major over 8 × 8. -/
private theorem coords2 : ∀ t : Fin cfg2.N, (grid2.coords t 0).val = t.val / 8 ∧ (grid2.coords t 1).val = t.val % 8 :=
  (by decide +kernel : ∀ t : Fin grid2.N, _)

private theorem coords_lt0 (t : Fin cfg2.N) : (grid2.coords t 0).val < 8 := (grid2.coords t 0).isLt
private theorem coords_lt1 (t : Fin cfg2.N) : (grid2.coords t 1).val < 8 := (grid2.coords t 1).isLt

/-- Coordinate `a` of block `k`, of eight blocks of 512, in the whole extent. -/
private abbrev glob (k : ℕ) (hk : k < 8) (a : Fin 512) : Fin 4096 := ⟨512 * k + a.val, by have := a.isLt; omega⟩

private theorem read2_0 (G : S4096x4096.Idx → EReal) (t : Fin cfg2.N) (a b : Fin 512) :
    ((cfg2.win 0).blk t).view.read (Elt Ideal) G (ix2 a b)
      = G (ix2 (glob (grid2.coords t 0).val (coords_lt0 t) a) (glob (grid2.coords t 1).val (coords_lt1 t) b)) := by
  show G (((cfg2.win 0).blk t).view.emb (ix2 a b)) = _
  congr 1
  funext ax; apply Fin.ext
  obtain ⟨e0, e1⟩ := idx2_0 t
  match ax with
  | ⟨0, _⟩ => show win2_0.index t (0 : Fin 2) * 512 + 1 * a.val = 512 * (grid2.coords t 0).val + a.val; omega
  | ⟨1, _⟩ => show win2_0.index t (1 : Fin 2) * 512 + 1 * b.val = 512 * (grid2.coords t 1).val + b.val; omega

private theorem read2_1 (G : S4096x4096.Idx → EReal) (t : Fin cfg2.N) (a b : Fin 512) :
    ((cfg2.win 1).blk t).view.read (Elt Ideal) G (ix2 a b)
      = G (ix2 (glob (grid2.coords t 0).val (coords_lt0 t) a) (glob (grid2.coords t 1).val (coords_lt1 t) b)) := by
  show G (((cfg2.win 1).blk t).view.emb (ix2 a b)) = _
  congr 1
  funext ax; apply Fin.ext
  obtain ⟨e0, e1⟩ := idx2_1 t
  match ax with
  | ⟨0, _⟩ => show win2_1.index t (0 : Fin 2) * 512 + 1 * a.val = 512 * (grid2.coords t 0).val + a.val; omega
  | ⟨1, _⟩ => show win2_1.index t (1 : Fin 2) * 512 + 1 * b.val = 512 * (grid2.coords t 1).val + b.val; omega

private theorem read2_2 (G : S4096x4096.Idx → EReal) (t : Fin cfg2.N) (a b : Fin 512) :
    ((cfg2.win 2).blk t).view.read (Elt Ideal) G (ix2 a b)
      = G (ix2 (glob (grid2.coords t 0).val (coords_lt0 t) a) (glob (grid2.coords t 1).val (coords_lt1 t) b)) := by
  show G (((cfg2.win 2).blk t).view.emb (ix2 a b)) = _
  congr 1
  funext ax; apply Fin.ext
  obtain ⟨e0, e1⟩ := idx2_2 t
  match ax with
  | ⟨0, _⟩ => show win2_2.index t (0 : Fin 2) * 512 + 1 * a.val = 512 * (grid2.coords t 0).val + a.val; omega
  | ⟨1, _⟩ => show win2_2.index t (1 : Fin 2) * 512 + 1 * b.val = 512 * (grid2.coords t 1).val + b.val; omega

private theorem read2_3 (G : S4096x1.Idx → EReal) (t : Fin cfg2.N) (a : Fin 512) :
    ((cfg2.win 3).blk t).view.read (Elt Ideal) G (ix2 a (0 : Fin 1))
      = G (ix2 (glob (grid2.coords t 0).val (coords_lt0 t) a) (0 : Fin 1)) := by
  show G (((cfg2.win 3).blk t).view.emb (ix2 a (0 : Fin 1))) = _
  congr 1
  funext ax; apply Fin.ext
  obtain ⟨e0, e1⟩ := idx2_3 t
  match ax with
  | ⟨0, _⟩ => show win2_3.index t (0 : Fin 2) * 512 + 1 * a.val = 512 * (grid2.coords t 0).val + a.val; omega
  | ⟨1, _⟩ => show win2_3.index t (1 : Fin 2) * 1 + 1 * 0 = 0; omega

private theorem read2_4 (G : S1x4096.Idx → EReal) (t : Fin cfg2.N) (b : Fin 512) :
    ((cfg2.win 4).blk t).view.read (Elt Ideal) G (ix2 (0 : Fin 1) b)
      = G (ix2 (0 : Fin 1) (glob (grid2.coords t 1).val (coords_lt1 t) b)) := by
  show G (((cfg2.win 4).blk t).view.emb (ix2 (0 : Fin 1) b)) = _
  congr 1
  funext ax; apply Fin.ext
  obtain ⟨e0, e1⟩ := idx2_4 t
  match ax with
  | ⟨0, _⟩ => show win2_4.index t (0 : Fin 2) * 1 + 1 * 0 = 0; omega
  | ⟨1, _⟩ => show win2_4.index t (1 : Fin 2) * 512 + 1 * b.val = 512 * (grid2.coords t 1).val + b.val; omega

private theorem read2_5 (G : S4096x1.Idx → EReal) (t : Fin cfg2.N) (a : Fin 512) :
    ((cfg2.win 5).blk t).view.read (Elt Ideal) G (ix2 a (0 : Fin 1))
      = G (ix2 (glob (grid2.coords t 0).val (coords_lt0 t) a) (0 : Fin 1)) := by
  show G (((cfg2.win 5).blk t).view.emb (ix2 a (0 : Fin 1))) = _
  congr 1
  funext ax; apply Fin.ext
  obtain ⟨e0, e1⟩ := idx2_5 t
  match ax with
  | ⟨0, _⟩ => show win2_5.index t (0 : Fin 2) * 512 + 1 * a.val = 512 * (grid2.coords t 0).val + a.val; omega
  | ⟨1, _⟩ => show win2_5.index t (1 : Fin 2) * 1 + 1 * 0 = 0; omega

private theorem read2_6 (G : S1x4096.Idx → EReal) (t : Fin cfg2.N) (b : Fin 512) :
    ((cfg2.win 6).blk t).view.read (Elt Ideal) G (ix2 (0 : Fin 1) b)
      = G (ix2 (0 : Fin 1) (glob (grid2.coords t 1).val (coords_lt1 t) b)) := by
  show G (((cfg2.win 6).blk t).view.emb (ix2 (0 : Fin 1) b)) = _
  congr 1
  funext ax; apply Fin.ext
  obtain ⟨e0, e1⟩ := idx2_6 t
  match ax with
  | ⟨0, _⟩ => show win2_6.index t (0 : Fin 2) * 1 + 1 * 0 = 0; omega
  | ⟨1, _⟩ => show win2_6.index t (1 : Fin 2) * 512 + 1 * b.val = 512 * (grid2.coords t 1).val + b.val; omega

private theorem read2_7 (G : S4096x4096.Idx → EReal) (t : Fin cfg2.N) (a b : Fin 512) :
    ((cfg2.win 7).blk t).view.read (Elt Ideal) G (ix2 a b)
      = G (ix2 (glob (grid2.coords t 0).val (coords_lt0 t) a) (glob (grid2.coords t 1).val (coords_lt1 t) b)) := by
  show G (((cfg2.win 7).blk t).view.emb (ix2 a b)) = _
  congr 1
  funext ax; apply Fin.ext
  obtain ⟨e0, e1⟩ := idx2_7 t
  match ax with
  | ⟨0, _⟩ => show win2_7.index t (0 : Fin 2) * 512 + 1 * a.val = 512 * (grid2.coords t 0).val + a.val; omega
  | ⟨1, _⟩ => show win2_7.index t (1 : Fin 2) * 512 + 1 * b.val = 512 * (grid2.coords t 1).val + b.val; omega

private theorem read2_8 (G : S4096x4096.Idx → EReal) (t : Fin cfg2.N) (a b : Fin 512) :
    ((cfg2.win 8).blk t).view.read (Elt Ideal) G (ix2 a b)
      = G (ix2 (glob (grid2.coords t 0).val (coords_lt0 t) a) (glob (grid2.coords t 1).val (coords_lt1 t) b)) := by
  show G (((cfg2.win 8).blk t).view.emb (ix2 a b)) = _
  congr 1
  funext ax; apply Fin.ext
  obtain ⟨e0, e1⟩ := idx2_8 t
  match ax with
  | ⟨0, _⟩ => show win2_8.index t (0 : Fin 2) * 512 + 1 * a.val = 512 * (grid2.coords t 0).val + a.val; omega
  | ⟨1, _⟩ => show win2_8.index t (1 : Fin 2) * 512 + 1 * b.val = 512 * (grid2.coords t 1).val + b.val; omega

/-! ## What each point writes back -/

/-- Point `t` writes back block `t` of `adj_lp`'s formula on the arrays the region read. -/
private theorem flushed2_7_eq (c : Dev nD) (t : Fin cfg2.N) :
    (dat2 (F := Ideal) V c).flushed 7 t
      = ((cfg2.win 7).blk t).view.read (Elt Ideal) (Spec.adjlpArr (V c main_v1_0) Spec.eyeArr (V c main_v4) (V c main_v8)) := by
  show (cfg2.win 7).cut (grid2.coords t) ((dat2 (F := Ideal) V c).after 7 t) = _
  rw [after2_7]
  funext j
  obtain ⟨a, b, rfl⟩ : ∃ (a b : Fin 512), j = ix2 a b := ⟨j 0, j 1, eq_ix2 j⟩
  show out2_7 (grid2.coords t) (iblk2 V c 0 t) (iblk2 V c 3 t) (iblk2 V c 4 t) (ix2 a b) = _
  unfold out2_7
  rw [pay2_apply, read2_7]
  unfold iblk2
  rw [read2_0, read2_3, read2_4]
  rfl

/-- Point `t` writes back block `t` of `adj_hp`'s formula on the arrays the region read. -/
private theorem flushed2_8_eq (c : Dev nD) (t : Fin cfg2.N) :
    (dat2 (F := Ideal) V c).flushed 8 t
      = ((cfg2.win 8).blk t).view.read (Elt Ideal)
          (Spec.adjhpArr (V c main_v1_1) (V c main_v1_2) Spec.eyeArr (V c main_v7) (V c main_v9)) := by
  show (cfg2.win 8).cut (grid2.coords t) ((dat2 (F := Ideal) V c).after 8 t) = _
  rw [after2_8]
  funext j
  obtain ⟨a, b, rfl⟩ : ∃ (a b : Fin 512), j = ix2 a b := ⟨j 0, j 1, eq_ix2 j⟩
  show out2_8 (grid2.coords t) (iblk2 V c 1 t) (iblk2 V c 2 t) (iblk2 V c 5 t) (iblk2 V c 6 t) (ix2 a b) = _
  unfold out2_8
  rw [pay3_apply, read2_8]
  unfold iblk2
  rw [read2_1, read2_2, read2_5, read2_6]
  rfl

/-! ## The blocks tile the arrays -/

/-- An index of `adj_lp`'s array is in point `t`'s block iff each coordinate is in the block's range on its axis. -/
private theorem mem_blk2_7 (t : Fin cfg2.N) (i : S4096x4096.Idx) :
    i ∈ ((cfg2.win 7).blk t).view.set
      ↔ ∀ a : Fin 2, win2_7.index t a * S512x512.size a ≤ (i a).val ∧ (i a).val < win2_7.index t a * S512x512.size a + S512x512.size a := by
  show i ∈ ((View.whole main_v10_0).slice (win2_7.rect t)).set ↔ _
  rw [View.set_slice_whole, Rect.mem_set_unit]
  exact Iff.rfl

/-- The same for `adj_hp`'s array. -/
private theorem mem_blk2_8 (t : Fin cfg2.N) (i : S4096x4096.Idx) :
    i ∈ ((cfg2.win 8).blk t).view.set
      ↔ ∀ a : Fin 2, win2_8.index t a * S512x512.size a ≤ (i a).val ∧ (i a).val < win2_8.index t a * S512x512.size a + S512x512.size a := by
  show i ∈ ((View.whole main_v10_1).slice (win2_8.rect t)).set ↔ _
  rw [View.set_slice_whole, Rect.mem_set_unit]
  exact Iff.rfl

/-- The point whose tile holds `(r, s)`: `8 · (r / 512) + s / 512`. -/
private theorem point_of (r s : ℕ) (hr : r < 4096) (hs : s < 4096) :
    ∃ t : Fin cfg2.N, (grid2.coords t 0).val = r / 512 ∧ (grid2.coords t 1).val = s / 512 := by
  have hN : 8 * (r / 512) + s / 512 < cfg2.N := by show _ < 64; omega
  refine ⟨⟨8 * (r / 512) + s / 512, hN⟩, ?_⟩
  obtain ⟨g0, g1⟩ := coords2 ⟨8 * (r / 512) + s / 512, hN⟩
  have g0' : (grid2.coords ⟨8 * (r / 512) + s / 512, hN⟩ 0).val = (8 * (r / 512) + s / 512) / 8 := g0
  have g1' : (grid2.coords ⟨8 * (r / 512) + s / 512, hN⟩ 1).val = (8 * (r / 512) + s / 512) % 8 := g1
  constructor <;> omega

/-- Every index of `adj_lp`'s array is in some point's block. -/
private theorem cover2_7 (i : S4096x4096.Idx) :
    ∃ t : Fin cfg2.N, (cfg2.win 7).flush t = true ∧ i ∈ ((cfg2.win 7).blk t).view.set := by
  have hr : (i 0).val < 4096 := (i 0).isLt
  have hs : (i 1).val < 4096 := (i 1).isLt
  obtain ⟨t, g0, g1⟩ := point_of (i 0).val (i 1).val hr hs
  obtain ⟨e0, e1⟩ := idx2_7 t
  refine ⟨t, flush2_7 t, ?_⟩
  rw [mem_blk2_7]
  intro a
  match a with
  | ⟨0, _⟩ => show win2_7.index t (0 : Fin 2) * 512 ≤ (i 0).val ∧ (i 0).val < win2_7.index t (0 : Fin 2) * 512 + 512; omega
  | ⟨1, _⟩ => show win2_7.index t (1 : Fin 2) * 512 ≤ (i 1).val ∧ (i 1).val < win2_7.index t (1 : Fin 2) * 512 + 512; omega

/-- Every index of `adj_hp`'s array is in some point's block. -/
private theorem cover2_8 (i : S4096x4096.Idx) :
    ∃ t : Fin cfg2.N, (cfg2.win 8).flush t = true ∧ i ∈ ((cfg2.win 8).blk t).view.set := by
  have hr : (i 0).val < 4096 := (i 0).isLt
  have hs : (i 1).val < 4096 := (i 1).isLt
  obtain ⟨t, g0, g1⟩ := point_of (i 0).val (i 1).val hr hs
  obtain ⟨e0, e1⟩ := idx2_8 t
  refine ⟨t, flush2_8 t, ?_⟩
  rw [mem_blk2_8]
  intro a
  match a with
  | ⟨0, _⟩ => show win2_8.index t (0 : Fin 2) * 512 ≤ (i 0).val ∧ (i 0).val < win2_8.index t (0 : Fin 2) * 512 + 512; omega
  | ⟨1, _⟩ => show win2_8.index t (1 : Fin 2) * 512 ≤ (i 1).val ∧ (i 1).val < win2_8.index t (1 : Fin 2) * 512 + 512; omega

/-! ## The two arrays after the region -/

theorem val2_7 (c : Dev nD) :
    (dat2 (F := Ideal) V c).arrAt 7 cfg2.N = Spec.adjlpArr (V c main_v1_0) Spec.eyeArr (V c main_v4) (V c main_v8) := by
  exact (dat2 (F := Ideal) V c).arrAt_eq_of_cover 7 _ (fun t _ => flushed2_7_eq V c t) cover2_7
theorem val2_8 (c : Dev nD) :
    (dat2 (F := Ideal) V c).arrAt 8 cfg2.N = Spec.adjhpArr (V c main_v1_1) (V c main_v1_2) Spec.eyeArr (V c main_v7) (V c main_v9) := by
  exact (dat2 (F := Ideal) V c).arrAt_eq_of_cover 8 _ (fun t _ => flushed2_8_eq V c t) cover2_8

end Cert.KernelIdeal.Val

end
-- ==== Proof.ValRun.lean ====
/-
  The kernel's five results at the ideal values, followed through the run's fold: the first region leaves `emb`; the
  second, reading it by rows and by columns, leaves `w_lp`, `w_hp`, `edge_mask` and the two row sums; the host
  operations turn each row sum into its inverse square root, as a column and, reshaped, as a row; the third region
  leaves `adj_lp` and `adj_hp`. Each step is the specification's formula of the step before.
-/
import proofs.«119275_j1889785610729_1_alg».proof.Proof.Run
import proofs.«119275_j1889785610729_1_alg».proof.Proof.Val0
import proofs.«119275_j1889785610729_1_alg».proof.Proof.Val1
import proofs.«119275_j1889785610729_1_alg».proof.Proof.Val1s
import proofs.«119275_j1889785610729_1_alg».proof.Proof.Val2
import Idealize.ShloMosaic.Lib.StableHlo.Run

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.ShloMosaic.StableHlo
open Idealize.ShloMosaic.Pipeline (Dat Cfg Window)

variable (m : (ℓ : Loc nD τ sig) → Buf (Elt Ideal) ℓ)

/-! ## The host operations between the second and the third region -/

/-- The inverse square root of a row sum plus the small constant, element by element. -/
theorem host_col (d : Vec Ideal S4096x1 .f32) :
    Host.rsqrt (addf d (broadcastInDim S4096x1 ![] bcast_S_S4096x1 (constant (F := Ideal) S_ .f32 0x2EDBE6FF#32))) = Spec.colOf d := by
  funext j
  simp only [Spec.colOf, Spec.dis, Spec.cEos, Host.rsqrt, addf, broadcastInDim, constant, Ideal.hostUnary_rsqrt_def, Ideal.ofBits_def]
  rfl

/-- A column [4096, 1] reshaped to a row [1, 4096] keeps its entries in order. -/
theorem host_row (v : Vec Ideal S4096x1 .f32) (j : S1x4096.Idx) :
    shapeCast S1x4096 v shapeCasts_S4096x1_S1x4096 j = v (ix2 (j 1) 0) := by
  refine shapeCast_apply v _ j (ix2 (j 1) 0) ?_
  rw [Shape.rowMajor_val_two, Shape.rowMajor_val_two]
  have h0 : (j 0).val = 0 := by have := (j 0).isLt; simp at this; omega
  show (j 1).val * 1 + 0 = (j 0).val * 4096 + (j 1).val
  omega

/-- The four buffers the third region reads off the host operations. -/
theorem V3_v4 (c : Dev nD) : V3 m c main_v4 = Spec.colOf (V2 m c main_v1_3) := by
  have e : (V3 m c main_v4 : S4096x1.Idx → EReal)
      = Host.rsqrt (addf (V2 m c main_v1_3) (broadcastInDim S4096x1 ![] bcast_S_S4096x1 (constant (F := Ideal) S_ .f32 0x2EDBE6FF#32))) := by
    show StableHlo.after hostOps2 (W2 m c) (Proc.devRef .tc main_v4) = _
    after_results
  exact e.trans (host_col _)
theorem V3_v7 (c : Dev nD) : V3 m c main_v7 = Spec.colOf (V2 m c main_v1_4) := by
  have e : (V3 m c main_v7 : S4096x1.Idx → EReal)
      = Host.rsqrt (addf (V2 m c main_v1_4) (broadcastInDim S4096x1 ![] bcast_S_S4096x1 (constant (F := Ideal) S_ .f32 0x2EDBE6FF#32))) := by
    show StableHlo.after hostOps2 (W2 m c) (Proc.devRef .tc main_v7) = _
    after_results
  exact e.trans (host_col _)
theorem V3_v8 (c : Dev nD) : V3 m c main_v8 = Spec.rowOf (V2 m c main_v1_3) := by
  have e : (V3 m c main_v8 : S1x4096.Idx → EReal)
      = shapeCast S1x4096 (Host.rsqrt (addf (V2 m c main_v1_3) (broadcastInDim S4096x1 ![] bcast_S_S4096x1 (constant (F := Ideal) S_ .f32 0x2EDBE6FF#32)))) shapeCasts_S4096x1_S1x4096 := by
    show StableHlo.after hostOps2 (W2 m c) (Proc.devRef .tc main_v8) = _
    after_results; rfl
  rw [e, host_col]
  funext j
  rw [host_row]
  rfl
theorem V3_v9 (c : Dev nD) : V3 m c main_v9 = Spec.rowOf (V2 m c main_v1_4) := by
  have e : (V3 m c main_v9 : S1x4096.Idx → EReal)
      = shapeCast S1x4096 (Host.rsqrt (addf (V2 m c main_v1_4) (broadcastInDim S4096x1 ![] bcast_S_S4096x1 (constant (F := Ideal) S_ .f32 0x2EDBE6FF#32)))) shapeCasts_S4096x1_S1x4096 := by
    show StableHlo.after hostOps2 (W2 m c) (Proc.devRef .tc main_v9) = _
    after_results; rfl
  rw [e, host_col]
  funext j
  rw [host_row]
  rfl

/-! ## The fold, buffer by buffer -/

theorem V1_arg1 (c : Dev nD) : V1 m c main_arg1 = m ((c : Thread nD τ).loc main_arg1) := W1_of_ne m c main_arg1 (by decide)
theorem V1_arg2 (c : Dev nD) : V1 m c main_arg2 = m ((c : Thread nD τ).loc main_arg2) := W1_of_ne m c main_arg2 (by decide)
theorem V1_arg3 (c : Dev nD) : V1 m c main_arg3 = m ((c : Thread nD τ).loc main_arg3) := W1_of_ne m c main_arg3 (by decide)
/-- After the first region `emb`'s buffer holds the embedding of the arguments. -/
theorem V1_v0 (c : Dev nD) : V1 m c main_v0 = (Spec.res_emb (m ((c : Thread nD τ).loc main_arg0)) (m ((c : Thread nD τ).loc main_arg4)) (m ((c : Thread nD τ).loc main_arg5))) :=
  (W1_arr m c 3).trans (val0 (V0 m) c)

/-- After the second region: the three tiled results and the two row sums. -/
theorem V2_v1_0 (c : Dev nD) : V2 m c main_v1_0 = Spec.res_wlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc V2 m c main_v1_0 = (dat1 (V1 m) c).arrAt 5 cfg1.N := W2_v1_0 m c
    _ = Spec.wlpArr (V1 m c main_v0) (V1 m c main_v0) (V1 m c main_arg1) (V1 m c main_arg2) (V1 m c main_arg3) := val1_5 (V1 m) c
    _ = _ := by rw [V1_v0 m c, V1_arg1 m c, V1_arg2 m c, V1_arg3 m c]; rfl
theorem V2_v1_1 (c : Dev nD) : V2 m c main_v1_1 = Spec.res_whp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc V2 m c main_v1_1 = (dat1 (V1 m) c).arrAt 6 cfg1.N := W2_v1_1 m c
    _ = Spec.whpArr (V1 m c main_v0) (V1 m c main_v0) (V1 m c main_arg1) (V1 m c main_arg2) (V1 m c main_arg3) := val1_6 (V1 m) c
    _ = _ := by rw [V1_v0 m c, V1_arg1 m c, V1_arg2 m c, V1_arg3 m c]; rfl
theorem V2_v1_2 (c : Dev nD) : V2 m c main_v1_2 = Spec.res_mask (m ((c : Thread nD τ).loc main_arg1)) (m ((c : Thread nD τ).loc main_arg2)) :=
  calc V2 m c main_v1_2 = (dat1 (V1 m) c).arrAt 7 cfg1.N := W2_v1_2 m c
    _ = Spec.maskArr (V1 m c main_arg1) (V1 m c main_arg2) := val1_7 (V1 m) c
    _ = _ := by rw [V1_arg1 m c, V1_arg2 m c]; rfl
theorem V2_v1_3 (c : Dev nD) : V2 m c main_v1_3 = Spec.res_dlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc V2 m c main_v1_3 = (dat1 (V1 m) c).arrAt 8 cfg1.N := W2_v1_3 m c
    _ = Spec.dlpArr (V1 m c main_v0) (V1 m c main_v0) (V1 m c main_arg1) (V1 m c main_arg2) (V1 m c main_arg3) := val1_8 (V1 m) c
    _ = _ := by rw [V1_v0 m c, V1_arg1 m c, V1_arg2 m c, V1_arg3 m c]; rfl
theorem V2_v1_4 (c : Dev nD) : V2 m c main_v1_4 = Spec.res_dhp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc V2 m c main_v1_4 = (dat1 (V1 m) c).arrAt 9 cfg1.N := W2_v1_4 m c
    _ = Spec.dhpArr (V1 m c main_v0) (V1 m c main_v0) (V1 m c main_arg1) (V1 m c main_arg2) (V1 m c main_arg3) := val1_9 (V1 m) c
    _ = _ := by rw [V1_v0 m c, V1_arg1 m c, V1_arg2 m c, V1_arg3 m c]; rfl

/-- The host operations leave the second region's tiled results as they were. -/
theorem V3_v1_0 (c : Dev nD) : V3 m c main_v1_0 = V2 m c main_v1_0 := W3_of m c main_v1_0 (by decide)
theorem V3_v1_1 (c : Dev nD) : V3 m c main_v1_1 = V2 m c main_v1_1 := W3_of m c main_v1_1 (by decide)
theorem V3_v1_2 (c : Dev nD) : V3 m c main_v1_2 = V2 m c main_v1_2 := W3_of m c main_v1_2 (by decide)

/-! ## The five results at the end of the run -/

theorem W4_adjlp (c : Dev nD) : W4 m c (Proc.devRef .tc main_v10_0) = Spec.res_adjlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc W4 m c (Proc.devRef .tc main_v10_0) = (dat2 (V3 m) c).arrAt 7 cfg2.N := W4_arr m c 7
    _ = Spec.adjlpArr (V3 m c main_v1_0) Spec.eyeArr (V3 m c main_v4) (V3 m c main_v8) := val2_7 (V3 m) c
    _ = _ := by rw [V3_v1_0 m c, V3_v4 m c, V3_v8 m c, V2_v1_0 m c, V2_v1_3 m c]; rfl
theorem W4_adjhp (c : Dev nD) : W4 m c (Proc.devRef .tc main_v10_1) = Spec.res_adjhp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc W4 m c (Proc.devRef .tc main_v10_1) = (dat2 (V3 m) c).arrAt 8 cfg2.N := W4_arr m c 8
    _ = Spec.adjhpArr (V3 m c main_v1_1) (V3 m c main_v1_2) Spec.eyeArr (V3 m c main_v7) (V3 m c main_v9) := val2_8 (V3 m) c
    _ = _ := by rw [V3_v1_1 m c, V3_v1_2 m c, V3_v7 m c, V3_v9 m c, V2_v1_1 m c, V2_v1_2 m c, V2_v1_4 m c]; rfl
theorem W4_wlp (c : Dev nD) : W4 m c (Proc.devRef .tc main_v1_0) = Spec.res_wlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (((W4_arr m c 0).trans (((dat2 (V3 m) c).arrAt_in 0 rfl _).trans (A_eq2 (V3 m) c 0))).trans (V3_v1_0 m c)).trans (V2_v1_0 m c)
theorem W4_whp (c : Dev nD) : W4 m c (Proc.devRef .tc main_v1_1) = Spec.res_whp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (((W4_arr m c 1).trans (((dat2 (V3 m) c).arrAt_in 1 rfl _).trans (A_eq2 (V3 m) c 1))).trans (V3_v1_1 m c)).trans (V2_v1_1 m c)
theorem W4_mask (c : Dev nD) : W4 m c (Proc.devRef .tc main_v1_2) = Spec.res_mask (m ((c : Thread nD τ).loc main_arg1)) (m ((c : Thread nD τ).loc main_arg2)) :=
  (((W4_arr m c 2).trans (((dat2 (V3 m) c).arrAt_in 2 rfl _).trans (A_eq2 (V3 m) c 2))).trans (V3_v1_2 m c)).trans (V2_v1_2 m c)

end Cert.KernelIdeal.Val

end
-- ==== Proof.RefRun.lean ====
/-
  The reference's run read back: every weakly fair execution of the reference ends with each result at the composed
  term of its host operations over the arguments, and that term read one operation at a time at an index. This
  module only brings the two in for the modules that compare the two programs' values.
-/
import proofs.«119275_j1889785610729_1_alg».proof.Proof.RefRunP
import proofs.«119275_j1889785610729_1_alg».proof.Proof.RefReadP
-- ==== Proof.RefVal.lean ====
/-
  The reference's five results at the ideal values, read one host operation at a time at an index: each is the
  specification's formula of the six arguments.
-/
import proofs.«119275_j1889785610729_1_alg».proof.Proof.RefRun
import proofs.«119275_j1889785610729_1_alg».proof.Proof.Spec
import proofs.«119275_j1889785610729_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S4096x512, .f32⟩ : BufTy).Contents (Elt Ideal)) (x1 x2 x3 : (⟨S4096x4096, .f32⟩ : BufTy).Contents (Elt Ideal))
  (x4 : (⟨S512x128, .f32⟩ : BufTy).Contents (Elt Ideal)) (x5 : (⟨S128, .f32⟩ : BufTy).Contents (Elt Ideal))

/-! ## The embedding -/

private theorem lidx0 (p : Fin 4096) (h : Fin 128) (k : Fin 512) : lidx_main_v0 (ix2 p h) k = ix2 p k :=
  funext fun a => Fin.ext (by match a with | ⟨0, _⟩ => rfl | ⟨1, _⟩ => rfl)
private theorem ridx0 (p : Fin 4096) (h : Fin 128) (k : Fin 512) : ridx_main_v0 (ix2 p h) k = ix2 k h :=
  funext fun a => Fin.ext (by match a with | ⟨0, _⟩ => rfl | ⟨1, _⟩ => rfl)
private theorem bidx (p : Fin 4096) (h : Fin 128) : idx_main_v1 (idx_main_v2 (ix2 p h)) = ix1 h :=
  funext fun a => Fin.ext (by match a with | ⟨0, _⟩ => rfl)

/-- The rectified affine map at one node and one hidden unit. -/
private theorem v4_at (p : Fin 4096) (h : Fin 128) :
    val_main_v4 (F := Ideal) x0 x4 x5 (ix2 p h) = Spec.emb x0 x4 x5 p h := by
  rw [val_main_v4_apply, val_main_v3_apply, val_main_v0_apply, val_main_v2_apply, val_main_v1_apply,
    val_main_call0_v0_apply, val_main_call0_cst_apply]
  simp only [lidx0, ridx0, bidx, Ideal.maximumf_def, Ideal.addf_def, Ideal.ofBits_def, Ideal.ofBits_zero_f32]
  rfl

private theorem v4_eq : val_main_v4 (F := Ideal) x0 x4 x5 = Spec.res_emb x0 x4 x5 := by
  funext i
  obtain ⟨p, h, rfl⟩ : ∃ (p : Fin 4096) (h : Fin 128), i = ix2 p h := ⟨i 0, i 1, eq_ix2 i⟩
  exact v4_at x0 x4 x5 p h

/-! ## The scores -/

private theorem lidx6 (p q : Fin 4096) (k : Fin 128) : lidx_main_v6 (ix2 p q) k = ix2 p k :=
  funext fun a => Fin.ext (by match a with | ⟨0, _⟩ => rfl | ⟨1, _⟩ => rfl)
private theorem tidx6 (p q : Fin 4096) (k : Fin 128) : idx_main_v5 (ridx_main_v6 (ix2 p q) k) = ix2 q k :=
  funext fun a => Fin.ext (by match a with | ⟨0, _⟩ => rfl | ⟨1, _⟩ => rfl)

/-- The inner product of two nodes' embeddings. -/
private theorem v6_at (p q : Fin 4096) :
    val_main_v6 (F := Ideal) x0 x4 x5 (ix2 p q)
      = Spec.score (Spec.res_emb x0 x4 x5) (Spec.res_emb x0 x4 x5) p q := by
  rw [val_main_v6_apply]
  simp only [val_main_v5_apply, lidx6, tidx6, v4_eq]
  rfl

/-! ## The multiplicity and the mask -/

/-- A one-bit comparison converted unsigned is the indicator of the compared property. -/
private theorem ubit (c : Prop) [Decidable c] :
    (((BitVec.ofBool (decide c)).toNat : ℝ) : EReal) = if c then 1 else 0 := by
  rw [Spec.uitofp_bit]
  simp only [Spec.ofBool_eq_one, decide_eq_true_eq]

private theorem v9_at (i : S4096x4096.Idx) : val_main_v9 (F := Ideal) x1 i = Spec.ind (x1 i) := by
  rw [val_main_v9_apply, val_main_v8_apply, val_main_v7_apply, val_main_cst_apply]
  simp only [Ideal.ofBits_def, Ideal.ofBits_zero_f32, Ideal.cmpf_def, Ideal.cmp]
  exact ubit _

private theorem v12_at (i : S4096x4096.Idx) : val_main_v12 (F := Ideal) x2 i = Spec.ind (x2 i) := by
  rw [val_main_v12_apply, val_main_v11_apply, val_main_v10_apply, val_main_cst_0_apply]
  simp only [Ideal.ofBits_def, Ideal.ofBits_zero_f32, Ideal.cmpf_def, Ideal.cmp]
  exact ubit _

private theorem v13_at (p q : Fin 4096) :
    val_main_v13 (F := Ideal) x1 x2 (ix2 p q) = Spec.mult x1 x2 p q := by
  rw [val_main_v13_apply, v9_at, v12_at]
  rfl

private theorem v16_at (p q : Fin 4096) :
    val_main_v16 (F := Ideal) x1 x2 (ix2 p q) = Spec.mask x1 x2 p q := by
  rw [val_main_v16_apply, val_main_v15_apply, v13_at, val_main_v14_apply, val_main_cst_1_apply]
  simp only [Ideal.ofBits_def, Ideal.ofBits_zero_f32, Ideal.cmpf_def, Ideal.cmp]
  exact ubit _

theorem ref_mask : val_main_v16 (F := Ideal) x1 x2 = Spec.res_mask x1 x2 := by
  funext i
  obtain ⟨p, q, rfl⟩ : ∃ (p q : Fin 4096), i = ix2 p q := ⟨i 0, i 1, eq_ix2 i⟩
  exact v16_at x1 x2 p q

/-! ## The noise, the gate and the two weight matrices -/

private theorem v21_at (p q : Fin 4096) :
    val_main_v21 (F := Ideal) x3 (ix2 p q) = Spec.epsv x3 p q := by
  rw [val_main_v21_apply, val_main_v19_apply, val_main_v18_apply, val_main_cst_2_apply, val_main_v20_apply,
    val_main_cst_3_apply]
  rfl

private theorem v28_at (p q : Fin 4096) :
    val_main_v28 (F := Ideal) x0 x1 x2 x3 x4 x5 (ix2 p q)
      = Spec.gate (Spec.res_emb x0 x4 x5) (Spec.res_emb x0 x4 x5) x1 x2 x3 p q := by
  rw [val_main_v28_apply, val_main_v26_apply, val_main_v25_apply, val_main_v22_apply, val_main_v24_apply,
    val_main_v23_apply, v21_at, val_main_v17_apply, v6_at, v13_at, val_main_v27_apply, val_main_cst_4_apply]
  rfl

/-- The expansion `1 / (1 + exp (-x))` is the logistic function. -/
private theorem v34_at (p q : Fin 4096) :
    val_main_v34 (F := Ideal) x0 x1 x2 x3 x4 x5 (ix2 p q)
      = Spec.sg (Spec.res_emb x0 x4 x5) (Spec.res_emb x0 x4 x5) x1 x2 x3 p q := by
  rw [val_main_v34_apply, val_main_v32_apply, val_main_v30_apply, val_main_v29_apply, v28_at,
    val_main_v33_apply, val_main_cst_6_apply, val_main_v31_apply, val_main_cst_5_apply]
  simp only [Ideal.ofBits_def, Ideal.hostDivf_def, Ideal.addf_def, Ideal.hostUnary_exp_def, Ideal.hostNegf_def,
    Ideal.negf_def]
  rw [show Ideal.ofBits .f32 0x3F800000#32 = 1 from Spec.cOne_eq]
  rfl

private theorem v35_at (p q : Fin 4096) :
    val_main_v35 (F := Ideal) x0 x1 x2 x3 x4 x5 (ix2 p q)
      = Spec.wlp (Spec.res_emb x0 x4 x5) (Spec.res_emb x0 x4 x5) x1 x2 x3 p q := by
  rw [val_main_v35_apply, v34_at, v16_at]
  rfl

private theorem v38_at (p q : Fin 4096) :
    val_main_v38 (F := Ideal) x0 x1 x2 x3 x4 x5 (ix2 p q)
      = Spec.whp (Spec.res_emb x0 x4 x5) (Spec.res_emb x0 x4 x5) x1 x2 x3 p q := by
  rw [val_main_v38_apply, val_main_v37_apply, v34_at, v16_at, val_main_v36_apply, val_main_cst_7_apply]
  rfl

theorem ref_wlp : val_main_v35 (F := Ideal) x0 x1 x2 x3 x4 x5 = Spec.res_wlp x0 x1 x2 x3 x4 x5 := by
  funext i
  obtain ⟨p, q, rfl⟩ : ∃ (p q : Fin 4096), i = ix2 p q := ⟨i 0, i 1, eq_ix2 i⟩
  exact v35_at x0 x1 x2 x3 x4 x5 p q

theorem ref_whp : val_main_v38 (F := Ideal) x0 x1 x2 x3 x4 x5 = Spec.res_whp x0 x1 x2 x3 x4 x5 := by
  funext i
  obtain ⟨p, q, rfl⟩ : ∃ (p q : Fin 4096), i = ix2 p q := ⟨i 0, i 1, eq_ix2 i⟩
  exact v38_at x0 x1 x2 x3 x4 x5 p q

/-! ## The identity matrix -/

/-- Two row or column numbers below 4096 are equal as 32-bit words exactly when they are equal. -/
private theorem word_eq_iff (r s : Fin 4096) :
    (BitVec.ofNat 32 r.val + 0#32 = BitVec.ofNat 32 s.val) ↔ r.val = s.val := by
  constructor
  · intro h
    have h' := congrArg BitVec.toNat h
    simp only [BitVec.add_zero, BitVec.toNat_ofNat] at h'
    have hr := r.isLt
    have hs := s.isLt
    omega
  · intro h
    rw [h, BitVec.add_zero]

private theorem v44_at (p q : Fin 4096) : val_main_v44 (F := Ideal) (ix2 p q) = Spec.eyeN p.val q.val := by
  rw [val_main_v44_apply, val_main_v43_apply, val_main_v42_apply, val_main_v39_apply, val_main_v40_apply,
    val_main_v41_apply, val_main_c_apply]
  show (((IntOp.cmpi .eq (BitVec.ofNat 32 p.val + 0#32) (BitVec.ofNat 32 q.val)).toNat : ℝ) : EReal) = _
  rw [Spec.uitofp_bit]
  simp only [IntOp.cmpi_eq, word_eq_iff]
  rfl

private theorem v44_eq : val_main_v44 (F := Ideal) = Spec.eyeArr := by
  funext i
  obtain ⟨p, q, rfl⟩ : ∃ (p q : Fin 4096), i = ix2 p q := ⟨i 0, i 1, eq_ix2 i⟩
  exact v44_at p q

/-- A row of the identity sums to one. -/
private theorem eye_row (p : Fin 4096) : ∑ k : Fin 4096, Spec.eyeN p.val k.val = 1 := by
  unfold Spec.eyeN
  simp only [Fin.val_inj]
  rw [Finset.sum_ite_eq]
  simp

/-! ## The row sums and their inverse square roots -/

private theorem sidx (p k : Fin 4096) : idx_main_v46 (ix1 p) k = ix2 p k :=
  funext fun a => Fin.ext (by match a with | ⟨0, _⟩ => rfl | ⟨1, _⟩ => rfl)
private theorem sidx' (p k : Fin 4096) : idx_main_v57 (ix1 p) k = ix2 p k :=
  funext fun a => Fin.ext (by match a with | ⟨0, _⟩ => rfl | ⟨1, _⟩ => rfl)

private theorem v45_at (p q : Fin 4096) :
    val_main_v45 (F := Ideal) x0 x1 x2 x3 x4 x5 (ix2 p q)
      = Spec.wlp (Spec.res_emb x0 x4 x5) (Spec.res_emb x0 x4 x5) x1 x2 x3 p q + Spec.eyeN p.val q.val := by
  rw [val_main_v45_apply, v35_at, v44_at]
  rfl

private theorem v56_at (p q : Fin 4096) :
    val_main_v56 (F := Ideal) x0 x1 x2 x3 x4 x5 (ix2 p q)
      = Spec.whp (Spec.res_emb x0 x4 x5) (Spec.res_emb x0 x4 x5) x1 x2 x3 p q + Spec.eyeN p.val q.val := by
  rw [val_main_v56_apply, v38_at, v44_at]
  rfl

/-- A row of `w_lp + I` sums to the row of `w_lp` plus one. -/
private theorem v46_at (p : Fin 4096) :
    val_main_v46 (F := Ideal) x0 x1 x2 x3 x4 x5 (ix1 p)
      = Spec.rowLp (Spec.res_emb x0 x4 x5) (Spec.res_emb x0 x4 x5) x1 x2 x3 p + 1 := by
  rw [val_main_v46_apply, val_main_cst_8_apply]
  simp only [sidx, v45_at, Ideal.ofBits_def, Ideal.ofBits_zero_f32]
  rw [zero_add, Finset.sum_add_distrib, eye_row]
  rfl

private theorem v57_at (p : Fin 4096) :
    val_main_v57 (F := Ideal) x0 x1 x2 x3 x4 x5 (ix1 p)
      = Spec.rowHp (Spec.res_emb x0 x4 x5) (Spec.res_emb x0 x4 x5) x1 x2 x3 p + 1 := by
  rw [val_main_v57_apply, val_main_cst_10_apply]
  simp only [sidx', v56_at, Ideal.ofBits_def, Ideal.ofBits_zero_f32]
  rw [zero_add, Finset.sum_add_distrib, eye_row]
  rfl

private theorem v49_at (p : Fin 4096) :
    val_main_v49 (F := Ideal) x0 x1 x2 x3 x4 x5 (ix1 p)
      = Spec.dis (Spec.res_dlp x0 x1 x2 x3 x4 x5 (ix2 p 0)) := by
  rw [val_main_v49_apply, val_main_v48_apply, v46_at, val_main_v47_apply, val_main_cst_9_apply]
  rfl

private theorem v60_at (p : Fin 4096) :
    val_main_v60 (F := Ideal) x0 x1 x2 x3 x4 x5 (ix1 p)
      = Spec.dis (Spec.res_dhp x0 x1 x2 x3 x4 x5 (ix2 p 0)) := by
  rw [val_main_v60_apply, val_main_v59_apply, v57_at, val_main_v58_apply, val_main_cst_11_apply]
  rfl

/-! ## The two normalized adjacencies -/

private theorem cidx (p q : Fin 4096) : idx_main_v50 (idx_main_v51 (ix2 p q)) = ix1 p :=
  funext fun a => Fin.ext (by match a with | ⟨0, _⟩ => rfl)
private theorem ridx (p q : Fin 4096) : idx_main_v53 (idx_main_v54 (ix2 p q)) = ix1 q :=
  funext fun a => Fin.ext (by match a with | ⟨0, _⟩ => rfl)
private theorem cidx' (p q : Fin 4096) : idx_main_v61 (idx_main_v62 (ix2 p q)) = ix1 p :=
  funext fun a => Fin.ext (by match a with | ⟨0, _⟩ => rfl)
private theorem ridx' (p q : Fin 4096) : idx_main_v64 (idx_main_v65 (ix2 p q)) = ix1 q :=
  funext fun a => Fin.ext (by match a with | ⟨0, _⟩ => rfl)

private theorem v55_at (p q : Fin 4096) :
    val_main_v55 (F := Ideal) x0 x1 x2 x3 x4 x5 (ix2 p q)
      = Spec.adjlp (Spec.res_wlp x0 x1 x2 x3 x4 x5) Spec.eyeArr (Spec.colOf (Spec.res_dlp x0 x1 x2 x3 x4 x5))
          (Spec.rowOf (Spec.res_dlp x0 x1 x2 x3 x4 x5)) p q := by
  rw [val_main_v55_apply, val_main_v52_apply, v45_at, val_main_v51_apply, val_main_v50_apply, cidx, v49_at,
    val_main_v54_apply, val_main_v53_apply, ridx, v49_at]
  rfl

private theorem v70_at (p q : Fin 4096) :
    val_main_v70 (F := Ideal) x0 x1 x2 x3 x4 x5 (ix2 p q)
      = Spec.adjhp (Spec.res_whp x0 x1 x2 x3 x4 x5) (Spec.res_mask x1 x2) Spec.eyeArr
          (Spec.colOf (Spec.res_dhp x0 x1 x2 x3 x4 x5)) (Spec.rowOf (Spec.res_dhp x0 x1 x2 x3 x4 x5)) p q := by
  rw [val_main_v70_apply, v44_at, val_main_v69_apply, val_main_v67_apply, val_main_v66_apply, val_main_v63_apply,
    v56_at, val_main_v62_apply, val_main_v61_apply, cidx', v60_at, val_main_v65_apply, val_main_v64_apply, ridx',
    v60_at, v16_at, val_main_v68_apply, val_main_cst_12_apply]
  rfl

theorem ref_adjlp : val_main_v55 (F := Ideal) x0 x1 x2 x3 x4 x5 = Spec.res_adjlp x0 x1 x2 x3 x4 x5 := by
  funext i
  obtain ⟨p, q, rfl⟩ : ∃ (p q : Fin 4096), i = ix2 p q := ⟨i 0, i 1, eq_ix2 i⟩
  exact v55_at x0 x1 x2 x3 x4 x5 p q

theorem ref_adjhp : val_main_v70 (F := Ideal) x0 x1 x2 x3 x4 x5 = Spec.res_adjhp x0 x1 x2 x3 x4 x5 := by
  funext i
  obtain ⟨p, q, rfl⟩ : ∃ (p q : Fin 4096), i = ix2 p q := ⟨i 0, i 1, eq_ix2 i⟩
  exact v70_at x0 x1 x2 x3 x4 x5 p q

end Cert.ReferenceIdeal.RefValue

end
-- ==== Proof.lean ====
/-
  The certificate of the edge-weight kernel against its reference: node embeddings `emb = max (X · W + b, 0)`, pairwise
  scores `emb · embᵀ` gated through a logistic of `log ε − log1p (−ε) + score · mult`, the low- and high-pass weights on
  the union of two adjacencies, and both weight matrices plus the identity normalized symmetrically by the inverse
  square roots of their row sums.

  The kernel runs in three pipelined regions with ten host operations between the second and the third; the reference
  is one host program. At the ideal values both compute the same extended-real formulas (Proof/Spec.lean): the only
  place the two arrange their arithmetic differently is a row sum of `w + I`, which the reference takes as one sum over
  4096 columns and the kernel as eight partial sums of `w` over 512 columns each, added in order, and then one more;
  sums of extended reals commute and associate and a row of the identity sums to one, so the two agree without any
  appeal to finiteness. The three frames come from the programs' runs: every unscoped buffer is followed from the launch
  to the return, and no region and no host operation writes an argument.
-/
import proofs.«119275_j1889785610729_1_alg».proof.Defs
import proofs.«119275_j1889785610729_1_alg».proof.Proof.KRun
import proofs.«119275_j1889785610729_1_alg».proof.Proof.ValRun
import proofs.«119275_j1889785610729_1_alg».proof.Proof.RefVal
import proofs.«119275_j1889785610729_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ =>
  (θ_run (Cert.Kernel.defs (F := Bits)) _ _).mono (fun _ h c =>
    ⟨(h c _ (Cert.Kernel.Hand.mem_uc Cert.Kernel.main_arg0 (by decide))).trans (Cert.Kernel.Hand.W4_main_arg0 m c),
      (h c _ (Cert.Kernel.Hand.mem_uc Cert.Kernel.main_arg1 (by decide))).trans (Cert.Kernel.Hand.W4_main_arg1 m c),
      (h c _ (Cert.Kernel.Hand.mem_uc Cert.Kernel.main_arg2 (by decide))).trans (Cert.Kernel.Hand.W4_main_arg2 m c),
      (h c _ (Cert.Kernel.Hand.mem_uc Cert.Kernel.main_arg3 (by decide))).trans (Cert.Kernel.Hand.W4_main_arg3 m c),
      (h c _ (Cert.Kernel.Hand.mem_uc Cert.Kernel.main_arg4 (by decide))).trans (Cert.Kernel.Hand.W4_main_arg4 m c),
      (h c _ (Cert.Kernel.Hand.mem_uc Cert.Kernel.main_arg5 (by decide))).trans (Cert.Kernel.Hand.W4_main_arg5 m c)⟩)
    (Cert.Kernel.Hand.run_all (F := Bits) m ρ)

/-- The idealized kernel runs and leaves its arguments as launched. -/
theorem frame_ki : Cert.frame_KernelIdeal := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c)⟩)
    (Cert.KernelIdeal.Hand.run_all (F := Ideal) m ρ)

/-- The reference runs and leaves its arguments as launched: its run with the results dropped. -/
theorem frame_ri : Cert.frame_ReferenceIdeal := fun m ρ _ =>
  (θ_run (Cert.ReferenceIdeal.defs (F := Ideal)) _ _).mono (fun _ h c => (h c).2.2.2.2.2) (Cert.ReferenceIdeal.Value.run (F := Ideal) m ρ)

/-- The ideal pass rewrote nothing. -/
theorem preserves : Cert.preserves_Kernel_KernelIdeal := trivial

/-- From memories that agree on the arguments both idealized programs end with the specification's five arrays:
    the kernel by its run followed buffer by buffer, the reference by its run read operation by operation. -/
theorem algebraic : Cert.algebraic_KernelIdeal_ReferenceIdeal := by
  intro m ρ m' ρ' _ hagree
  refine ⟨fun c => Cert.Spec.res_adjlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.res_adjhp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.res_wlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.res_whp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.res_mask (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    ?_, ?_⟩
  · exact (θ_run (Cert.KernelIdeal.defs (F := Ideal)) _ _).mono (fun _ h c =>
      ⟨(h c _ (Cert.KernelIdeal.Hand.mem_uc Cert.KernelIdeal.main_v10_0 (by decide))).trans (Cert.KernelIdeal.Val.W4_adjlp m c),
        (h c _ (Cert.KernelIdeal.Hand.mem_uc Cert.KernelIdeal.main_v10_1 (by decide))).trans (Cert.KernelIdeal.Val.W4_adjhp m c),
        (h c _ (Cert.KernelIdeal.Hand.mem_uc Cert.KernelIdeal.main_v1_0 (by decide))).trans (Cert.KernelIdeal.Val.W4_wlp m c),
        (h c _ (Cert.KernelIdeal.Hand.mem_uc Cert.KernelIdeal.main_v1_1 (by decide))).trans (Cert.KernelIdeal.Val.W4_whp m c),
        (h c _ (Cert.KernelIdeal.Hand.mem_uc Cert.KernelIdeal.main_v1_2 (by decide))).trans (Cert.KernelIdeal.Val.W4_mask m c),
        (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c)⟩)
      (Cert.KernelIdeal.Hand.run_all (F := Ideal) m ρ)
  · refine (θ_run (Cert.ReferenceIdeal.defs (F := Ideal)) _ _).mono (fun _ h c => ?_) (Cert.ReferenceIdeal.Value.run (F := Ideal) m' ρ')
    obtain ⟨h55, h70, h35, h38, h16, hargs⟩ := h c
    refine ⟨?_, ?_, ?_, ?_, ?_, hargs⟩
    · rw [h55, Cert.ReferenceIdeal.Read.val_main_v55_eq, Cert.ReferenceIdeal.RefValue.ref_adjlp, (hagree c).1, (hagree c).2.1, (hagree c).2.2.1, (hagree c).2.2.2.1, (hagree c).2.2.2.2.1, (hagree c).2.2.2.2.2]
    · rw [h70, Cert.ReferenceIdeal.Read.val_main_v70_eq, Cert.ReferenceIdeal.RefValue.ref_adjhp, (hagree c).1, (hagree c).2.1, (hagree c).2.2.1, (hagree c).2.2.2.1, (hagree c).2.2.2.2.1, (hagree c).2.2.2.2.2]
    · rw [h35, Cert.ReferenceIdeal.Read.val_main_v35_eq, Cert.ReferenceIdeal.RefValue.ref_wlp, (hagree c).1, (hagree c).2.1, (hagree c).2.2.1, (hagree c).2.2.2.1, (hagree c).2.2.2.2.1, (hagree c).2.2.2.2.2]
    · rw [h38, Cert.ReferenceIdeal.Read.val_main_v38_eq, Cert.ReferenceIdeal.RefValue.ref_whp, (hagree c).1, (hagree c).2.1, (hagree c).2.2.1, (hagree c).2.2.2.1, (hagree c).2.2.2.2.1, (hagree c).2.2.2.2.2]
    · rw [h16, Cert.ReferenceIdeal.Read.val_main_v16_eq, Cert.ReferenceIdeal.RefValue.ref_mask, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
